-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x100x81 : Shape := ⟨3, ![2, 100, 81]⟩
abbrev S2x100x384x384 : Shape := ⟨4, ![2, 100, 384, 384]⟩
abbrev S2x64 : Shape := ⟨2, ![2, 64]⟩
abbrev S2x64x384x384 : Shape := ⟨4, ![2, 64, 384, 384]⟩
abbrev S1024 : Shape := ⟨1, ![1024]⟩
abbrev S_ : Shape := ⟨0, ![]⟩

class Facts : Prop where
  bcast_S_S2x100x81 : S_.BroadcastsInDim S2x100x81 (![] : Fin 0 → Fin S2x100x81.rank)
  reducesTo_S2x100x81_S_d0_1_2 : S2x100x81.ReducesTo [0, 1, 2] S_
  h_S_ : 0 < S_.numel
  bcast_S_S2x100x384x384 : S_.BroadcastsInDim S2x100x384x384 (![] : Fin 0 → Fin S2x100x384x384.rank)
  reducesTo_S2x100x384x384_S_d0_1_2_3 : S2x100x384x384.ReducesTo [0, 1, 2, 3] S_
  bcast_S_S2x64 : S_.BroadcastsInDim S2x64 (![] : Fin 0 → Fin S2x64.rank)
  reducesTo_S2x64_S_d0_1 : S2x64.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : IVec S1024 32) (main_v12 : IVec S_ 1) (main_v15 : IVec S_ 1) : IVec S_ 1 :=
  let main_v16 : IVec S_ 1 := andi main_v12 main_v15
  let main_c_6 : IVec S_ 32 := constantI S_ 32 0#32
  let main_v17 : IVec S1024 32 := broadcastInDim S1024 ![] bcast_S_S1024 main_c_6
  let main_v18 : IVec S1024 1 := cmpi .sge main_arg4 main_v17
  let main_c_7 : IVec S_ 1 := constantI S_ 1 1#1
  let main_v19 : IVec S_ 1 := (fun x v => Host.reduce IntOp.andi x v reducesTo_S1024_S_d0 h_S_) main_v18 main_c_7
  let main_v20 : IVec S_ 1 := andi main_v16 main_v19
  let main_c_8 : IVec S_ 32 := constantI S_ 32 147456#32
  let main_v21 : IVec S1024 32 := broadcastInDim S1024 ![] bcast_S_S1024 main_c_8
  let main_v22 : IVec S1024 1 := cmpi .slt main_arg4 main_v21
  let main_c_9 : IVec S_ 1 := constantI S_ 1 1#1
  let main_v23 : IVec S_ 1 := (fun x v => Host.reduce IntOp.andi x v reducesTo_S1024_S_d0 h_S_) main_v22 main_c_9
  let main_v24 : IVec S_ 1 := andi main_v20 main_v23
  main_v24

def fn {F : FTy → Type} [FloatOps F] (main_arg0 : FVec F S2x100x81 .f32) (main_arg1 : FVec F S2x100x384x384 .f32) (main_arg2 : IVec S2x64 32) (main_arg3 : IVec S2x64x384x384 32) (main_arg4 : IVec S1024 32) : IVec S_ 1 :=
  let main_v0 : FVec F S2x100x81 .f32 := Host.absf main_arg0
  let main_cst : FVec F S_ .f32 := constant S_ .f32 0x7F800000#32
  let main_v1 : FVec F S2x100x81 .f32 := broadcastInDim S2x100x81 ![] bcast_S_S2x100x81 main_cst
  let main_v2 : IVec S2x100x81 1 := cmpf .olt main_v0 main_v1
  let main_c : IVec S_ 1 := constantI S_ 1 1#1
  let main_v3 : IVec S_ 1 := (fun x v => Host.reduce IntOp.andi x v reducesTo_S2x100x81_S_d0_1_2 h_S_) main_v2 main_c
  let main_v4 : FVec F S2x100x384x384 .f32 := Host.absf main_arg1
  let main_cst_0 : FVec F S_ .f32 := constant S_ .f32 0x7F800000#32
  let main_v5 : FVec F S2x100x384x384 .f32 := broadcastInDim S2x100x384x384 ![] bcast_S_S2x100x384x384 main_cst_0
  let main_v6 : IVec S2x100x384x384 1 := cmpf .olt main_v4 main_v5
  let main_c_1 : IVec S_ 1 := constantI S_ 1 1#1
  let main_v7 : IVec S_ 1 := (fun x v => Host.reduce IntOp.andi x v reducesTo_S2x100x384x384_S_d0_1_2_3 h_S_) main_v6 main_c_1
  let main_v8 : IVec S_ 1 := andi main_v3 main_v7
  let main_c_2 : IVec S_ 32 := constantI S_ 32 0#32
  let main_v9 : IVec S2x64 32 := broadcastInDim S2x64 ![] bcast_S_S2x64 main_c_2
  let main_v10 : IVec S2x64 1 := cmpi .sge main_arg2 main_v9
  let main_c_3 : IVec S_ 1 := constantI S_ 1 1#1
  let main_v11 : IVec S_ 1 := (fun x v => Host.reduce IntOp.andi x v reducesTo_S2x64_S_d0_1 h_S_) main_v10 main_c_3
  let main_v12 : IVec S_ 1 := andi main_v8 main_v11
  let main_c_4 : IVec S_ 32 := constantI S_ 32 81#32
  let main_v13 : IVec S2x64 32 := broadcastInDim S2x64 ![] bcast_S_S2x64 main_c_4
  let main_v14 : IVec S2x64 1 := cmpi .slt main_arg2 main_v13
  let main_c_5 : IVec S_ 1 := constantI S_ 1 1#1
  let main_v15 : IVec S_ 1 := (fun x v => Host.reduce IntOp.andi x v reducesTo_S2x64_S_d0_1 h_S_) main_v14 main_c_5
  fn_part1 (F := F) main_arg4 main_v12 main_v15
-- ==== Kernel.lean ====
abbrev S2x100x81 : Shape := ⟨3, ![2, 100, 81]⟩
abbrev S2x100x384x384 : Shape := ⟨4, ![2, 100, 384, 384]⟩
abbrev S2x64 : Shape := ⟨2, ![2, 64]⟩
abbrev S2x64x384x384 : Shape := ⟨4, ![2, 64, 384, 384]⟩
abbrev S1024 : Shape := ⟨1, ![1024]⟩
abbrev S2x100x147456 : Shape := ⟨3, ![2, 100, 147456]⟩
abbrev S2x64x147456 : Shape := ⟨3, ![2, 64, 147456]⟩
abbrev S2x100x64 : Shape := ⟨3, ![2, 100, 64]⟩
abbrev S2x100x1 : Shape := ⟨3, ![2, 100, 1]⟩
abbrev S2x1x64 : Shape := ⟨3, ![2, 1, 64]⟩
abbrev S1x100x12288 : Shape := ⟨3, ![1, 100, 12288]⟩
abbrev S1x64x12288 : Shape := ⟨3, ![1, 64, 12288]⟩
abbrev S1x100x64 : Shape := ⟨3, ![1, 100, 64]⟩
abbrev S1x100x1 : Shape := ⟨3, ![1, 100, 1]⟩
abbrev S1x1x64 : Shape := ⟨3, ![1, 1, 64]⟩
abbrev S100x12288 : Shape := ⟨2, ![100, 12288]⟩
abbrev S64x12288 : Shape := ⟨2, ![64, 12288]⟩
abbrev S100x1 : Shape := ⟨2, ![100, 1]⟩
abbrev S100 : Shape := ⟨1, ![100]⟩
abbrev S64 : Shape := ⟨1, ![64]⟩
abbrev S100x64 : Shape := ⟨2, ![100, 64]⟩
abbrev S_ : Shape := ⟨0, ![]⟩
abbrev S2x100 : Shape := ⟨2, ![2, 100]⟩
abbrev S2x64x1 : Shape := ⟨3, ![2, 64, 1]⟩
abbrev S1 : Shape := ⟨1, ![1]⟩
abbrev S1x1x1 : Shape := ⟨3, ![1, 1, 1]⟩
abbrev S1024x1 : Shape := ⟨2, ![1024, 1]⟩
abbrev S1x1 : Shape := ⟨2, ![1, 1]⟩
abbrev S2x100x1024 : Shape := ⟨3, ![2, 100, 1024]⟩
abbrev S2x64x1024 : Shape := ⟨3, ![2, 64, 1024]⟩

abbrev nBuf : Space → Nat
  | .hbm => 158
  | .vmem => 10
  | .smem => 0
  | _ => 0

abbrev hbmTy0_0 (i : Nat) : BufTy := match i % 128 with
  | 0 => ⟨S2x100x81, .f32⟩
  | 1 => ⟨S2x100x384x384, .f32⟩
  | 2 => ⟨S2x64, .i32⟩
  | 3 => ⟨S2x64x384x384, .i32⟩
  | 4 => ⟨S1024, .i32⟩
  | 5 => ⟨S2x100x147456, .f32⟩
  | 6 => ⟨S2x64x147456, .i32⟩
  | 7 => ⟨S2x100x64, .f32⟩
  | 8 => ⟨S2x100x1, .f32⟩
  | 9 => ⟨S2x1x64, .f32⟩
  | 10 => ⟨S_, .f32⟩
  | 11 => ⟨S2x100x64, .f32⟩
  | 12 => ⟨S2x100x64, .f32⟩
  | 13 => ⟨S2x100x64, .f32⟩
  | 14 => ⟨S2x100x64, .f32⟩
  | 15 => ⟨S2x100x64, .f32⟩
  | 16 => ⟨S_, .f32⟩
  | 17 => ⟨S2x100x64, .f32⟩
  | 18 => ⟨S2x100x64, .f32⟩
  | 19 => ⟨S2x100x64, .f32⟩
  | 20 => ⟨S_, .f32⟩
  | 21 => ⟨S2x100x64, .f32⟩
  | 22 => ⟨S2x100x64, .f32⟩
  | 23 => ⟨S_, .f32⟩
  | 24 => ⟨S2x100, .f32⟩
  | 25 => ⟨S_, .f32⟩
  | 26 => ⟨S2x100, .f32⟩
  | 27 => ⟨S2x100, .f32⟩
  | 28 => ⟨S2x100x1, .f32⟩
  | 29 => ⟨S2x100x81, .f32⟩
  | 30 => ⟨S2x100x81, .f32⟩
  | 31 => ⟨S2x100x81, .f32⟩
  | 32 => ⟨S_, .f32⟩
  | 33 => ⟨S2x100, .f32⟩
  | 34 => ⟨S2x100x1, .f32⟩
  | 35 => ⟨S2x100x81, .f32⟩
  | 36 => ⟨S2x100x81, .f32⟩
  | 37 => ⟨S_, .i32⟩
  | 38 => ⟨S2x64, .i32⟩
  | 39 => ⟨S2x64, .i1⟩
  | 40 => ⟨S_, .i32⟩
  | 41 => ⟨S2x64, .i32⟩
  | 42 => ⟨S2x64, .i32⟩
  | 43 => ⟨S2x64, .i32⟩
  | 44 => ⟨S2x64x1, .i32⟩
  | 45 => ⟨S1, .i32⟩
  | 46 => ⟨S_, .i32⟩
  | 47 => ⟨S2x64x1, .i32⟩
  | 48 => ⟨S2x64x1, .i1⟩
  | 49 => ⟨S1x1x1, .i32⟩
  | 50 => ⟨S2x64x1, .i32⟩
  | 51 => ⟨S2x64x1, .i1⟩
  | 52 => ⟨S2x64x1, .i1⟩
  | 53 => ⟨S_, .i1⟩
  | 54 => ⟨S2x64, .i1⟩
  | 55 => ⟨S2x100x64, .f32⟩
  | 56 => ⟨S2x100x64, .i1⟩
  | 57 => ⟨S_, .f32⟩
  | 58 => ⟨S2x100x64, .f32⟩
  | 59 => ⟨S2x100x64, .f32⟩
  | 60 => ⟨S2x100x64, .f32⟩
  | 61 => ⟨S2x64x147456, .f32⟩
  | 62 => ⟨S_, .i32⟩
  | 63 => ⟨S1024, .i32⟩
  | 64 => ⟨S1024, .i1⟩
  | 65 => ⟨S_, .i32⟩
  | 66 => ⟨S1024, .i32⟩
  | 67 => ⟨S1024, .i32⟩
  | 68 => ⟨S1024, .i32⟩
  | 69 => ⟨S1024x1, .i32⟩
  | 70 => ⟨S1, .i32⟩
  | 71 => ⟨S_, .i32⟩
  | 72 => ⟨S1024x1, .i32⟩
  | 73 => ⟨S1024x1, .i1⟩
  | 74 => ⟨S1x1, .i32⟩
  | 75 => ⟨S1024x1, .i32⟩
  | 76 => ⟨S1024x1, .i1⟩
  | 77 => ⟨S1024x1, .i1⟩
  | 78 => ⟨S_, .i1⟩
  | 79 => ⟨S1024, .i1⟩
  | 80 => ⟨S2x100x1024, .f32⟩
  | 81 => ⟨S2x100x1024, .i1⟩
  | 82 => ⟨S_, .f32⟩
  | 83 => ⟨S2x100x1024, .f32⟩
  | 84 => ⟨S2x100x1024, .f32⟩
  | 85 => ⟨S_, .i32⟩
  | 86 => ⟨S1024, .i32⟩
  | 87 => ⟨S1024, .i1⟩
  | 88 => ⟨S_, .i32⟩
  | 89 => ⟨S1024, .i32⟩
  | 90 => ⟨S1024, .i32⟩
  | 91 => ⟨S1024, .i32⟩
  | 92 => ⟨S1024x1, .i32⟩
  | 93 => ⟨S1, .i32⟩
  | 94 => ⟨S_, .i32⟩
  | 95 => ⟨S1024x1, .i32⟩
  | 96 => ⟨S1024x1, .i1⟩
  | 97 => ⟨S1x1, .i32⟩
  | 98 => ⟨S1024x1, .i32⟩
  | 99 => ⟨S1024x1, .i1⟩
  | 100 => ⟨S1024x1, .i1⟩
  | 101 => ⟨S_, .i1⟩
  | 102 => ⟨S1024, .i1⟩
  | 103 => ⟨S2x64x1024, .f32⟩
  | 104 => ⟨S2x64x1024, .i1⟩
  | 105 => ⟨S_, .f32⟩
  | 106 => ⟨S2x64x1024, .f32⟩
  | 107 => ⟨S2x64x1024, .f32⟩
  | 108 => ⟨S_, .f32⟩
  | 109 => ⟨S2x100x1024, .f32⟩
  | 110 => ⟨S2x100x1024, .f32⟩
  | 111 => ⟨S2x100x1024, .f32⟩
  | 112 => ⟨S2x100x1024, .f32⟩
  | 113 => ⟨S2x100x1024, .f32⟩
  | 114 => ⟨S2x100x1024, .f32⟩
  | 115 => ⟨S2x100x1024, .f32⟩
  | 116 => ⟨S_, .f32⟩
  | 117 => ⟨S2x100, .f32⟩
  | 118 => ⟨S_, .f32⟩
  | 119 => ⟨S2x100, .f32⟩
  | 120 => ⟨S2x100, .f32⟩
  | 121 => ⟨S2x100x64, .f32⟩
  | 122 => ⟨S_, .f32⟩
  | 123 => ⟨S2x100x64, .f32⟩
  | 124 => ⟨S2x100x64, .f32⟩
  | 125 => ⟨S2x100x1, .f32⟩
  | 126 => ⟨S2x100x64, .f32⟩
  | 127 => ⟨S2x100x64, .f32⟩
  | _ => ⟨S2x100x81, .f32⟩

abbrev hbmTy0_1 (i : Nat) : BufTy := match i % 128 with
  | 0 => ⟨S_, .f32⟩
  | 1 => ⟨S2x100x64, .f32⟩
  | 2 => ⟨S2x100x64, .f32⟩
  | 3 => ⟨S_, .f32⟩
  | 4 => ⟨S2x100x64, .f32⟩
  | 5 => ⟨S2x100x64, .f32⟩
  | 6 => ⟨S2x100x64, .f32⟩
  | 7 => ⟨S_, .f32⟩
  | 8 => ⟨S2x100x64, .f32⟩
  | 9 => ⟨S2x100x64, .f32⟩
  | 10 => ⟨S2x100x64, .f32⟩
  | 11 => ⟨S_, .f32⟩
  | 12 => ⟨S_, .f32⟩
  | 13 => ⟨S_, .f32⟩
  | 14 => ⟨S2x100x64, .i1⟩
  | 15 => ⟨S_, .f32⟩
  | 16 => ⟨S2x100x64, .f32⟩
  | 17 => ⟨S2x100x64, .f32⟩
  | 18 => ⟨S_, .f32⟩
  | 19 => ⟨S2x100x64, .f32⟩
  | 20 => ⟨S2x100x64, .i1⟩
  | 21 => ⟨S_, .f32⟩
  | 22 => ⟨S2x100x64, .f32⟩
  | 23 => ⟨S2x100x64, .f32⟩
  | 24 => ⟨S_, .f32⟩
  | 25 => ⟨S2x100x64, .f32⟩
  | 26 => ⟨S2x100x64, .i1⟩
  | 27 => ⟨S_, .f32⟩
  | 28 => ⟨S2x100x64, .f32⟩
  | 29 => ⟨S2x100x64, .f32⟩
  | _ => ⟨S2x100x81, .f32⟩

abbrev hbmTy (i : Nat) : BufTy := match i / 128 with
  | 0 => hbmTy0_0 i
  | 1 => hbmTy0_1 i
  | _ => ⟨S2x100x81, .f32⟩

abbrev bufTy : (tb : Table) → Fin (tcTables nBuf tb) → BufTy
  | .hbm, ⟨i, _⟩ => hbmTy i
  | .local _ .vmem, ⟨0, _⟩ => ⟨S1x100x12288, .f32⟩
  | .local _ .vmem, ⟨1, _⟩ => ⟨S1x100x12288, .f32⟩
  | .local _ .vmem, ⟨2, _⟩ => ⟨S1x64x12288, .i32⟩
  | .local _ .vmem, ⟨3, _⟩ => ⟨S1x64x12288, .i32⟩
  | .local _ .vmem, ⟨4, _⟩ => ⟨S1x100x64, .f32⟩
  | .local _ .vmem, ⟨5, _⟩ => ⟨S1x100x64, .f32⟩
  | .local _ .vmem, ⟨6, _⟩ => ⟨S1x100x1, .f32⟩
  | .local _ .vmem, ⟨7, _⟩ => ⟨S1x100x1, .f32⟩
  | .local _ .vmem, ⟨8, _⟩ => ⟨S1x1x64, .f32⟩
  | .local _ .vmem, ⟨9, _⟩ => ⟨S1x1x64, .f32⟩
  | _, _ => ⟨S2x100x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_c : Ref sig .tc := ⟨.hbm, 37, rfl⟩
abbrev main_call0_v0 : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_c_1 : Ref sig .tc := ⟨.hbm, 45, rfl⟩
abbrev main_call0_c_2 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_3 : Ref sig .tc := ⟨.hbm, 53, rfl⟩
abbrev main_call0_v12 : Ref sig .tc := ⟨.hbm, 54, rfl⟩
abbrev main_call0_v13 : Ref sig .tc := ⟨.hbm, 55, rfl⟩
abbrev main_call0_v14 : Ref sig .tc := ⟨.hbm, 56, rfl⟩
abbrev main_call0_cst : Ref sig .tc := ⟨.hbm, 57, rfl⟩
abbrev main_call0_v15 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_call1_c : Ref sig .tc := ⟨.hbm, 62, rfl⟩
abbrev main_call1_v0 : Ref sig .tc := ⟨.hbm, 63, rfl⟩
abbrev main_call1_v1 : Ref sig .tc := ⟨.hbm, 64, rfl⟩
abbrev main_call1_c_0 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_c_1 : Ref sig .tc := ⟨.hbm, 70, rfl⟩
abbrev main_call1_c_2 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_c_3 : Ref sig .tc := ⟨.hbm, 78, rfl⟩
abbrev main_call1_v12 : Ref sig .tc := ⟨.hbm, 79, rfl⟩
abbrev main_call1_v13 : Ref sig .tc := ⟨.hbm, 80, rfl⟩
abbrev main_call1_v14 : Ref sig .tc := ⟨.hbm, 81, rfl⟩
abbrev main_call1_cst : Ref sig .tc := ⟨.hbm, 82, rfl⟩
abbrev main_call1_v15 : Ref sig .tc := ⟨.hbm, 83, rfl⟩
abbrev main_v27 : Ref sig .tc := ⟨.hbm, 84, rfl⟩
abbrev main_call2_c : Ref sig .tc := ⟨.hbm, 85, rfl⟩
abbrev main_call2_v0 : Ref sig .tc := ⟨.hbm, 86, rfl⟩
abbrev main_call2_v1 : Ref sig .tc := ⟨.hbm, 87, rfl⟩
abbrev main_call2_c_0 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_c_1 : Ref sig .tc := ⟨.hbm, 93, rfl⟩
abbrev main_call2_c_2 : Ref sig .tc := ⟨.hbm, 94, rfl⟩
abbrev main_call2_v6 : Ref sig .tc := ⟨.hbm, 95, rfl⟩
abbrev main_call2_v7 : Ref sig .tc := ⟨.hbm, 96, rfl⟩
abbrev main_call2_v8 : Ref sig .tc := ⟨.hbm, 97, rfl⟩
abbrev main_call2_v9 : Ref sig .tc := ⟨.hbm, 98, rfl⟩
abbrev main_call2_v10 : Ref sig .tc := ⟨.hbm, 99, rfl⟩
abbrev main_call2_v11 : Ref sig .tc := ⟨.hbm, 100, rfl⟩
abbrev main_call2_c_3 : Ref sig .tc := ⟨.hbm, 101, rfl⟩
abbrev main_call2_v12 : Ref sig .tc := ⟨.hbm, 102, rfl⟩
abbrev main_call2_v13 : Ref sig .tc := ⟨.hbm, 103, rfl⟩
abbrev main_call2_v14 : Ref sig .tc := ⟨.hbm, 104, rfl⟩
abbrev main_call2_cst : Ref sig .tc := ⟨.hbm, 105, rfl⟩
abbrev main_call2_v15 : Ref sig .tc := ⟨.hbm, 106, rfl⟩
abbrev main_v28 : Ref sig .tc := ⟨.hbm, 107, rfl⟩
abbrev main_cst_5 : Ref sig .tc := ⟨.hbm, 108, rfl⟩
abbrev main_v29 : Ref sig .tc := ⟨.hbm, 109, rfl⟩
abbrev main_v30 : Ref sig .tc := ⟨.hbm, 110, rfl⟩
abbrev main_v31 : Ref sig .tc := ⟨.hbm, 111, rfl⟩
abbrev main_v32 : Ref sig .tc := ⟨.hbm, 112, rfl⟩
abbrev main_v33 : Ref sig .tc := ⟨.hbm, 113, rfl⟩
abbrev main_v34 : Ref sig .tc := ⟨.hbm, 114, rfl⟩
abbrev main_v35 : Ref sig .tc := ⟨.hbm, 115, rfl⟩
abbrev main_cst_6 : Ref sig .tc := ⟨.hbm, 116, rfl⟩
abbrev main_v36 : Ref sig .tc := ⟨.hbm, 117, rfl⟩
abbrev main_cst_7 : Ref sig .tc := ⟨.hbm, 118, rfl⟩
abbrev main_v37 : Ref sig .tc := ⟨.hbm, 119, rfl⟩
abbrev main_v38 : Ref sig .tc := ⟨.hbm, 120, rfl⟩
abbrev main_v39 : Ref sig .tc := ⟨.hbm, 121, rfl⟩
abbrev main_cst_8 : Ref sig .tc := ⟨.hbm, 122, rfl⟩
abbrev main_v40 : Ref sig .tc := ⟨.hbm, 123, rfl⟩
abbrev main_v41 : Ref sig .tc := ⟨.hbm, 124, rfl⟩
abbrev main_v42 : Ref sig .tc := ⟨.hbm, 125, rfl⟩
abbrev main_v43 : Ref sig .tc := ⟨.hbm, 126, rfl⟩
abbrev main_v44 : Ref sig .tc := ⟨.hbm, 127, rfl⟩
abbrev main_cst_9 : Ref sig .tc := ⟨.hbm, 128, rfl⟩
abbrev main_v45 : Ref sig .tc := ⟨.hbm, 129, rfl⟩
abbrev main_v46 : Ref sig .tc := ⟨.hbm, 130, rfl⟩
abbrev main_cst_10 : Ref sig .tc := ⟨.hbm, 131, rfl⟩
abbrev main_v47 : Ref sig .tc := ⟨.hbm, 132, rfl⟩
abbrev main_v48 : Ref sig .tc := ⟨.hbm, 133, rfl⟩
abbrev main_v49 : Ref sig .tc := ⟨.hbm, 134, rfl⟩
abbrev main_cst_11 : Ref sig .tc := ⟨.hbm, 135, rfl⟩
abbrev main_v50 : Ref sig .tc := ⟨.hbm, 136, rfl⟩
abbrev main_v51 : Ref sig .tc := ⟨.hbm, 137, rfl⟩
abbrev main_v52 : Ref sig .tc := ⟨.hbm, 138, rfl⟩
abbrev main_cst_12 : Ref sig .tc := ⟨.hbm, 139, rfl⟩
abbrev main_cst_13 : Ref sig .tc := ⟨.hbm, 140, rfl⟩
abbrev main_cst_14 : Ref sig .tc := ⟨.hbm, 141, rfl⟩
abbrev main_call3_v0 : Ref sig .tc := ⟨.hbm, 142, rfl⟩
abbrev main_call3_v1 : Ref sig .tc := ⟨.hbm, 143, rfl⟩
abbrev main_call3_call0_v0 : Ref sig .tc := ⟨.hbm, 144, rfl⟩
abbrev main_call3_v2 : Ref sig .tc := ⟨.hbm, 145, rfl⟩
abbrev main_call3_cst : Ref sig .tc := ⟨.hbm, 146, rfl⟩
abbrev main_call3_v3 : Ref sig .tc := ⟨.hbm, 147, rfl⟩
abbrev main_call3_v4 : Ref sig .tc := ⟨.hbm, 148, rfl⟩
abbrev main_call3_v5 : Ref sig .tc := ⟨.hbm, 149, rfl⟩
abbrev main_call3_call1_v0 : Ref sig .tc := ⟨.hbm, 150, rfl⟩
abbrev main_call3_v6 : Ref sig .tc := ⟨.hbm, 151, rfl⟩
abbrev main_call3_cst_0 : Ref sig .tc := ⟨.hbm, 152, rfl⟩
abbrev main_call3_v7 : Ref sig .tc := ⟨.hbm, 153, rfl⟩
abbrev main_call3_v8 : Ref sig .tc := ⟨.hbm, 154, rfl⟩
abbrev main_call3_v9 : Ref sig .tc := ⟨.hbm, 155, rfl⟩
abbrev main_call3_call2_v0 : Ref sig .tc := ⟨.hbm, 156, rfl⟩
abbrev main_v53 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 12], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x100x12288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x12288 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x100x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x100x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S2x100x384x384_S2x100x147456 : S2x100x384x384.ShapeCasts S2x100x147456
  shapeCasts_S2x64x384x384_S2x64x147456 : S2x64x384x384.ShapeCasts S2x64x147456
  inb_S1x100x64_S1x100x64_0_0_0 : ∀ a, (![0, 0, 0] : Fin 3 → Nat) a + S1x100x64.size a ≤ S1x100x64.size a
  h_S1x100x64 : 0 < S1x100x64.numel
  inb_S1x100x1_S1x100x1_0_0_0 : ∀ a, (![0, 0, 0] : Fin 3 → Nat) a + S1x100x1.size a ≤ S1x100x1.size a
  h_S1x100x1 : 0 < S1x100x1.numel
  inb_S1x1x64_S1x1x64_0_0_0 : ∀ a, (![0, 0, 0] : Fin 3 → Nat) a + S1x1x64.size a ≤ S1x1x64.size a
  h_S1x1x64 : 0 < S1x1x64.numel
  inb_S1x100x12288_S1x100x12288_0_0_0 : ∀ a, (![0, 0, 0] : Fin 3 → Nat) a + S1x100x12288.size a ≤ S1x100x12288.size a
  h_S1x100x12288 : 0 < S1x100x12288.numel
  shapeCasts_S1x100x12288_S100x12288 : S1x100x12288.ShapeCasts S100x12288
  inb_S1x64x12288_S1x64x12288_0_0_0 : ∀ a, (![0, 0, 0] : Fin 3 → Nat) a + S1x64x12288.size a ≤ S1x64x12288.size a
  h_S1x64x12288 : 0 < S1x64x12288.numel
  shapeCasts_S1x64x12288_S64x12288 : S1x64x12288.ShapeCasts S64x12288
  shapeCasts_S1x100x1_S100x1 : S1x100x1.ShapeCasts S100x1
  reduces_S100x12288_S100 : S100x12288.Reduces [1] S100
  shapeCasts_S100_S100x1 : S100.ShapeCasts S100x1
  shapeCasts_S100x1_S1x100x1 : S100x1.ShapeCasts S1x100x1
  shapeCasts_S1x1x64_S64 : S1x1x64.ShapeCasts S64
  reduces_S64x12288_S64 : S64x12288.Reduces [1] S64
  shapeCasts_S64_S1x1x64 : S64.ShapeCasts S1x1x64
  bitsLt_bf16_f32 : FTy.bits .bf16 < FTy.bits .f32
  shapeCasts_S1x100x64_S100x64 : S1x100x64.ShapeCasts S100x64
  shapeCasts_S100x64_S1x100x64 : S100x64.ShapeCasts S1x100x64
  bcast_S_S2x100x64 : S_.BroadcastsInDim S2x100x64 (![] : Fin 0 → Fin S2x100x64.rank)
  bcast_S2x100x1_S2x100x64_0_1_2 : S2x100x1.BroadcastsInDim S2x100x64 (![0, 1, 2] : Fin 3 → Fin S2x100x64.rank)
  bcast_S2x1x64_S2x100x64_0_1_2 : S2x1x64.BroadcastsInDim S2x100x64 (![0, 1, 2] : Fin 3 → Fin S2x100x64.rank)
  reducesTo_S2x100x81_S2x100_d2 : S2x100x81.ReducesTo [2] S2x100
  h_S_ : 0 < S_.numel
  bcast_S_S2x100 : S_.BroadcastsInDim S2x100 (![] : Fin 0 → Fin S2x100.rank)
  bcast_S2x100_S2x100x1_0_1 : S2x100.BroadcastsInDim S2x100x1 (![0, 1] : Fin 2 → Fin S2x100x1.rank)
  bcast_S2x100x1_S2x100x81_0_1_2 : S2x100x1.BroadcastsInDim S2x100x81 (![0, 1, 2] : Fin 3 → Fin S2x100x81.rank)
  bcast_S_S2x64 : S_.BroadcastsInDim S2x64 (![] : Fin 0 → Fin S2x64.rank)
  bcast_S2x64_S2x64x1_0_1 : S2x64.BroadcastsInDim S2x64x1 (![0, 1] : Fin 2 → Fin S2x64x1.rank)
  bcast_S_S2x64x1 : S_.BroadcastsInDim S2x64x1 (![] : Fin 0 → Fin S2x64x1.rank)
  bcast_S1_S1x1x1_2 : S1.BroadcastsInDim S1x1x1 (![2] : Fin 1 → Fin S1x1x1.rank)
  bcast_S1x1x1_S2x64x1_0_1_2 : S1x1x1.BroadcastsInDim S2x64x1 (![0, 1, 2] : Fin 3 → Fin S2x64x1.rank)
  reducesTo_S2x64x1_S2x64_d2 : S2x64x1.ReducesTo [2] S2x64
  bcast_S2x64_S2x100x64_0_2 : S2x64.BroadcastsInDim S2x100x64 (![0, 2] : Fin 2 → Fin S2x100x64.rank)
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  bcast_S1024_S2x100x1024_2 : S1024.BroadcastsInDim S2x100x1024 (![2] : Fin 1 → Fin S2x100x1024.rank)
  bcast_S_S2x100x1024 : S_.BroadcastsInDim S2x100x1024 (![] : Fin 0 → Fin S2x100x1024.rank)
  bcast_S1024_S2x64x1024_2 : S1024.BroadcastsInDim S2x64x1024 (![2] : Fin 1 → Fin S2x64x1024.rank)
  bcast_S_S2x64x1024 : S_.BroadcastsInDim S2x64x1024 (![] : Fin 0 → Fin S2x64x1024.rank)
  reducesTo_S2x100x1024_S2x100_d2 : S2x100x1024.ReducesTo [2] S2x100
  dot_S100x12288_S64x12288_S100x64_1_1_0_0_n_n_wf : DotDims.WF S100x12288 S64x12288 S100x64 [1] [1] [0] [0] [] []
  gather_S2x100x81_S2x64x1_S2x100x64_1_2_0_0_2_2_11001_wf : GatherDims.WF S2x100x81 S2x64x1 S2x100x64 [1] [2] [0] [2] [0] 2 ![1, 100, 1]
  gather_S2x100x147456_S1024x1_S2x100x1024_01_2_n_n_2_1_21001_wf : GatherDims.WF S2x100x147456 S1024x1 S2x100x1024 [0, 1] [2] [] [2] [] 1 ![2, 100, 1]
  gather_S2x64x147456_S1024x1_S2x64x1024_01_2_n_n_2_1_2641_wf : GatherDims.WF S2x64x147456 S1024x1 S2x64x1024 [0, 1] [2] [] [2] [] 1 ![2, 64, 1]
  dot_S2x100x1024_S2x64x1024_S2x100x64_2_2_1_1_0_0_wf : DotDims.WF S2x100x1024 S2x64x1024 S2x100x64 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x100x12288.size a ≤ S2x100x147456.size a
  hwx0_0 : ∀ i : grid0.Coords, EltTy.bits .f32 = 32 ∨ (Rect.block (s := S2x100x147456) S1x100x12288.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x12288.size a ≤ S2x64x147456.size a
  hwx0_1 : ∀ i : grid0.Coords, EltTy.bits .i32 = 32 ∨ (Rect.block (s := S2x64x147456) S1x64x12288.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x100x64.size a ≤ S2x100x64.size a
  hwx0_2 : ∀ i : grid0.Coords, EltTy.bits .f32 = 32 ∨ (Rect.block (s := S2x100x64) S1x100x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x100x1.size a ≤ S2x100x1.size a
  hwx0_3 : ∀ i : grid0.Coords, EltTy.bits .f32 = 32 ∨ (Rect.block (s := S2x100x1) S1x100x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x64.size a ≤ S2x1x64.size a
  hwx0_4 : ∀ i : grid0.Coords, EltTy.bits .f32 = 32 ∨ (Rect.block (s := S2x1x64) S1x1x64.size (cc0_transform_4 i) (hinb0_4 i)).WholeWords (EltTy.packing .f32)

variable [Facts₀]

def dot_S100x12288_S64x12288_S100x64_1_1_0_0_n_n : DotDims S100x12288 S64x12288 S100x64 where
  lhsContracting := [1]
  rhsContracting := [1]
  lhsNonContracting := [0]
  rhsNonContracting := [0]
  lhsBatch := []
  rhsBatch := []
  wf := dot_S100x12288_S64x12288_S100x64_1_1_0_0_n_n_wf
def gather_S2x100x81_S2x64x1_S2x100x64_1_2_0_0_2_2_11001 : GatherDims S2x100x81 S2x64x1 S2x100x64 where
  offsetDims := [1]
  collapsedSliceDims := [2]
  operandBatchingDims := [0]
  startIndicesBatchingDims := [0]
  startIndexMap := [2]
  indexVectorDim := 2
  sliceSizes := ![1, 100, 1]
  wf := gather_S2x100x81_S2x64x1_S2x100x64_1_2_0_0_2_2_11001_wf
def gather_S2x100x147456_S1024x1_S2x100x1024_01_2_n_n_2_1_21001 : GatherDims S2x100x147456 S1024x1 S2x100x1024 where
  offsetDims := [0, 1]
  collapsedSliceDims := [2]
  operandBatchingDims := []
  startIndicesBatchingDims := []
  startIndexMap := [2]
  indexVectorDim := 1
  sliceSizes := ![2, 100, 1]
  wf := gather_S2x100x147456_S1024x1_S2x100x1024_01_2_n_n_2_1_21001_wf
def gather_S2x64x147456_S1024x1_S2x64x1024_01_2_n_n_2_1_2641 : GatherDims S2x64x147456 S1024x1 S2x64x1024 where
  offsetDims := [0, 1]
  collapsedSliceDims := [2]
  operandBatchingDims := []
  startIndicesBatchingDims := []
  startIndexMap := [2]
  indexVectorDim := 1
  sliceSizes := ![2, 64, 1]
  wf := gather_S2x64x147456_S1024x1_S2x64x1024_01_2_n_n_2_1_2641_wf
def dot_S2x100x1024_S2x64x1024_S2x100x64_2_2_1_1_0_0 : DotDims S2x100x1024 S2x64x1024 S2x100x64 where
  lhsContracting := [2]
  rhsContracting := [2]
  lhsNonContracting := [1]
  rhsNonContracting := [1]
  lhsBatch := [0]
  rhsBatch := [0]
  wf := dot_S2x100x1024_S2x64x1024_S2x100x64_2_2_1_1_0_0_wf

abbrev win0_0 : Pipeline.Window sig grid0 :=
  Pipeline.Window.ofSpec (Memref.whole main_v0) S1x100x12288.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x12288.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x100x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x100x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x1x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x100x81 : Shape := ⟨3, ![2, 100, 81]⟩
abbrev S2x100x384x384 : Shape := ⟨4, ![2, 100, 384, 384]⟩
abbrev S2x64 : Shape := ⟨2, ![2, 64]⟩
abbrev S2x64x384x384 : Shape := ⟨4, ![2, 64, 384, 384]⟩
abbrev S1024 : Shape := ⟨1, ![1024]⟩
abbrev S_ : Shape := ⟨0, ![]⟩
abbrev S2x100 : Shape := ⟨2, ![2, 100]⟩
abbrev S2x100x1 : Shape := ⟨3, ![2, 100, 1]⟩
abbrev S2x64x1 : Shape := ⟨3, ![2, 64, 1]⟩
abbrev S2x100x64 : Shape := ⟨3, ![2, 100, 64]⟩
abbrev S2x100x147456 : Shape := ⟨3, ![2, 100, 147456]⟩
abbrev S2x64x147456 : Shape := ⟨3, ![2, 64, 147456]⟩
abbrev S2x1x64 : Shape := ⟨3, ![2, 1, 64]⟩
abbrev S1024x1 : Shape := ⟨2, ![1024, 1]⟩
abbrev S2x100x1024 : Shape := ⟨3, ![2, 100, 1024]⟩
abbrev S2x64x1024 : Shape := ⟨3, ![2, 64, 1024]⟩

abbrev nBuf : Space → Nat
  | .hbm => 128
  | .vmem => 0
  | .smem => 0
  | _ => 0

abbrev bufTy : (tb : Table) → Fin (tcTables nBuf tb) → BufTy
  | .hbm, ⟨0, _⟩ => ⟨S2x100x81, .f32⟩
  | .hbm, ⟨1, _⟩ => ⟨S2x100x384x384, .f32⟩
  | .hbm, ⟨2, _⟩ => ⟨S2x64, .i32⟩
  | .hbm, ⟨3, _⟩ => ⟨S2x64x384x384, .i32⟩
  | .hbm, ⟨4, _⟩ => ⟨S1024, .i32⟩
  | .hbm, ⟨5, _⟩ => ⟨S_, .f32⟩
  | .hbm, ⟨6, _⟩ => ⟨S2x100, .f32⟩
  | .hbm, ⟨7, _⟩ => ⟨S_, .f32⟩
  | .hbm, ⟨8, _⟩ => ⟨S2x100, .f32⟩
  | .hbm, ⟨9, _⟩ => ⟨S2x100, .f32⟩
  | .hbm, ⟨10, _⟩ => ⟨S2x100x1, .f32⟩
  | .hbm, ⟨11, _⟩ => ⟨S2x100x81, .f32⟩
  | .hbm, ⟨12, _⟩ => ⟨S2x100x81, .f32⟩
  | .hbm, ⟨13, _⟩ => ⟨S2x100x81, .f32⟩
  | .hbm, ⟨14, _⟩ => ⟨S_, .f32⟩
  | .hbm, ⟨15, _⟩ => ⟨S2x100, .f32⟩
  | .hbm, ⟨16, _⟩ => ⟨S2x100x1, .f32⟩
  | .hbm, ⟨17, _⟩ => ⟨S2x100x81, .f32⟩
  | .hbm, ⟨18, _⟩ => ⟨S2x100x81, .f32⟩
  | .hbm, ⟨19, _⟩ => ⟨S_, .i32⟩
  | .hbm, ⟨20, _⟩ => ⟨S2x64, .i32⟩
  | .hbm, ⟨21, _⟩ => ⟨S2x64, .i1⟩
  | .hbm, ⟨22, _⟩ => ⟨S_, .i32⟩
  | .hbm, ⟨23, _⟩ => ⟨S2x64, .i32⟩
  | .hbm, ⟨24, _⟩ => ⟨S2x64, .i32⟩
  | .hbm, ⟨25, _⟩ => ⟨S2x64, .i32⟩
  | .hbm, ⟨26, _⟩ => ⟨S2x64x1, .i32⟩
  | .hbm, ⟨27, _⟩ => ⟨S2x100x64, .f32⟩
  | .hbm, ⟨28, _⟩ => ⟨S2x100x64, .f32⟩
  | .hbm, ⟨29, _⟩ => ⟨S2x100x147456, .f32⟩
  | .hbm, ⟨30, _⟩ => ⟨S2x100x147456, .f32⟩
  | .hbm, ⟨31, _⟩ => ⟨S2x100x147456, .f32⟩
  | .hbm, ⟨32, _⟩ => ⟨S_, .f32⟩
  | .hbm, ⟨33, _⟩ => ⟨S2x100x147456, .f32⟩
  | .hbm, ⟨34, _⟩ => ⟨S2x100x147456, .f32⟩
  | .hbm, ⟨35, _⟩ => ⟨S_, .f32⟩
  | .hbm, ⟨36, _⟩ => ⟨S2x100x147456, .f32⟩
  | .hbm, ⟨37, _⟩ => ⟨S2x100x147456, .f32⟩
  | .hbm, ⟨38, _⟩ => ⟨S2x64x147456, .i32⟩
  | .hbm, ⟨39, _⟩ => ⟨S2x64x147456, .f32⟩
  | .hbm, ⟨40, _⟩ => ⟨S2x100x64, .f32⟩
  | .hbm, ⟨41, _⟩ => ⟨S_, .f32⟩
  | .hbm, ⟨42, _⟩ => ⟨S2x100, .f32⟩
  | .hbm, ⟨43, _⟩ => ⟨S2x100x1, .f32⟩
  | .hbm, ⟨44, _⟩ => ⟨S_, .f32⟩
  | .hbm, ⟨45, _⟩ => ⟨S2x64, .f32⟩
  | .hbm, ⟨46, _⟩ => ⟨S2x1x64, .f32⟩
  | .hbm, ⟨47, _⟩ => ⟨S_, .f32⟩
  | .hbm, ⟨48, _⟩ => ⟨S2x100x64, .f32⟩
  | .hbm, ⟨49, _⟩ => ⟨S2x100x64, .f32⟩
  | .hbm, ⟨50, _⟩ => ⟨S2x100x64, .f32⟩
  | .hbm, ⟨51, _⟩ => ⟨S2x100x64, .f32⟩
  | .hbm, ⟨52, _⟩ => ⟨S2x100x64, .f32⟩
  | .hbm, ⟨53, _⟩ => ⟨S_, .f32⟩
  | .hbm, ⟨54, _⟩ => ⟨S2x100x64, .f32⟩
  | .hbm, ⟨55, _⟩ => ⟨S2x100x64, .f32⟩
  | .hbm, ⟨56, _⟩ => ⟨S2x100x64, .f32⟩
  | .hbm, ⟨57, _⟩ => ⟨S_, .f32⟩
  | .hbm, ⟨58, _⟩ => ⟨S2x100x64, .f32⟩
  | .hbm, ⟨59, _⟩ => ⟨S2x100x64, .f32⟩
  | .hbm, ⟨60, _⟩ => ⟨S_, .i32⟩
  | .hbm, ⟨61, _⟩ => ⟨S1024, .i32⟩
  | .hbm, ⟨62, _⟩ => ⟨S1024, .i1⟩
  | .hbm, ⟨63, _⟩ => ⟨S_, .i32⟩
  | .hbm, ⟨64, _⟩ => ⟨S1024, .i32⟩
  | .hbm, ⟨65, _⟩ => ⟨S1024, .i32⟩
  | .hbm, ⟨66, _⟩ => ⟨S1024, .i32⟩
  | .hbm, ⟨67, _⟩ => ⟨S1024x1, .i32⟩
  | .hbm, ⟨68, _⟩ => ⟨S2x100x1024, .f32⟩
  | .hbm, ⟨69, _⟩ => ⟨S_, .i32⟩
  | .hbm, ⟨70, _⟩ => ⟨S1024, .i32⟩
  | .hbm, ⟨71, _⟩ => ⟨S1024, .i1⟩
  | .hbm, ⟨72, _⟩ => ⟨S_, .i32⟩
  | .hbm, ⟨73, _⟩ => ⟨S1024, .i32⟩
  | .hbm, ⟨74, _⟩ => ⟨S1024, .i32⟩
  | .hbm, ⟨75, _⟩ => ⟨S1024, .i32⟩
  | .hbm, ⟨76, _⟩ => ⟨S1024x1, .i32⟩
  | .hbm, ⟨77, _⟩ => ⟨S2x64x1024, .f32⟩
  | .hbm, ⟨78, _⟩ => ⟨S_, .f32⟩
  | .hbm, ⟨79, _⟩ => ⟨S2x100x1024, .f32⟩
  | .hbm, ⟨80, _⟩ => ⟨S2x100x1024, .f32⟩
  | .hbm, ⟨81, _⟩ => ⟨S2x100x1024, .f32⟩
  | .hbm, ⟨82, _⟩ => ⟨S2x100x1024, .f32⟩
  | .hbm, ⟨83, _⟩ => ⟨S2x100x1024, .f32⟩
  | .hbm, ⟨84, _⟩ => ⟨S2x100x1024, .f32⟩
  | .hbm, ⟨85, _⟩ => ⟨S2x100x1024, .f32⟩
  | .hbm, ⟨86, _⟩ => ⟨S_, .f32⟩
  | .hbm, ⟨87, _⟩ => ⟨S2x100, .f32⟩
  | .hbm, ⟨88, _⟩ => ⟨S_, .f32⟩
  | .hbm, ⟨89, _⟩ => ⟨S2x100, .f32⟩
  | .hbm, ⟨90, _⟩ => ⟨S2x100, .f32⟩
  | .hbm, ⟨91, _⟩ => ⟨S2x100x1, .f32⟩
  | .hbm, ⟨92, _⟩ => ⟨S2x100x64, .f32⟩
  | .hbm, ⟨93, _⟩ => ⟨S_, .f32⟩
  | .hbm, ⟨94, _⟩ => ⟨S2x100x64, .f32⟩
  | .hbm, ⟨95, _⟩ => ⟨S2x100x64, .f32⟩
  | .hbm, ⟨96, _⟩ => ⟨S2x100x64, .f32⟩
  | .hbm, ⟨97, _⟩ => ⟨S2x100x64, .f32⟩
  | .hbm, ⟨98, _⟩ => ⟨S_, .f32⟩
  | .hbm, ⟨99, _⟩ => ⟨S2x100x64, .f32⟩
  | .hbm, ⟨100, _⟩ => ⟨S2x100x64, .f32⟩
  | .hbm, ⟨101, _⟩ => ⟨S_, .f32⟩
  | .hbm, ⟨102, _⟩ => ⟨S2x100x64, .f32⟩
  | .hbm, ⟨103, _⟩ => ⟨S2x100x64, .f32⟩
  | .hbm, ⟨104, _⟩ => ⟨S2x100x64, .f32⟩
  | .hbm, ⟨105, _⟩ => ⟨S_, .f32⟩
  | .hbm, ⟨106, _⟩ => ⟨S2x100x64, .f32⟩
  | .hbm, ⟨107, _⟩ => ⟨S2x100x64, .f32⟩
  | .hbm, ⟨108, _⟩ => ⟨S2x100x64, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S2x100x64, .i1⟩
  | .hbm, ⟨113, _⟩ => ⟨S_, .f32⟩
  | .hbm, ⟨114, _⟩ => ⟨S2x100x64, .f32⟩
  | .hbm, ⟨115, _⟩ => ⟨S2x100x64, .f32⟩
  | .hbm, ⟨116, _⟩ => ⟨S_, .f32⟩
  | .hbm, ⟨117, _⟩ => ⟨S2x100x64, .f32⟩
  | .hbm, ⟨118, _⟩ => ⟨S2x100x64, .i1⟩
  | .hbm, ⟨119, _⟩ => ⟨S_, .f32⟩
  | .hbm, ⟨120, _⟩ => ⟨S2x100x64, .f32⟩
  | .hbm, ⟨121, _⟩ => ⟨S2x100x64, .f32⟩
  | .hbm, ⟨122, _⟩ => ⟨S_, .f32⟩
  | .hbm, ⟨123, _⟩ => ⟨S2x100x64, .f32⟩
  | .hbm, ⟨124, _⟩ => ⟨S2x100x64, .i1⟩
  | .hbm, ⟨125, _⟩ => ⟨S_, .f32⟩
  | .hbm, ⟨126, _⟩ => ⟨S2x100x64, .f32⟩
  | .hbm, ⟨127, _⟩ => ⟨S2x100x64, .f32⟩
  | _, _ => ⟨S2x100x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_c_10 : Ref sig .tc := ⟨.hbm, 60, rfl⟩
abbrev main_v43 : Ref sig .tc := ⟨.hbm, 61, rfl⟩
abbrev main_v44 : Ref sig .tc := ⟨.hbm, 62, rfl⟩
abbrev main_c_11 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_12 : Ref sig .tc := ⟨.hbm, 69, rfl⟩
abbrev main_v50 : Ref sig .tc := ⟨.hbm, 70, rfl⟩
abbrev main_v51 : Ref sig .tc := ⟨.hbm, 71, rfl⟩
abbrev main_c_13 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_14 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_15 : Ref sig .tc := ⟨.hbm, 86, rfl⟩
abbrev main_v64 : Ref sig .tc := ⟨.hbm, 87, rfl⟩
abbrev main_cst_16 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_17 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_18 : Ref sig .tc := ⟨.hbm, 98, rfl⟩
abbrev main_v73 : Ref sig .tc := ⟨.hbm, 99, rfl⟩
abbrev main_v74 : Ref sig .tc := ⟨.hbm, 100, rfl⟩
abbrev main_cst_19 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_20 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_21 : Ref sig .tc := ⟨.hbm, 109, rfl⟩
abbrev main_cst_22 : Ref sig .tc := ⟨.hbm, 110, rfl⟩
abbrev main_cst_23 : Ref sig .tc := ⟨.hbm, 111, rfl⟩
abbrev main_call0_v0 : Ref sig .tc := ⟨.hbm, 112, rfl⟩
abbrev main_call0_v1 : Ref sig .tc := ⟨.hbm, 113, rfl⟩
abbrev main_call0_call0_v0 : Ref sig .tc := ⟨.hbm, 114, rfl⟩
abbrev main_call0_v2 : Ref sig .tc := ⟨.hbm, 115, rfl⟩
abbrev main_call0_cst : Ref sig .tc := ⟨.hbm, 116, rfl⟩
abbrev main_call0_v3 : Ref sig .tc := ⟨.hbm, 117, rfl⟩
abbrev main_call0_v4 : Ref sig .tc := ⟨.hbm, 118, rfl⟩
abbrev main_call0_v5 : Ref sig .tc := ⟨.hbm, 119, rfl⟩
abbrev main_call0_call1_v0 : Ref sig .tc := ⟨.hbm, 120, rfl⟩
abbrev main_call0_v6 : Ref sig .tc := ⟨.hbm, 121, rfl⟩
abbrev main_call0_cst_0 : Ref sig .tc := ⟨.hbm, 122, rfl⟩
abbrev main_call0_v7 : Ref sig .tc := ⟨.hbm, 123, rfl⟩
abbrev main_call0_v8 : Ref sig .tc := ⟨.hbm, 124, rfl⟩
abbrev main_call0_v9 : Ref sig .tc := ⟨.hbm, 125, rfl⟩
abbrev main_call0_call2_v0 : Ref sig .tc := ⟨.hbm, 126, rfl⟩
abbrev main_v81 : Ref sig .tc := ⟨.hbm, 127, rfl⟩

abbrev nD : Nat := 1
abbrev τ : Topo := Topo.v7x

variable {F : FTy → Type} [FloatOps F]

class Facts₀ : Prop where
  reducesTo_S2x100x81_S2x100_d2 : S2x100x81.ReducesTo [2] S2x100
  h_S_ : 0 < S_.numel
  bcast_S_S2x100 : S_.BroadcastsInDim S2x100 (![] : Fin 0 → Fin S2x100.rank)
  bcast_S2x100_S2x100x1_0_1 : S2x100.BroadcastsInDim S2x100x1 (![0, 1] : Fin 2 → Fin S2x100x1.rank)
  bcast_S2x100x1_S2x100x81_0_1_2 : S2x100x1.BroadcastsInDim S2x100x81 (![0, 1, 2] : Fin 3 → Fin S2x100x81.rank)
  bcast_S_S2x64 : S_.BroadcastsInDim S2x64 (![] : Fin 0 → Fin S2x64.rank)
  bcast_S2x64_S2x64x1_0_1 : S2x64.BroadcastsInDim S2x64x1 (![0, 1] : Fin 2 → Fin S2x64x1.rank)
  shapeCasts_S2x100x384x384_S2x100x147456 : S2x100x384x384.ShapeCasts S2x100x147456
  bcast_S_S2x100x147456 : S_.BroadcastsInDim S2x100x147456 (![] : Fin 0 → Fin S2x100x147456.rank)
  shapeCasts_S2x64x384x384_S2x64x147456 : S2x64x384x384.ShapeCasts S2x64x147456
  reducesTo_S2x100x147456_S2x100_d2 : S2x100x147456.ReducesTo [2] S2x100
  reducesTo_S2x64x147456_S2x64_d2 : S2x64x147456.ReducesTo [2] S2x64
  bcast_S2x64_S2x1x64_0_2 : S2x64.BroadcastsInDim S2x1x64 (![0, 2] : Fin 2 → Fin S2x1x64.rank)
  bcast_S_S2x100x64 : S_.BroadcastsInDim S2x100x64 (![] : Fin 0 → Fin S2x100x64.rank)
  bcast_S2x100x1_S2x100x64_0_1_2 : S2x100x1.BroadcastsInDim S2x100x64 (![0, 1, 2] : Fin 3 → Fin S2x100x64.rank)
  bcast_S2x1x64_S2x100x64_0_1_2 : S2x1x64.BroadcastsInDim S2x100x64 (![0, 1, 2] : Fin 3 → Fin S2x100x64.rank)
  bcast_S_S1024 : S_.BroadcastsInDim S1024 (![] : Fin 0 → Fin S1024.rank)
  bcast_S1024_S1024x1_0 : S1024.BroadcastsInDim S1024x1 (![0] : Fin 1 → Fin S1024x1.rank)
  bcast_S_S2x100x1024 : S_.BroadcastsInDim S2x100x1024 (![] : Fin 0 → Fin S2x100x1024.rank)
  reducesTo_S2x100x1024_S2x100_d2 : S2x100x1024.ReducesTo [2] S2x100
  gather_S2x100x81_S2x64x1_S2x100x64_1_2_0_0_2_2_11001_wf : GatherDims.WF S2x100x81 S2x64x1 S2x100x64 [1] [2] [0] [2] [0] 2 ![1, 100, 1]
  dot_S2x100x147456_S2x64x147456_S2x100x64_2_2_1_1_0_0_wf : DotDims.WF S2x100x147456 S2x64x147456 S2x100x64 [2] [2] [1] [1] [0] [0]
  gather_S2x100x147456_S1024x1_S2x100x1024_01_2_n_n_2_1_21001_wf : GatherDims.WF S2x100x147456 S1024x1 S2x100x1024 [0, 1] [2] [] [2] [] 1 ![2, 100, 1]
  gather_S2x64x147456_S1024x1_S2x64x1024_01_2_n_n_2_1_2641_wf : GatherDims.WF S2x64x147456 S1024x1 S2x64x1024 [0, 1] [2] [] [2] [] 1 ![2, 64, 1]
  dot_S2x100x1024_S2x64x1024_S2x100x64_2_2_1_1_0_0_wf : DotDims.WF S2x100x1024 S2x64x1024 S2x100x64 [2] [2] [1] [1] [0] [0]

variable [Facts₀]

def gather_S2x100x81_S2x64x1_S2x100x64_1_2_0_0_2_2_11001 : GatherDims S2x100x81 S2x64x1 S2x100x64 where
  offsetDims := [1]
  collapsedSliceDims := [2]
  operandBatchingDims := [0]
  startIndicesBatchingDims := [0]
  startIndexMap := [2]
  indexVectorDim := 2
  sliceSizes := ![1, 100, 1]
  wf := gather_S2x100x81_S2x64x1_S2x100x64_1_2_0_0_2_2_11001_wf
def dot_S2x100x147456_S2x64x147456_S2x100x64_2_2_1_1_0_0 : DotDims S2x100x147456 S2x64x147456 S2x100x64 where
  lhsContracting := [2]
  rhsContracting := [2]
  lhsNonContracting := [1]
  rhsNonContracting := [1]
  lhsBatch := [0]
  rhsBatch := [0]
  wf := dot_S2x100x147456_S2x64x147456_S2x100x64_2_2_1_1_0_0_wf
def gather_S2x100x147456_S1024x1_S2x100x1024_01_2_n_n_2_1_21001 : GatherDims S2x100x147456 S1024x1 S2x100x1024 where
  offsetDims := [0, 1]
  collapsedSliceDims := [2]
  operandBatchingDims := []
  startIndicesBatchingDims := []
  startIndexMap := [2]
  indexVectorDim := 1
  sliceSizes := ![2, 100, 1]
  wf := gather_S2x100x147456_S1024x1_S2x100x1024_01_2_n_n_2_1_21001_wf
def gather_S2x64x147456_S1024x1_S2x64x1024_01_2_n_n_2_1_2641 : GatherDims S2x64x147456 S1024x1 S2x64x1024 where
  offsetDims := [0, 1]
  collapsedSliceDims := [2]
  operandBatchingDims := []
  startIndicesBatchingDims := []
  startIndexMap := [2]
  indexVectorDim := 1
  sliceSizes := ![2, 64, 1]
  wf := gather_S2x64x147456_S1024x1_S2x64x1024_01_2_n_n_2_1_2641_wf
def dot_S2x100x1024_S2x64x1024_S2x100x64_2_2_1_1_0_0 : DotDims S2x100x1024 S2x64x1024 S2x100x64 where
  lhsContracting := [2]
  rhsContracting := [2]
  lhsNonContracting := [1]
  rhsNonContracting := [1]
  lhsBatch := [0]
  rhsBatch := [0]
  wf := dot_S2x100x1024_S2x64x1024_S2x100x64_2_2_1_1_0_0_wf

class Facts : Prop extends Facts₀ where

variable [Facts]
-- ==== Proof.K.Kit.lean ====
/-
  The dice kernel's program around its one region: two reshapes, the region over the grid of
  2 batches × 12 tiles of 12288 pixels, then 148 host operations. This module fixes what the region
  finds in memory (`V`), the host stretches that follow it (`tailOps`), each window's block at a grid
  point (`iblk`), the branch of the body taken at the first tile of a batch (`cond0_0`), and the facts
  about @main that the frame run needs: @main is the prefix, the region, the tail (`hmain`); the tail
  touches unscoped buffers only, allocates nothing, and writes none of the region's five arrays.
-/
import proofs.«422936_j83648783057218_1_alg».proof.Proof.Gen.Kernel.Launch
import proofs.«422936_j83648783057218_1_alg».proof.Proof.Gen.Kernel.Skeleton
import proofs.«422936_j83648783057218_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host stretches after the region, in order. -/
abbrev tailOps : List (List (HloOp τ sig (Elt F))) :=
  [hostOps1, hostOps1_1, hostOps1_2, hostOps1_3, hostOps1_4, hostOps1_5, hostOps1_6]

/-- The two reshapes touch TensorCore references only. -/
theorem hostOps0_sub_all : ([hostOps0] : List (List (HloOp τ sig (Elt F)))).Forall fun ops => ops.Forall fun op => op.bufs ⊆ StableHlo.tcRefs τ sig :=
  hostOps0_sub
/-- No operation of a stretch allocates a buffer: each is a builder over given references. -/
theorem hostOps0_fresh : (hostOps0 : List (HloOp τ sig (Elt F))).Forall fun op => op.fresh = ∅ := by
  simp only [List.Forall]; repeat' constructor
theorem hostOps0_fresh_all : ([hostOps0] : List (List (HloOp τ sig (Elt F)))).Forall fun ops => ops.Forall fun op => op.fresh = ∅ :=
  hostOps0_fresh
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main reduces to the region continued by the tail, holding the unscoped buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps hostOps0_sub_all hostOps0_fresh_all
    (fun c => main_chain c)

/-- The tail's operations touch the region's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
/-- The references the tail must leave alone: the region's five arrays and @main's five arguments. -/
abbrev keptRefs : List (Ref sig .tc) :=
  [main_v0, main_v1, main_v2_0, main_v2_1, main_v2_2, main_arg0, main_arg1, main_arg2, main_arg3, main_arg4]

/-- An operation whose only written buffer is the reference `y` writes no reference of a list that lacks `y`. -/
theorem not_writes_of {op : HloOp τ sig (Elt F)} {y : Ref sig .tc} (h : op.writes = {Proc.devRef .tc y})
    {L : List (Ref sig .tc)} (hy : y ∉ L) : ∀ r ∈ L, Proc.devRef (τ := τ) .tc r ∉ op.writes := by
  intro r hr hmem
  rw [h, Finset.mem_singleton] at hmem
  exact hy (Proc.devRef_injective _ hmem ▸ hr)

/-- Closes `∀ r ∈ L, ↑r ∉ op.writes` for a builder's operation: its one written buffer is told apart from the list. -/
local macro "keeps_op" : tactic =>
  `(tactic| first
    | exact not_writes_of (StableHlo.nullary_writes ..) (by decide)
    | exact not_writes_of (StableHlo.unary_writes ..) (by decide)
    | exact not_writes_of (StableHlo.binary_writes ..) (by decide)
    | exact not_writes_of (StableHlo.ternary_writes ..) (by decide)
    | exact not_writes_of (StableHlo.quaternary_writes ..) (by decide)
    | exact not_writes_of (StableHlo.reshape_writes ..) (by decide)
    | exact not_writes_of (StableHlo.binaryIndexed_writes ..) (by decide)
    | exact not_writes_of (StableHlo.unaryIndexed_writes ..) (by decide)
    | exact not_writes_of (StableHlo.nary_writes ..) (by decide))

/-- Each stretch of the tail writes none of the kept references. -/
theorem hostOps1_keeps : (hostOps1 : List (HloOp τ sig (Elt F))).Forall fun op => ∀ r ∈ keptRefs, Proc.devRef (τ := τ) .tc r ∉ op.writes := by
  simp only [List.Forall]; repeat' constructor
  all_goals keeps_op
theorem hostOps1_1_keeps : (hostOps1_1 : List (HloOp τ sig (Elt F))).Forall fun op => ∀ r ∈ keptRefs, Proc.devRef (τ := τ) .tc r ∉ op.writes := by
  simp only [List.Forall]; repeat' constructor
  all_goals keeps_op
theorem hostOps1_2_keeps : (hostOps1_2 : List (HloOp τ sig (Elt F))).Forall fun op => ∀ r ∈ keptRefs, Proc.devRef (τ := τ) .tc r ∉ op.writes := by
  simp only [List.Forall]; repeat' constructor
  all_goals keeps_op
theorem hostOps1_3_keeps : (hostOps1_3 : List (HloOp τ sig (Elt F))).Forall fun op => ∀ r ∈ keptRefs, Proc.devRef (τ := τ) .tc r ∉ op.writes := by
  simp only [List.Forall]; repeat' constructor
  all_goals keeps_op
theorem hostOps1_4_keeps : (hostOps1_4 : List (HloOp τ sig (Elt F))).Forall fun op => ∀ r ∈ keptRefs, Proc.devRef (τ := τ) .tc r ∉ op.writes := by
  simp only [List.Forall]; repeat' constructor
  all_goals keeps_op
theorem hostOps1_5_keeps : (hostOps1_5 : List (HloOp τ sig (Elt F))).Forall fun op => ∀ r ∈ keptRefs, Proc.devRef (τ := τ) .tc r ∉ op.writes := by
  simp only [List.Forall]; repeat' constructor
  all_goals keeps_op
theorem hostOps1_6_keeps : (hostOps1_6 : List (HloOp τ sig (Elt F))).Forall fun op => ∀ r ∈ keptRefs, Proc.devRef (τ := τ) .tc r ∉ op.writes := by
  simp only [List.Forall]; repeat' constructor
  all_goals keeps_op

/-- Every array of the region is a kept reference. -/
theorem arrRef_mem_keptRefs : ∀ w, Pipeline.arrRef spec0 w ∈ keptRefs := by decide

/-- No operation of the tail writes a kept reference. -/
theorem tail_keeps : ∀ ops ∈ (tailOps : List (List (HloOp τ sig (Elt F)))), ∀ op ∈ ops,
    ∀ r ∈ keptRefs, Proc.devRef (τ := τ) .tc r ∉ op.writes := by
  intro ops hops op hop
  simp only [List.mem_cons, List.mem_nil_iff, or_false] at hops
  rcases hops with rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop

/-- And write no array of the region. -/
theorem sfx_keeps : ∀ ops ∈ (tailOps : List (List (HloOp τ sig (Elt F)))), ∀ op ∈ ops,
    ∀ w, Proc.devRef .tc (Pipeline.arrRef spec0 w) ∉ op.writes := by
  intro ops hops op hop w
  exact tail_keeps ops hops op hop _ (arrRef_mem_keptRefs w)

/-- @main's five arguments. -/
abbrev argRefs : List (Ref sig .tc) := [main_arg0, main_arg1, main_arg2, main_arg3, main_arg4]

/-- The two reshapes write their own results only, no argument. -/
theorem hostOps0_keeps : (hostOps0 : List (HloOp τ sig (Elt F))).Forall fun op => ∀ r ∈ argRefs, Proc.devRef (τ := τ) .tc r ∉ op.writes := by
  simp only [List.Forall]; repeat' constructor
  all_goals keeps_op

/-- So the region finds every argument as the program was entered. -/
theorem V_arg (c : Dev nD) {r : Ref sig .tc} (hr : r ∈ argRefs) : V m c r = m ((c : Thread nD τ).loc r) := by
  show StableHlo.after (List.flatten [hostOps0]) (fun b => m (c, b)) (Proc.devRef .tc r) = _
  rw [List.flatten_cons, List.flatten_nil, List.append_nil]
  exact StableHlo.after_of_forall_not_mem _ _ (fun op hop => (List.forall_iff_forall_mem.mp hostOps0_keeps) op hop r hr)

/-- The two reshapes leave the five argument arrays as they were. -/
theorem V_main_arg0 (c : Dev nD) : V m c main_arg0 = m ((c : Thread nD τ).loc main_arg0) := V_arg m c (by decide)
theorem V_main_arg1 (c : Dev nD) : V m c main_arg1 = m ((c : Thread nD τ).loc main_arg1) := V_arg m c (by decide)
theorem V_main_arg2 (c : Dev nD) : V m c main_arg2 = m ((c : Thread nD τ).loc main_arg2) := V_arg m c (by decide)
theorem V_main_arg3 (c : Dev nD) : V m c main_arg3 = m ((c : Thread nD τ).loc main_arg3) := V_arg m c (by decide)
theorem V_main_arg4 (c : Dev nD) : V m c main_arg4 = m ((c : Thread nD τ).loc main_arg4) := V_arg m c (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is
    `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_fetched 0 t (fetch0_0 t) d).trans (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_fetched 1 t (fetch0_1 t) d).trans (by unfold Dat.fetched Dat.blockOf iblk; rw [hA]; try rfl)

/-! ## The body's branch -/

/-- The body's one branch: taken at the first tile of a batch (grid coordinate 1 is zero). -/
abbrev cond0_0 (i : grid0.Coords) : Prop := (Scalar.cmpi .ne (Scalar.extui (Scalar.cmpi .eq (BitVec.ofNat 32 (i 1).val) 0#32)) 0#32) = 1#1
/-- Over the 24 points it is taken exactly at the points ≡ 0 (mod 12). -/
theorem hcond0_0 : ∀ t : Fin cfg0.N, cond0_0 (grid0.coords t) ↔ t.val % 12 = 0 :=
  (by decide +kernel : ∀ t : Fin grid0.N, cond0_0 (grid0.coords t) ↔ t.val % 12 = 0)

/-- Each window's current staging memref at point `t`, as the pipeline passes it to the body, and its wholeness. -/
abbrev ms0_0 (t : Fin cfg0.N) : Memref sig .tc .vmem S1x100x12288 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x12288 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x100x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x100x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x64 .f32 := win0_4.stage (cfg0.slots t 4)
abbrev hs0_4 (t : Fin cfg0.N) : (ms0_4 t).IsWhole := hstage0_4 ((cfg0.slots t 4).cast nbuf0_4)

end Cert.Kernel.Fr

end
-- ==== Proof.K.Step.lean ====
/-
  One tile's update of each of the three accumulators, as pure functions of the tile's two input blocks and of what
  the accumulator held: the body's arithmetic, named once.
-/
import proofs.«422936_j83648783057218_1_alg».proof.Proof.K.Kit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The intersection accumulator after a tile: what it held plus the tile's 100×64 product of sigmoid(pred) with the masks. -/
def stepI (x0 : Vec F S1x100x12288 .f32) (x1 : Vec F S1x64x12288 .i32) (acc : Vec F S1x100x64 .f32) : Vec F S1x100x64 .f32 :=
  k0_pay1 (k0_pay9 x0 x1) (k0_pay10 acc)
/-- The prediction-sum accumulator after a tile: what it held plus the row sums of sigmoid(pred) over the tile. -/
def stepP (x0 : Vec F S1x100x12288 .f32) (acc : Vec F S1x100x1 .f32) : Vec F S1x100x1 .f32 := k0_pay7 x0 acc
/-- The mask-sum accumulator after a tile: what it held plus the row sums of the masks over the tile. -/
def stepG (x1 : Vec F S1x64x12288 .i32) (acc : Vec F S1x1x64 .f32) : Vec F S1x1x64 .f32 := k0_pay8 x1 acc

end Cert.Kernel.Fr

end
-- ==== Proof.K.Runs.lean ====
/-
  The kernel body run on whole staging buffers, in its two cases. At the first tile of a batch the body zeroes the
  three output buffers, reads them back, and stores zero plus the tile's contribution; at a later tile it reads what
  the tile before left and stores that plus the tile's contribution. Either way the two input buffers are handed
  back as they were.
-/
import proofs.«422936_j83648783057218_1_alg».proof.Proof.K.Step
import Idealize.ShloMosaic.Lib.Pipeline.Value

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The whole-buffer rectangle's offsets, spelt as a literal vector, are all zero. -/
private theorem hz3 : (![0, 0, 0] : Fin 3 → Nat) = fun _ => 0 := funext fun a => by fin_cases a <;> rfl

section Readback
variable {Val : EltTy → Type} [∀ e, Nonempty (Val e)] {sg : RefSig} {κ : Kind} {sp : Space} {S : Shape} {e : EltTy}

/-- A store through the whole-shape rectangle at zero offsets, made last: reading the buffer back gives the stored
    block, whatever was stored before and whatever the buffer held. -/
private theorem read_writes_whole (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩)]
  exact View.canon_cons_unit_zero h inb w L

end Readback

/-- The body at the first tile of a batch: whatever the three output buffers held, they end at one step from zero. -/
theorem bodyA (c : Dev nD) (i : grid0.Coords) (arg2 : Memref sig .tc .vmem S1x100x12288 .f32) (harg2 : arg2.IsWhole)
    (arg3 : Memref sig .tc .vmem S1x64x12288 .i32) (harg3 : arg3.IsWhole) (arg4 : Memref sig .tc .vmem S1x100x64 .f32) (harg4 : arg4.IsWhole)
    (arg5 : Memref sig .tc .vmem S1x100x1 .f32) (harg5 : arg5.IsWhole) (arg6 : Memref sig .tc .vmem S1x1x64 .f32) (harg6 : arg6.IsWhole)
    (hc : cond0_0 i) (x0 : Vec F S1x100x12288 .f32) (x1 : Vec F S1x64x12288 .i32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (stepI x0 x1 k0_pay2)
            ∗ owns (c : Thread nD τ) arg5 fullShare (stepP x0 k0_pay3)
            ∗ owns (c : Thread nD τ) arg6 fullShare (stepG x1 k0_pay4)) -∗ K ⟨⟩))
      ⊢ wp frame (wpE (defs₀ (F := F)) Variants.none c none) E (cc0__dice_kernel i arg2 harg2 arg3 harg3 arg4 harg4 arg5 harg5 arg6 harg6) K := by
  simp only [cc0__dice_kernel_eq_skeleton]; unfold cc0__dice_kernel_skel
  unfold owns
  iintro ⟨⟨%f0, %hf0, H0⟩, ⟨%f1, %hf1, H1⟩, ⟨%d2, %f2, %hf2, H2⟩, ⟨%d3, %f3, %hf3, H3⟩, ⟨%d4, %f4, %hf4, H4⟩, Hk⟩
  obtain rfl := harg2.eq_unread hf0; obtain rfl := harg3.eq_unread hf1; obtain rfl := harg4.eq_unread hf2
  obtain rfl := harg5.eq_unread hf3; obtain rfl := harg6.eq_unread hf4
  sl_exec (disch := exact hc)
  sl_step
  iapply Hk
  isplitl [H0]
  · iexists _; isplitr; · ipureintro; exact harg2.read_unread _
    iexact H0
  isplitl [H1]
  · iexists _; isplitr; · ipureintro; exact harg3.read_unread _
    iexact H1
  -- each output buffer: the update store covers it, and the block it read back is the zero block stored just before
  isplitl [H2]
  · iexists _; isplitr
    swap
    · iexact H2
    ipureintro
    refine (read_writes_whole (S := S1x100x64) _ _ hz3 _ _ _).trans ?_
    sl_unfold_words
    simp only [View.readAt_eq_ld, harg2.read_unread, harg3.read_unread,
      View.ld_unit_zero (S := S1x100x12288) hz3, View.ld_unit_zero (S := S1x64x12288) hz3,
      View.readCov_unit_zero (S := S1x100x64) _ hz3]
    rfl
  isplitl [H3]
  · iexists _; isplitr
    swap
    · iexact H3
    ipureintro
    refine (read_writes_whole (S := S1x100x1) _ _ hz3 _ _ _).trans ?_
    sl_unfold_words
    simp only [View.readAt_eq_ld, harg2.read_unread,
      View.ld_unit_zero (S := S1x100x12288) hz3, View.readCov_unit_zero (S := S1x100x1) _ hz3]
    rfl
  iexists _; isplitr
  swap
  · iexact H4
  ipureintro
  refine (read_writes_whole (S := S1x1x64) _ _ hz3 _ _ _).trans ?_
  sl_unfold_words
  simp only [View.readAt_eq_ld, harg3.read_unread,
    View.ld_unit_zero (S := S1x64x12288) hz3, View.readCov_unit_zero (S := S1x1x64) _ hz3]
  rfl

/-- The body at a later tile: the three output buffers end at one step from what they held. -/
theorem bodyB (c : Dev nD) (i : grid0.Coords) (arg2 : Memref sig .tc .vmem S1x100x12288 .f32) (harg2 : arg2.IsWhole)
    (arg3 : Memref sig .tc .vmem S1x64x12288 .i32) (harg3 : arg3.IsWhole) (arg4 : Memref sig .tc .vmem S1x100x64 .f32) (harg4 : arg4.IsWhole)
    (arg5 : Memref sig .tc .vmem S1x100x1 .f32) (harg5 : arg5.IsWhole) (arg6 : Memref sig .tc .vmem S1x1x64 .f32) (harg6 : arg6.IsWhole)
    (hc : ¬cond0_0 i) (x0 : Vec F S1x100x12288 .f32) (x1 : Vec F S1x64x12288 .i32)
    (a2 : Vec F S1x100x64 .f32) (a3 : Vec F S1x100x1 .f32) (a4 : Vec F S1x1x64 .f32)
    (E : Set ℕ) (K : PUnit → sProp 𝕄) :
    iprop(owns (c : Thread nD τ) arg2 fullShare x0 ∗ owns (c : Thread nD τ) arg3 fullShare x1
        ∗ owns (c : Thread nD τ) arg4 fullShare a2 ∗ owns (c : Thread nD τ) arg5 fullShare a3 ∗ owns (c : Thread nD τ) arg6 fullShare a4
        ∗ (iprop(owns (c : Thread nD τ) arg2 fullShare x0 ∗ owns (c : Thread nD τ) arg3 fullShare x1
            ∗ owns (c : Thread nD τ) arg4 fullShare (stepI x0 x1 a2)
            ∗ owns (c : Thread nD τ) arg5 fullShare (stepP x0 a3)
            ∗ owns (c : Thread nD τ) arg6 fullShare (stepG x1 a4)) -∗ K ⟨⟩))
      ⊢ wp frame (wpE (defs₀ (F := F)) Variants.none c none) E (cc0__dice_kernel i arg2 harg2 arg3 harg3 arg4 harg4 arg5 harg5 arg6 harg6) K := by
  simp only [cc0__dice_kernel_eq_skeleton]; unfold cc0__dice_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2
  obtain rfl := harg5.eq_unread hf3; obtain rfl := harg6.eq_unread hf4
  sl_exec (disch := exact hc)
  sl_step
  iapply Hk
  isplitl [H0]
  · iexists _; isplitr; · ipureintro; exact harg2.read_unread _
    iexact H0
  isplitl [H1]
  · iexists _; isplitr; · ipureintro; exact harg3.read_unread _
    iexact H1
  -- each output buffer: its one store covers it, and the block it read is what the buffer held
  isplitl [H2]
  · iexists _; isplitr
    swap
    · iexact H2
    ipureintro
    refine (read_writes_whole (S := S1x100x64) _ _ hz3 _ _ _).trans ?_
    sl_unfold_words
    simp only [View.readAt_eq_ld, harg2.read_unread, harg3.read_unread, harg4.read_unread,
      View.ld_unit_zero (S := S1x100x12288) hz3, View.ld_unit_zero (S := S1x64x12288) hz3, View.ld_unit_zero (S := S1x100x64) hz3]
    rfl
  isplitl [H3]
  · iexists _; isplitr
    swap
    · iexact H3
    ipureintro
    refine (read_writes_whole (S := S1x100x1) _ _ hz3 _ _ _).trans ?_
    simp only [View.readAt_eq_ld, harg2.read_unread, harg5.read_unread,
      View.ld_unit_zero (S := S1x100x12288) hz3, View.ld_unit_zero (S := S1x100x1) hz3]
    rfl
  iexists _; isplitr
  swap
  · iexact H4
  ipureintro
  refine (read_writes_whole (S := S1x1x64) _ _ hz3 _ _ _).trans ?_
  simp only [View.readAt_eq_ld, harg3.read_unread, harg6.read_unread,
    View.ld_unit_zero (S := S1x64x12288) hz3, View.ld_unit_zero (S := S1x1x64) hz3]
  rfl

end Cert.Kernel.Fr

end
-- ==== Proof.K.Frame.lean ====
/-
  What the three accumulators hold after each grid point, the region's proof data, and the run of the
  whole program. A grid point is (batch, tile) = (t / 12, t % 12). At the first tile of a batch the body
  zeroes the three output buffers and then adds the tile's contribution; at every later tile it adds to what the
  tile before left. The contributions: the tile's 100×64 product of sigmoid(pred) with the masks, the row
  sums of sigmoid(pred) over the tile, and the row sums of the masks over the tile.
-/
import proofs.«422936_j83648783057218_1_alg».proof.Proof.K.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulators point by point -/

/-- What the three output staging buffers hold after the body at position `n`: from zero at the first tile of a
    batch, from the position before otherwise. -/
def outsAt0 (c : Dev nD) : (n : ℕ) → n < cfg0.N → Vec F S1x100x64 .f32 × Vec F S1x100x1 .f32 × Vec F S1x1x64 .f32
  | 0, hn => (stepI (iblk m c 0 ⟨0, hn⟩) (iblk m c 1 ⟨0, hn⟩) k0_pay2, stepP (iblk m c 0 ⟨0, hn⟩) k0_pay3, stepG (iblk m c 1 ⟨0, hn⟩) k0_pay4)
  | n + 1, hn =>
    if (n + 1) % 12 = 0 then
      (stepI (iblk m c 0 ⟨n + 1, hn⟩) (iblk m c 1 ⟨n + 1, hn⟩) k0_pay2, stepP (iblk m c 0 ⟨n + 1, hn⟩) k0_pay3, stepG (iblk m c 1 ⟨n + 1, hn⟩) k0_pay4)
    else
      (stepI (iblk m c 0 ⟨n + 1, hn⟩) (iblk m c 1 ⟨n + 1, hn⟩) (outsAt0 c n (Nat.lt_of_succ_lt hn)).1,
       stepP (iblk m c 0 ⟨n + 1, hn⟩) (outsAt0 c n (Nat.lt_of_succ_lt hn)).2.1,
       stepG (iblk m c 1 ⟨n + 1, hn⟩) (outsAt0 c n (Nat.lt_of_succ_lt hn)).2.2)

/-- At the first tile of a batch the accumulators restart from zero. -/
theorem outsAt0_first (c : Dev nD) (t : Fin cfg0.N) (h : t.val % 12 = 0) :
    outsAt0 m c t.val t.isLt = (stepI (iblk m c 0 t) (iblk m c 1 t) k0_pay2, stepP (iblk m c 0 t) k0_pay3, stepG (iblk m c 1 t) k0_pay4) := by
  obtain ⟨n, hn⟩ := t
  cases n with
  | zero => exact rfl
  | succ n => exact (if_pos h).trans rfl

/-- At a later tile they continue from the position before. -/
theorem outsAt0_next (c : Dev nD) (t : Fin cfg0.N) (h : ¬ t.val % 12 = 0) :
    outsAt0 m c t.val t.isLt
      = (stepI (iblk m c 0 t) (iblk m c 1 t) (outsAt0 m c (t.val - 1) (Nat.lt_of_le_of_lt (Nat.sub_le _ _) t.isLt)).1,
         stepP (iblk m c 0 t) (outsAt0 m c (t.val - 1) (Nat.lt_of_le_of_lt (Nat.sub_le _ _) t.isLt)).2.1,
         stepG (iblk m c 1 t) (outsAt0 m c (t.val - 1) (Nat.lt_of_le_of_lt (Nat.sub_le _ _) t.isLt)).2.2) := by
  obtain ⟨n, hn⟩ := t
  cases n with
  | zero => exact absurd (Nat.zero_mod _) h
  | succ n => exact (if_neg h).trans rfl

/-! ## The region's proof data -/

/-- The arrays as the region finds them; after the body at point `t` each input's buffer at its block and the
    outputs' at the accumulators; the invariant the scoped rest and the generator register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2 := by dsimp only [dats]

/-! ## The accumulators, component by component -/

theorem outs_first_1 (c : Dev nD) (t : Fin cfg0.N) (h : t.val % 12 = 0) :
    (outsAt0 m c t.val t.isLt).1 = stepI (iblk m c 0 t) (iblk m c 1 t) k0_pay2 := by rw [outsAt0_first m c t h]
theorem outs_first_2 (c : Dev nD) (t : Fin cfg0.N) (h : t.val % 12 = 0) :
    (outsAt0 m c t.val t.isLt).2.1 = stepP (iblk m c 0 t) k0_pay3 := by rw [outsAt0_first m c t h]
theorem outs_first_3 (c : Dev nD) (t : Fin cfg0.N) (h : t.val % 12 = 0) :
    (outsAt0 m c t.val t.isLt).2.2 = stepG (iblk m c 1 t) k0_pay4 := by rw [outsAt0_first m c t h]

theorem outs_next_1 (c : Dev nD) (t : Fin cfg0.N) (h : ¬ t.val % 12 = 0) :
    (outsAt0 m c t.val t.isLt).1
      = stepI (iblk m c 0 t) (iblk m c 1 t) (outsAt0 m c (t.val - 1) (Nat.lt_of_le_of_lt (Nat.sub_le _ _) t.isLt)).1 := by
  rw [outsAt0_next m c t h]
theorem outs_next_2 (c : Dev nD) (t : Fin cfg0.N) (h : ¬ t.val % 12 = 0) :
    (outsAt0 m c t.val t.isLt).2.1
      = stepP (iblk m c 0 t) (outsAt0 m c (t.val - 1) (Nat.lt_of_le_of_lt (Nat.sub_le _ _) t.isLt)).2.1 := by
  rw [outsAt0_next m c t h]
theorem outs_next_3 (c : Dev nD) (t : Fin cfg0.N) (h : ¬ t.val % 12 = 0) :
    (outsAt0 m c t.val t.isLt).2.2
      = stepG (iblk m c 1 t) (outsAt0 m c (t.val - 1) (Nat.lt_of_le_of_lt (Nat.sub_le _ _) t.isLt)).2.2 := by
  rw [outsAt0_next m c t h]

/-! ## What the body finds in each staging buffer -/

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- Away from the first tile of a batch the point before did not write the outputs back: the write-back happens at
    the last tile of a batch only, and the point before a non-first tile is not a last tile. -/
theorem not_last_before {n : ℕ} (h : ¬ n % 12 = 0) : ¬ (n - 1) % 12 = 11 := by omega

/-- Away from the first tile of a batch each output's current staging buffer holds what the body left at the point
    before: the point is not the first, the buffer was not written back in between, the window is live and uncut. -/
theorem before0_2_next (c : Dev nD) (t : Fin cfg0.N) (h : ¬ t.val % 12 = 0) (d) :
    (dats m 0 c).before 2 t d = (outsAt0 m c (t.val - 1) (Nat.lt_of_le_of_lt (Nat.sub_le _ _) t.isLt)).1 := by
  rw [Dat.before_out_kept _ 2 rfl t (fun h0 => h (by rw [h0])) (Bool.eq_false_iff.mpr fun hf => not_last_before h ((flush0_2 _).mp hf))
    (fun _ => rfl) (fun _ _ => rfl)]
  dsimp only [dats]
theorem before0_3_next (c : Dev nD) (t : Fin cfg0.N) (h : ¬ t.val % 12 = 0) (d) :
    (dats m 0 c).before 3 t d = (outsAt0 m c (t.val - 1) (Nat.lt_of_le_of_lt (Nat.sub_le _ _) t.isLt)).2.1 := by
  rw [Dat.before_out_kept _ 3 rfl t (fun h0 => h (by rw [h0])) (Bool.eq_false_iff.mpr fun hf => not_last_before h ((flush0_3 _).mp hf))
    (fun _ => rfl) (fun _ _ => rfl)]
  dsimp only [dats]
theorem before0_4_next (c : Dev nD) (t : Fin cfg0.N) (h : ¬ t.val % 12 = 0) (d) :
    (dats m 0 c).before 4 t d = (outsAt0 m c (t.val - 1) (Nat.lt_of_le_of_lt (Nat.sub_le _ _) t.isLt)).2.2 := by
  rw [Dat.before_out_kept _ 4 rfl t (fun h0 => h (by rw [h0])) (Bool.eq_false_iff.mpr fun hf => not_last_before h ((flush0_4 _).mp hf))
    (fun _ => rfl) (fun _ _ => rfl)]
  dsimp only [dats]

/-! ## The body obligation -/

/-- What the body is called with at point `t`: the invariant, nothing owed, and each window's current staging
    buffer at what it holds before the body, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns: the same with each buffer at what the body leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 800000 in
/-- The body at any point. The inputs' buffers hold their blocks. At the first tile of a batch the outputs' buffers
    hold anything and the body restarts them from zero; at a later tile they hold what the tile before left and the
    body adds to it. The invariant passes through unread and nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  by_cases h0 : t.val % 12 = 0
  · rw [outs_first_1 m c t h0, outs_first_2 m c t h0, outs_first_3 m c t h0]
    iintro ⟨HΦ, Ho, ⟨%d0, H0⟩, ⟨%d1, H1⟩, ⟨%d2, H2⟩, ⟨%d3, H3⟩, ⟨%d4, H4⟩⟩
    iapply (bodyA c (grid0.coords t) _ _ _ _ _ _ _ _ _ _ ((hcond0_0 t).mpr h0) (iblk m c 0 t) (iblk m c 1 t) Set.univ _)
    isplitl [H0]; · iexact H0
    isplitl [H1]; · iexact H1
    isplitl [H2]; · iexists _; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [outs_next_1 m c t h0, outs_next_2 m c t h0, outs_next_3 m c t h0]
    simp only [before0_2_next m c t h0, before0_3_next m c t h0, before0_4_next m c t h0]
    iintro ⟨HΦ, Ho, ⟨%d0, H0⟩, ⟨%d1, H1⟩, ⟨%d2, H2⟩, ⟨%d3, H3⟩, ⟨%d4, H4⟩⟩
    iapply (bodyB c (grid0.coords t) _ _ _ _ _ _ _ _ _ _ (fun hc => h0 ((hcond0_0 t).mp hc)) (iblk m c 0 t) (iblk m c 1 t)
      (outsAt0 m c (t.val - 1) (Nat.lt_of_le_of_lt (Nat.sub_le _ _) t.isLt)).1
      (outsAt0 m c (t.val - 1) (Nat.lt_of_le_of_lt (Nat.sub_le _ _) t.isLt)).2.1
      (outsAt0 m c (t.val - 1) (Nat.lt_of_le_of_lt (Nat.sub_le _ _) t.isLt)).2.2 Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body obligation of the region, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding
-- plain definitions in a metavariable's type
set_option backward.isDefEq.respectTransparency.types false in
/-- Every weakly fair execution of @main terminates without a fault; every final state has each array of the region
    at what the proof data compute and every other unscoped buffer as the tail leaves it. -/
theorem run_main : θ_run defs (onTc (τ := τ) (main (F := F))) (s₀ m ρ)
    (Pipeline.FramePost cfgs (dats m) 0 (Pipeline.afterTail₀ cfgs (dats m) 0 (V0 m) (tailOps (F := F)))) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

end Cert.Kernel.Fr

end
-- ==== Proof.K.FrameClaim.lean ====
/-
  The frame of the kernel's program: every execution terminates without a fault and the five argument arrays end as
  they began. None of them is an array of the region (the region reads the two flattened copies and writes its three
  results), the two reshapes before the region and the 148 operations after it write only their own result buffers,
  so each argument is a bypassing buffer that the run's post keeps at its entry contents.
-/
import proofs.«422936_j83648783057218_1_alg».proof.Proof.K.Frame

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every argument is a kept reference, and none is an array of the region. -/
theorem argRefs_kept : ∀ r ∈ argRefs, r ∈ keptRefs := by decide
theorem argRefs_ne_arr : ∀ r ∈ argRefs, ∀ w, Pipeline.arrRef spec0 w ≠ r := by decide

/-- After the tail an argument holds what the program was entered with: no tail operation writes it, it is no
    array of the region, and the two reshapes before the region leave it alone. -/
theorem afterTail_arg (c : Dev nD) {r : Ref sig .tc} (hr : r ∈ argRefs) :
    Pipeline.afterTail₀ cfgs (dats m) 0 (V0 m) (tailOps (F := F)) c r = m ((c.tc : Thread nD τ).loc r) := by
  unfold Pipeline.afterTail₀
  rw [StableHlo.after_of_forall_not_mem _ _ (fun op hop => by
        obtain ⟨ops, hops, hop'⟩ := List.mem_flatten.mp hop
        exact tail_keeps ops hops op hop' r (argRefs_kept r hr)),
    Pipeline.withArrays_of_ne _ _ _ _ r (argRefs_ne_arr r hr)]
  exact V_arg m c hr

/-- The five argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of _ rfl (by decide))).trans (afterTail_arg m c (by decide)),
     ((h c).2 main_arg1 (Pipeline.mem_restRefs_of _ rfl (by decide))).trans (afterTail_arg m c (by decide)),
     ((h c).2 main_arg2 (Pipeline.mem_restRefs_of _ rfl (by decide))).trans (afterTail_arg m c (by decide)),
     ((h c).2 main_arg3 (Pipeline.mem_restRefs_of _ rfl (by decide))).trans (afterTail_arg m c (by decide)),
     ((h c).2 main_arg4 (Pipeline.mem_restRefs_of _ rfl (by decide))).trans (afterTail_arg m c (by decide))⟩)
    (run_main m ρ)

end Cert.Kernel.Fr

end
-- ==== Proof.KI.Kit.lean ====
/-
  The dice kernel's program around its one region: two reshapes, the region over the grid of
  2 batches × 12 tiles of 12288 pixels, then 148 host operations. This module fixes what the region
  finds in memory (`V`), the host stretches that follow it (`tailOps`), each window's block at a grid
  point (`iblk`), the branch of the body taken at the first tile of a batch (`cond0_0`), and the facts
  about @main that the frame run needs: @main is the prefix, the region, the tail (`hmain`); the tail
  touches unscoped buffers only, allocates nothing, and writes none of the region's five arrays.
-/
import proofs.«422936_j83648783057218_1_alg».proof.Proof.Gen.KernelIdeal.Launch
import proofs.«422936_j83648783057218_1_alg».proof.Proof.Gen.KernelIdeal.Skeleton
import proofs.«422936_j83648783057218_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host stretches after the region, in order. -/
abbrev tailOps : List (List (HloOp τ sig (Elt F))) :=
  [hostOps1, hostOps1_1, hostOps1_2, hostOps1_3, hostOps1_4, hostOps1_5, hostOps1_6]

/-- The two reshapes touch TensorCore references only. -/
theorem hostOps0_sub_all : ([hostOps0] : List (List (HloOp τ sig (Elt F)))).Forall fun ops => ops.Forall fun op => op.bufs ⊆ StableHlo.tcRefs τ sig :=
  hostOps0_sub
/-- No operation of a stretch allocates a buffer: each is a builder over given references. -/
theorem hostOps0_fresh : (hostOps0 : List (HloOp τ sig (Elt F))).Forall fun op => op.fresh = ∅ := by
  simp only [List.Forall]; repeat' constructor
theorem hostOps0_fresh_all : ([hostOps0] : List (List (HloOp τ sig (Elt F)))).Forall fun ops => ops.Forall fun op => op.fresh = ∅ :=
  hostOps0_fresh
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main reduces to the region continued by the tail, holding the unscoped buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps hostOps0_sub_all hostOps0_fresh_all
    (fun c => main_chain c)

/-- The tail's operations touch the region's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
/-- The references the tail must leave alone: the region's five arrays and @main's five arguments. -/
abbrev keptRefs : List (Ref sig .tc) :=
  [main_v0, main_v1, main_v2_0, main_v2_1, main_v2_2, main_arg0, main_arg1, main_arg2, main_arg3, main_arg4]

/-- An operation whose only written buffer is the reference `y` writes no reference of a list that lacks `y`. -/
theorem not_writes_of {op : HloOp τ sig (Elt F)} {y : Ref sig .tc} (h : op.writes = {Proc.devRef .tc y})
    {L : List (Ref sig .tc)} (hy : y ∉ L) : ∀ r ∈ L, Proc.devRef (τ := τ) .tc r ∉ op.writes := by
  intro r hr hmem
  rw [h, Finset.mem_singleton] at hmem
  exact hy (Proc.devRef_injective _ hmem ▸ hr)

/-- Closes `∀ r ∈ L, ↑r ∉ op.writes` for a builder's operation: its one written buffer is told apart from the list. -/
local macro "keeps_op" : tactic =>
  `(tactic| first
    | exact not_writes_of (StableHlo.nullary_writes ..) (by decide)
    | exact not_writes_of (StableHlo.unary_writes ..) (by decide)
    | exact not_writes_of (StableHlo.binary_writes ..) (by decide)
    | exact not_writes_of (StableHlo.ternary_writes ..) (by decide)
    | exact not_writes_of (StableHlo.quaternary_writes ..) (by decide)
    | exact not_writes_of (StableHlo.reshape_writes ..) (by decide)
    | exact not_writes_of (StableHlo.binaryIndexed_writes ..) (by decide)
    | exact not_writes_of (StableHlo.unaryIndexed_writes ..) (by decide)
    | exact not_writes_of (StableHlo.nary_writes ..) (by decide))

/-- Each stretch of the tail writes none of the kept references. -/
theorem hostOps1_keeps : (hostOps1 : List (HloOp τ sig (Elt F))).Forall fun op => ∀ r ∈ keptRefs, Proc.devRef (τ := τ) .tc r ∉ op.writes := by
  simp only [List.Forall]; repeat' constructor
  all_goals keeps_op
theorem hostOps1_1_keeps : (hostOps1_1 : List (HloOp τ sig (Elt F))).Forall fun op => ∀ r ∈ keptRefs, Proc.devRef (τ := τ) .tc r ∉ op.writes := by
  simp only [List.Forall]; repeat' constructor
  all_goals keeps_op
theorem hostOps1_2_keeps : (hostOps1_2 : List (HloOp τ sig (Elt F))).Forall fun op => ∀ r ∈ keptRefs, Proc.devRef (τ := τ) .tc r ∉ op.writes := by
  simp only [List.Forall]; repeat' constructor
  all_goals keeps_op
theorem hostOps1_3_keeps : (hostOps1_3 : List (HloOp τ sig (Elt F))).Forall fun op => ∀ r ∈ keptRefs, Proc.devRef (τ := τ) .tc r ∉ op.writes := by
  simp only [List.Forall]; repeat' constructor
  all_goals keeps_op
theorem hostOps1_4_keeps : (hostOps1_4 : List (HloOp τ sig (Elt F))).Forall fun op => ∀ r ∈ keptRefs, Proc.devRef (τ := τ) .tc r ∉ op.writes := by
  simp only [List.Forall]; repeat' constructor
  all_goals keeps_op
theorem hostOps1_5_keeps : (hostOps1_5 : List (HloOp τ sig (Elt F))).Forall fun op => ∀ r ∈ keptRefs, Proc.devRef (τ := τ) .tc r ∉ op.writes := by
  simp only [List.Forall]; repeat' constructor
  all_goals keeps_op
theorem hostOps1_6_keeps : (hostOps1_6 : List (HloOp τ sig (Elt F))).Forall fun op => ∀ r ∈ keptRefs, Proc.devRef (τ := τ) .tc r ∉ op.writes := by
  simp only [List.Forall]; repeat' constructor
  all_goals keeps_op

/-- Every array of the region is a kept reference. -/
theorem arrRef_mem_keptRefs : ∀ w, Pipeline.arrRef spec0 w ∈ keptRefs := by decide

/-- No operation of the tail writes a kept reference. -/
theorem tail_keeps : ∀ ops ∈ (tailOps : List (List (HloOp τ sig (Elt F)))), ∀ op ∈ ops,
    ∀ r ∈ keptRefs, Proc.devRef (τ := τ) .tc r ∉ op.writes := by
  intro ops hops op hop
  simp only [List.mem_cons, List.mem_nil_iff, or_false] at hops
  rcases hops with rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop

/-- And write no array of the region. -/
theorem sfx_keeps : ∀ ops ∈ (tailOps : List (List (HloOp τ sig (Elt F)))), ∀ op ∈ ops,
    ∀ w, Proc.devRef .tc (Pipeline.arrRef spec0 w) ∉ op.writes := by
  intro ops hops op hop w
  exact tail_keeps ops hops op hop _ (arrRef_mem_keptRefs w)

/-- @main's five arguments. -/
abbrev argRefs : List (Ref sig .tc) := [main_arg0, main_arg1, main_arg2, main_arg3, main_arg4]

/-- The two reshapes write their own results only, no argument. -/
theorem hostOps0_keeps : (hostOps0 : List (HloOp τ sig (Elt F))).Forall fun op => ∀ r ∈ argRefs, Proc.devRef (τ := τ) .tc r ∉ op.writes := by
  simp only [List.Forall]; repeat' constructor
  all_goals keeps_op

/-- So the region finds every argument as the program was entered. -/
theorem V_arg (c : Dev nD) {r : Ref sig .tc} (hr : r ∈ argRefs) : V m c r = m ((c : Thread nD τ).loc r) := by
  show StableHlo.after (List.flatten [hostOps0]) (fun b => m (c, b)) (Proc.devRef .tc r) = _
  rw [List.flatten_cons, List.flatten_nil, List.append_nil]
  exact StableHlo.after_of_forall_not_mem _ _ (fun op hop => (List.forall_iff_forall_mem.mp hostOps0_keeps) op hop r hr)

/-- The two reshapes leave the five argument arrays as they were. -/
theorem V_main_arg0 (c : Dev nD) : V m c main_arg0 = m ((c : Thread nD τ).loc main_arg0) := V_arg m c (by decide)
theorem V_main_arg1 (c : Dev nD) : V m c main_arg1 = m ((c : Thread nD τ).loc main_arg1) := V_arg m c (by decide)
theorem V_main_arg2 (c : Dev nD) : V m c main_arg2 = m ((c : Thread nD τ).loc main_arg2) := V_arg m c (by decide)
theorem V_main_arg3 (c : Dev nD) : V m c main_arg3 = m ((c : Thread nD τ).loc main_arg3) := V_arg m c (by decide)
theorem V_main_arg4 (c : Dev nD) : V m c main_arg4 = m ((c : Thread nD τ).loc main_arg4) := V_arg m c (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is
    `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_fetched 0 t (fetch0_0 t) d).trans (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_fetched 1 t (fetch0_1 t) d).trans (by unfold Dat.fetched Dat.blockOf iblk; rw [hA]; try rfl)

/-! ## The body's branch -/

/-- The body's one branch: taken at the first tile of a batch (grid coordinate 1 is zero). -/
abbrev cond0_0 (i : grid0.Coords) : Prop := (Scalar.cmpi .ne (Scalar.extui (Scalar.cmpi .eq (BitVec.ofNat 32 (i 1).val) 0#32)) 0#32) = 1#1
/-- Over the 24 points it is taken exactly at the points ≡ 0 (mod 12). -/
theorem hcond0_0 : ∀ t : Fin cfg0.N, cond0_0 (grid0.coords t) ↔ t.val % 12 = 0 :=
  (by decide +kernel : ∀ t : Fin grid0.N, cond0_0 (grid0.coords t) ↔ t.val % 12 = 0)

/-- Each window's current staging memref at point `t`, as the pipeline passes it to the body, and its wholeness. -/
abbrev ms0_0 (t : Fin cfg0.N) : Memref sig .tc .vmem S1x100x12288 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x12288 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x100x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x100x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x64 .f32 := win0_4.stage (cfg0.slots t 4)
abbrev hs0_4 (t : Fin cfg0.N) : (ms0_4 t).IsWhole := hstage0_4 ((cfg0.slots t 4).cast nbuf0_4)

end Cert.KernelIdeal.Fr

end
-- ==== Proof.KI.Step.lean ====
/-
  One tile's update of each of the three accumulators, as pure functions of the tile's two input blocks and of what
  the accumulator held: the body's arithmetic, named once.
-/
import proofs.«422936_j83648783057218_1_alg».proof.Proof.KI.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The intersection accumulator after a tile: what it held plus the tile's 100×64 product of sigmoid(pred) with the masks. -/
def stepI (x0 : Vec F S1x100x12288 .f32) (x1 : Vec F S1x64x12288 .i32) (acc : Vec F S1x100x64 .f32) : Vec F S1x100x64 .f32 :=
  k0_pay1 (k0_pay9 x0 x1) (k0_pay10 acc)
/-- The prediction-sum accumulator after a tile: what it held plus the row sums of sigmoid(pred) over the tile. -/
def stepP (x0 : Vec F S1x100x12288 .f32) (acc : Vec F S1x100x1 .f32) : Vec F S1x100x1 .f32 := k0_pay7 x0 acc
/-- The mask-sum accumulator after a tile: what it held plus the row sums of the masks over the tile. -/
def stepG (x1 : Vec F S1x64x12288 .i32) (acc : Vec F S1x1x64 .f32) : Vec F S1x1x64 .f32 := k0_pay8 x1 acc

end Cert.KernelIdeal.Fr

end
-- ==== Proof.KI.Runs.lean ====
/-
  The kernel body run on whole staging buffers, in its two cases. At the first tile of a batch the body zeroes the
  three output buffers, reads them back, and stores zero plus the tile's contribution; at a later tile it reads what
  the tile before left and stores that plus the tile's contribution. Either way the two input buffers are handed
  back as they were.
-/
import proofs.«422936_j83648783057218_1_alg».proof.Proof.KI.Step
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The whole-buffer rectangle's offsets, spelt as a literal vector, are all zero. -/
private theorem hz3 : (![0, 0, 0] : Fin 3 → Nat) = fun _ => 0 := funext fun a => by fin_cases a <;> rfl

section Readback
variable {Val : EltTy → Type} [∀ e, Nonempty (Val e)] {sg : RefSig} {κ : Kind} {sp : Space} {S : Shape} {e : EltTy}

/-- A store through the whole-shape rectangle at zero offsets, made last: reading the buffer back gives the stored
    block, whatever was stored before and whatever the buffer held. -/
private theorem read_writes_whole (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩)]
  exact View.canon_cons_unit_zero h inb w L

end Readback

/-- The body at the first tile of a batch: whatever the three output buffers held, they end at one step from zero. -/
theorem bodyA (c : Dev nD) (i : grid0.Coords) (arg2 : Memref sig .tc .vmem S1x100x12288 .f32) (harg2 : arg2.IsWhole)
    (arg3 : Memref sig .tc .vmem S1x64x12288 .i32) (harg3 : arg3.IsWhole) (arg4 : Memref sig .tc .vmem S1x100x64 .f32) (harg4 : arg4.IsWhole)
    (arg5 : Memref sig .tc .vmem S1x100x1 .f32) (harg5 : arg5.IsWhole) (arg6 : Memref sig .tc .vmem S1x1x64 .f32) (harg6 : arg6.IsWhole)
    (hc : cond0_0 i) (x0 : Vec F S1x100x12288 .f32) (x1 : Vec F S1x64x12288 .i32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (stepI x0 x1 k0_pay2)
            ∗ owns (c : Thread nD τ) arg5 fullShare (stepP x0 k0_pay3)
            ∗ owns (c : Thread nD τ) arg6 fullShare (stepG x1 k0_pay4)) -∗ K ⟨⟩))
      ⊢ wp frame (wpE (defs₀ (F := F)) Variants.none c none) E (cc0__dice_kernel i arg2 harg2 arg3 harg3 arg4 harg4 arg5 harg5 arg6 harg6) K := by
  simp only [cc0__dice_kernel_eq_skeleton]; unfold cc0__dice_kernel_skel
  unfold owns
  iintro ⟨⟨%f0, %hf0, H0⟩, ⟨%f1, %hf1, H1⟩, ⟨%d2, %f2, %hf2, H2⟩, ⟨%d3, %f3, %hf3, H3⟩, ⟨%d4, %f4, %hf4, H4⟩, Hk⟩
  obtain rfl := harg2.eq_unread hf0; obtain rfl := harg3.eq_unread hf1; obtain rfl := harg4.eq_unread hf2
  obtain rfl := harg5.eq_unread hf3; obtain rfl := harg6.eq_unread hf4
  sl_exec (disch := exact hc)
  sl_step
  iapply Hk
  isplitl [H0]
  · iexists _; isplitr; · ipureintro; exact harg2.read_unread _
    iexact H0
  isplitl [H1]
  · iexists _; isplitr; · ipureintro; exact harg3.read_unread _
    iexact H1
  -- each output buffer: the update store covers it, and the block it read back is the zero block stored just before
  isplitl [H2]
  · iexists _; isplitr
    swap
    · iexact H2
    ipureintro
    refine (read_writes_whole (S := S1x100x64) _ _ hz3 _ _ _).trans ?_
    sl_unfold_words
    simp only [View.readAt_eq_ld, harg2.read_unread, harg3.read_unread,
      View.ld_unit_zero (S := S1x100x12288) hz3, View.ld_unit_zero (S := S1x64x12288) hz3,
      View.readCov_unit_zero (S := S1x100x64) _ hz3]
    rfl
  isplitl [H3]
  · iexists _; isplitr
    swap
    · iexact H3
    ipureintro
    refine (read_writes_whole (S := S1x100x1) _ _ hz3 _ _ _).trans ?_
    sl_unfold_words
    simp only [View.readAt_eq_ld, harg2.read_unread,
      View.ld_unit_zero (S := S1x100x12288) hz3, View.readCov_unit_zero (S := S1x100x1) _ hz3]
    rfl
  iexists _; isplitr
  swap
  · iexact H4
  ipureintro
  refine (read_writes_whole (S := S1x1x64) _ _ hz3 _ _ _).trans ?_
  sl_unfold_words
  simp only [View.readAt_eq_ld, harg3.read_unread,
    View.ld_unit_zero (S := S1x64x12288) hz3, View.readCov_unit_zero (S := S1x1x64) _ hz3]
  rfl

/-- The body at a later tile: the three output buffers end at one step from what they held. -/
theorem bodyB (c : Dev nD) (i : grid0.Coords) (arg2 : Memref sig .tc .vmem S1x100x12288 .f32) (harg2 : arg2.IsWhole)
    (arg3 : Memref sig .tc .vmem S1x64x12288 .i32) (harg3 : arg3.IsWhole) (arg4 : Memref sig .tc .vmem S1x100x64 .f32) (harg4 : arg4.IsWhole)
    (arg5 : Memref sig .tc .vmem S1x100x1 .f32) (harg5 : arg5.IsWhole) (arg6 : Memref sig .tc .vmem S1x1x64 .f32) (harg6 : arg6.IsWhole)
    (hc : ¬cond0_0 i) (x0 : Vec F S1x100x12288 .f32) (x1 : Vec F S1x64x12288 .i32)
    (a2 : Vec F S1x100x64 .f32) (a3 : Vec F S1x100x1 .f32) (a4 : Vec F S1x1x64 .f32)
    (E : Set ℕ) (K : PUnit → sProp 𝕄) :
    iprop(owns (c : Thread nD τ) arg2 fullShare x0 ∗ owns (c : Thread nD τ) arg3 fullShare x1
        ∗ owns (c : Thread nD τ) arg4 fullShare a2 ∗ owns (c : Thread nD τ) arg5 fullShare a3 ∗ owns (c : Thread nD τ) arg6 fullShare a4
        ∗ (iprop(owns (c : Thread nD τ) arg2 fullShare x0 ∗ owns (c : Thread nD τ) arg3 fullShare x1
            ∗ owns (c : Thread nD τ) arg4 fullShare (stepI x0 x1 a2)
            ∗ owns (c : Thread nD τ) arg5 fullShare (stepP x0 a3)
            ∗ owns (c : Thread nD τ) arg6 fullShare (stepG x1 a4)) -∗ K ⟨⟩))
      ⊢ wp frame (wpE (defs₀ (F := F)) Variants.none c none) E (cc0__dice_kernel i arg2 harg2 arg3 harg3 arg4 harg4 arg5 harg5 arg6 harg6) K := by
  simp only [cc0__dice_kernel_eq_skeleton]; unfold cc0__dice_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2
  obtain rfl := harg5.eq_unread hf3; obtain rfl := harg6.eq_unread hf4
  sl_exec (disch := exact hc)
  sl_step
  iapply Hk
  isplitl [H0]
  · iexists _; isplitr; · ipureintro; exact harg2.read_unread _
    iexact H0
  isplitl [H1]
  · iexists _; isplitr; · ipureintro; exact harg3.read_unread _
    iexact H1
  -- each output buffer: its one store covers it, and the block it read is what the buffer held
  isplitl [H2]
  · iexists _; isplitr
    swap
    · iexact H2
    ipureintro
    refine (read_writes_whole (S := S1x100x64) _ _ hz3 _ _ _).trans ?_
    sl_unfold_words
    simp only [View.readAt_eq_ld, harg2.read_unread, harg3.read_unread, harg4.read_unread,
      View.ld_unit_zero (S := S1x100x12288) hz3, View.ld_unit_zero (S := S1x64x12288) hz3, View.ld_unit_zero (S := S1x100x64) hz3]
    rfl
  isplitl [H3]
  · iexists _; isplitr
    swap
    · iexact H3
    ipureintro
    refine (read_writes_whole (S := S1x100x1) _ _ hz3 _ _ _).trans ?_
    simp only [View.readAt_eq_ld, harg2.read_unread, harg5.read_unread,
      View.ld_unit_zero (S := S1x100x12288) hz3, View.ld_unit_zero (S := S1x100x1) hz3]
    rfl
  iexists _; isplitr
  swap
  · iexact H4
  ipureintro
  refine (read_writes_whole (S := S1x1x64) _ _ hz3 _ _ _).trans ?_
  simp only [View.readAt_eq_ld, harg3.read_unread, harg6.read_unread,
    View.ld_unit_zero (S := S1x64x12288) hz3, View.ld_unit_zero (S := S1x1x64) hz3]
  rfl

end Cert.KernelIdeal.Fr

end
-- ==== Proof.KI.Frame.lean ====
/-
  What the three accumulators hold after each grid point, the region's proof data, and the run of the
  whole program. A grid point is (batch, tile) = (t / 12, t % 12). At the first tile of a batch the body
  zeroes the three output buffers and then adds the tile's contribution; at every later tile it adds to what the
  tile before left. The contributions: the tile's 100×64 product of sigmoid(pred) with the masks, the row
  sums of sigmoid(pred) over the tile, and the row sums of the masks over the tile.
-/
import proofs.«422936_j83648783057218_1_alg».proof.Proof.KI.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulators point by point -/

/-- What the three output staging buffers hold after the body at position `n`: from zero at the first tile of a
    batch, from the position before otherwise. -/
def outsAt0 (c : Dev nD) : (n : ℕ) → n < cfg0.N → Vec F S1x100x64 .f32 × Vec F S1x100x1 .f32 × Vec F S1x1x64 .f32
  | 0, hn => (stepI (iblk m c 0 ⟨0, hn⟩) (iblk m c 1 ⟨0, hn⟩) k0_pay2, stepP (iblk m c 0 ⟨0, hn⟩) k0_pay3, stepG (iblk m c 1 ⟨0, hn⟩) k0_pay4)
  | n + 1, hn =>
    if (n + 1) % 12 = 0 then
      (stepI (iblk m c 0 ⟨n + 1, hn⟩) (iblk m c 1 ⟨n + 1, hn⟩) k0_pay2, stepP (iblk m c 0 ⟨n + 1, hn⟩) k0_pay3, stepG (iblk m c 1 ⟨n + 1, hn⟩) k0_pay4)
    else
      (stepI (iblk m c 0 ⟨n + 1, hn⟩) (iblk m c 1 ⟨n + 1, hn⟩) (outsAt0 c n (Nat.lt_of_succ_lt hn)).1,
       stepP (iblk m c 0 ⟨n + 1, hn⟩) (outsAt0 c n (Nat.lt_of_succ_lt hn)).2.1,
       stepG (iblk m c 1 ⟨n + 1, hn⟩) (outsAt0 c n (Nat.lt_of_succ_lt hn)).2.2)

/-- At the first tile of a batch the accumulators restart from zero. -/
theorem outsAt0_first (c : Dev nD) (t : Fin cfg0.N) (h : t.val % 12 = 0) :
    outsAt0 m c t.val t.isLt = (stepI (iblk m c 0 t) (iblk m c 1 t) k0_pay2, stepP (iblk m c 0 t) k0_pay3, stepG (iblk m c 1 t) k0_pay4) := by
  obtain ⟨n, hn⟩ := t
  cases n with
  | zero => exact rfl
  | succ n => exact (if_pos h).trans rfl

/-- At a later tile they continue from the position before. -/
theorem outsAt0_next (c : Dev nD) (t : Fin cfg0.N) (h : ¬ t.val % 12 = 0) :
    outsAt0 m c t.val t.isLt
      = (stepI (iblk m c 0 t) (iblk m c 1 t) (outsAt0 m c (t.val - 1) (Nat.lt_of_le_of_lt (Nat.sub_le _ _) t.isLt)).1,
         stepP (iblk m c 0 t) (outsAt0 m c (t.val - 1) (Nat.lt_of_le_of_lt (Nat.sub_le _ _) t.isLt)).2.1,
         stepG (iblk m c 1 t) (outsAt0 m c (t.val - 1) (Nat.lt_of_le_of_lt (Nat.sub_le _ _) t.isLt)).2.2) := by
  obtain ⟨n, hn⟩ := t
  cases n with
  | zero => exact absurd (Nat.zero_mod _) h
  | succ n => exact (if_neg h).trans rfl

/-! ## The region's proof data -/

/-- The arrays as the region finds them; after the body at point `t` each input's buffer at its block and the
    outputs' at the accumulators; the invariant the scoped rest and the generator register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2 := by dsimp only [dats]

/-! ## The accumulators, component by component -/

theorem outs_first_1 (c : Dev nD) (t : Fin cfg0.N) (h : t.val % 12 = 0) :
    (outsAt0 m c t.val t.isLt).1 = stepI (iblk m c 0 t) (iblk m c 1 t) k0_pay2 := by rw [outsAt0_first m c t h]
theorem outs_first_2 (c : Dev nD) (t : Fin cfg0.N) (h : t.val % 12 = 0) :
    (outsAt0 m c t.val t.isLt).2.1 = stepP (iblk m c 0 t) k0_pay3 := by rw [outsAt0_first m c t h]
theorem outs_first_3 (c : Dev nD) (t : Fin cfg0.N) (h : t.val % 12 = 0) :
    (outsAt0 m c t.val t.isLt).2.2 = stepG (iblk m c 1 t) k0_pay4 := by rw [outsAt0_first m c t h]

theorem outs_next_1 (c : Dev nD) (t : Fin cfg0.N) (h : ¬ t.val % 12 = 0) :
    (outsAt0 m c t.val t.isLt).1
      = stepI (iblk m c 0 t) (iblk m c 1 t) (outsAt0 m c (t.val - 1) (Nat.lt_of_le_of_lt (Nat.sub_le _ _) t.isLt)).1 := by
  rw [outsAt0_next m c t h]
theorem outs_next_2 (c : Dev nD) (t : Fin cfg0.N) (h : ¬ t.val % 12 = 0) :
    (outsAt0 m c t.val t.isLt).2.1
      = stepP (iblk m c 0 t) (outsAt0 m c (t.val - 1) (Nat.lt_of_le_of_lt (Nat.sub_le _ _) t.isLt)).2.1 := by
  rw [outsAt0_next m c t h]
theorem outs_next_3 (c : Dev nD) (t : Fin cfg0.N) (h : ¬ t.val % 12 = 0) :
    (outsAt0 m c t.val t.isLt).2.2
      = stepG (iblk m c 1 t) (outsAt0 m c (t.val - 1) (Nat.lt_of_le_of_lt (Nat.sub_le _ _) t.isLt)).2.2 := by
  rw [outsAt0_next m c t h]

/-! ## What the body finds in each staging buffer -/

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- Away from the first tile of a batch the point before did not write the outputs back: the write-back happens at
    the last tile of a batch only, and the point before a non-first tile is not a last tile. -/
theorem not_last_before {n : ℕ} (h : ¬ n % 12 = 0) : ¬ (n - 1) % 12 = 11 := by omega

/-- Away from the first tile of a batch each output's current staging buffer holds what the body left at the point
    before: the point is not the first, the buffer was not written back in between, the window is live and uncut. -/
theorem before0_2_next (c : Dev nD) (t : Fin cfg0.N) (h : ¬ t.val % 12 = 0) (d) :
    (dats m 0 c).before 2 t d = (outsAt0 m c (t.val - 1) (Nat.lt_of_le_of_lt (Nat.sub_le _ _) t.isLt)).1 := by
  rw [Dat.before_out_kept _ 2 rfl t (fun h0 => h (by rw [h0])) (Bool.eq_false_iff.mpr fun hf => not_last_before h ((flush0_2 _).mp hf))
    (fun _ => rfl) (fun _ _ => rfl)]
  dsimp only [dats]
theorem before0_3_next (c : Dev nD) (t : Fin cfg0.N) (h : ¬ t.val % 12 = 0) (d) :
    (dats m 0 c).before 3 t d = (outsAt0 m c (t.val - 1) (Nat.lt_of_le_of_lt (Nat.sub_le _ _) t.isLt)).2.1 := by
  rw [Dat.before_out_kept _ 3 rfl t (fun h0 => h (by rw [h0])) (Bool.eq_false_iff.mpr fun hf => not_last_before h ((flush0_3 _).mp hf))
    (fun _ => rfl) (fun _ _ => rfl)]
  dsimp only [dats]
theorem before0_4_next (c : Dev nD) (t : Fin cfg0.N) (h : ¬ t.val % 12 = 0) (d) :
    (dats m 0 c).before 4 t d = (outsAt0 m c (t.val - 1) (Nat.lt_of_le_of_lt (Nat.sub_le _ _) t.isLt)).2.2 := by
  rw [Dat.before_out_kept _ 4 rfl t (fun h0 => h (by rw [h0])) (Bool.eq_false_iff.mpr fun hf => not_last_before h ((flush0_4 _).mp hf))
    (fun _ => rfl) (fun _ _ => rfl)]
  dsimp only [dats]

/-! ## The body obligation -/

/-- What the body is called with at point `t`: the invariant, nothing owed, and each window's current staging
    buffer at what it holds before the body, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns: the same with each buffer at what the body leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 800000 in
/-- The body at any point. The inputs' buffers hold their blocks. At the first tile of a batch the outputs' buffers
    hold anything and the body restarts them from zero; at a later tile they hold what the tile before left and the
    body adds to it. The invariant passes through unread and nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  by_cases h0 : t.val % 12 = 0
  · rw [outs_first_1 m c t h0, outs_first_2 m c t h0, outs_first_3 m c t h0]
    iintro ⟨HΦ, Ho, ⟨%d0, H0⟩, ⟨%d1, H1⟩, ⟨%d2, H2⟩, ⟨%d3, H3⟩, ⟨%d4, H4⟩⟩
    iapply (bodyA c (grid0.coords t) _ _ _ _ _ _ _ _ _ _ ((hcond0_0 t).mpr h0) (iblk m c 0 t) (iblk m c 1 t) Set.univ _)
    isplitl [H0]; · iexact H0
    isplitl [H1]; · iexact H1
    isplitl [H2]; · iexists _; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [outs_next_1 m c t h0, outs_next_2 m c t h0, outs_next_3 m c t h0]
    simp only [before0_2_next m c t h0, before0_3_next m c t h0, before0_4_next m c t h0]
    iintro ⟨HΦ, Ho, ⟨%d0, H0⟩, ⟨%d1, H1⟩, ⟨%d2, H2⟩, ⟨%d3, H3⟩, ⟨%d4, H4⟩⟩
    iapply (bodyB c (grid0.coords t) _ _ _ _ _ _ _ _ _ _ (fun hc => h0 ((hcond0_0 t).mp hc)) (iblk m c 0 t) (iblk m c 1 t)
      (outsAt0 m c (t.val - 1) (Nat.lt_of_le_of_lt (Nat.sub_le _ _) t.isLt)).1
      (outsAt0 m c (t.val - 1) (Nat.lt_of_le_of_lt (Nat.sub_le _ _) t.isLt)).2.1
      (outsAt0 m c (t.val - 1) (Nat.lt_of_le_of_lt (Nat.sub_le _ _) t.isLt)).2.2 Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body obligation of the region, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding
-- plain definitions in a metavariable's type
set_option backward.isDefEq.respectTransparency.types false in
/-- Every weakly fair execution of @main terminates without a fault; every final state has each array of the region
    at what the proof data compute and every other unscoped buffer as the tail leaves it. -/
theorem run_main : θ_run defs (onTc (τ := τ) (main (F := F))) (s₀ m ρ)
    (Pipeline.FramePost cfgs (dats m) 0 (Pipeline.afterTail₀ cfgs (dats m) 0 (V0 m) (tailOps (F := F)))) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

end Cert.KernelIdeal.Fr

end
-- ==== Proof.KI.FrameClaim.lean ====
/-
  The frame of the kernel's program: every execution terminates without a fault and the five argument arrays end as
  they began. None of them is an array of the region (the region reads the two flattened copies and writes its three
  results), the two reshapes before the region and the 148 operations after it write only their own result buffers,
  so each argument is a bypassing buffer that the run's post keeps at its entry contents.
-/
import proofs.«422936_j83648783057218_1_alg».proof.Proof.KI.Frame

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every argument is a kept reference, and none is an array of the region. -/
theorem argRefs_kept : ∀ r ∈ argRefs, r ∈ keptRefs := by decide
theorem argRefs_ne_arr : ∀ r ∈ argRefs, ∀ w, Pipeline.arrRef spec0 w ≠ r := by decide

/-- After the tail an argument holds what the program was entered with: no tail operation writes it, it is no
    array of the region, and the two reshapes before the region leave it alone. -/
theorem afterTail_arg (c : Dev nD) {r : Ref sig .tc} (hr : r ∈ argRefs) :
    Pipeline.afterTail₀ cfgs (dats m) 0 (V0 m) (tailOps (F := F)) c r = m ((c.tc : Thread nD τ).loc r) := by
  unfold Pipeline.afterTail₀
  rw [StableHlo.after_of_forall_not_mem _ _ (fun op hop => by
        obtain ⟨ops, hops, hop'⟩ := List.mem_flatten.mp hop
        exact tail_keeps ops hops op hop' r (argRefs_kept r hr)),
    Pipeline.withArrays_of_ne _ _ _ _ r (argRefs_ne_arr r hr)]
  exact V_arg m c hr

/-- The five argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of _ rfl (by decide))).trans (afterTail_arg m c (by decide)),
     ((h c).2 main_arg1 (Pipeline.mem_restRefs_of _ rfl (by decide))).trans (afterTail_arg m c (by decide)),
     ((h c).2 main_arg2 (Pipeline.mem_restRefs_of _ rfl (by decide))).trans (afterTail_arg m c (by decide)),
     ((h c).2 main_arg3 (Pipeline.mem_restRefs_of _ rfl (by decide))).trans (afterTail_arg m c (by decide)),
     ((h c).2 main_arg4 (Pipeline.mem_restRefs_of _ rfl (by decide))).trans (afterTail_arg m c (by decide))⟩)
    (run_main m ρ)

end Cert.KernelIdeal.Fr

end
-- ==== Proof.KI.TailSpec.lean ====
/-
  The 148 host operations that follow the region, as pure functions of the program's arguments and of the
  region's three results. In the order of the program: the dice cost from the three accumulated sums; the
  softmax of the class logits; the gather of each query's probability at each mask's label (an index below
  zero wraps by the number of classes, an index out of range answers the fill value); the conversion of the
  masks to floats; the gathers of the logits and of the masks at the sampled points; the binary cross-entropy
  cost over the sampled points; the weighted sum of the three costs; the replacement of a NaN and of the two
  infinities by finite constants.
-/
import proofs.«422936_j83648783057218_1_alg».proof.KernelIdeal
import proofs.«422936_j83648783057218_1_alg».proof.Proof.Gen.KernelIdeal

noncomputable section

namespace Cert.KernelIdeal.Fr

open Cert.KernelIdeal Cert.KernelIdeal.Gen
open Idealize.ShloMosaic

variable {F : FTy → Type} [FloatOps F]

/-! ## Splats -/

/-- The splat of one bit pattern over queries × masks. -/
def splatQK (b : BitVec 32) : FVec F S2x100x64 .f32 :=
  broadcastInDim (s := S_) S2x100x64 ![] bcast_S_S2x100x64 (constant (F := F) S_ .f32 b)

/-! ## The softmax -/

/-- The softmax of the class logits over the class axis: subtract the row maximum, exponentiate, divide by the row sum. -/
def probsK (a0 : FVec F S2x100x81 .f32) : FVec F S2x100x81 .f32 :=
  Host.divf (F := F)
    (Host.exp (F := F) (subf (F := F) a0
      (broadcastInDim S2x100x81 ![0, 1, 2] bcast_S2x100x1_S2x100x81_0_1_2
        (broadcastInDim S2x100x1 ![0, 1] bcast_S2x100_S2x100x1_0_1
          (maximumf (F := F)
            (broadcastInDim (s := S_) S2x100 ![] bcast_S_S2x100 (constant (F := F) S_ .f32 0xFF800000#32))
            (Host.reduce (FloatOps.maximumf (F := F)) a0 (constant (F := F) S_ .f32 0xFF800000#32) reducesTo_S2x100x81_S2x100_d2 h_S_))))))
    (broadcastInDim S2x100x81 ![0, 1, 2] bcast_S2x100x1_S2x100x81_0_1_2
      (broadcastInDim S2x100x1 ![0, 1] bcast_S2x100_S2x100x1_0_1
        (Host.reduceAdd (F := F)
          (Host.exp (F := F) (subf (F := F) a0
            (broadcastInDim S2x100x81 ![0, 1, 2] bcast_S2x100x1_S2x100x81_0_1_2
              (broadcastInDim S2x100x1 ![0, 1] bcast_S2x100_S2x100x1_0_1
                (maximumf (F := F)
                  (broadcastInDim (s := S_) S2x100 ![] bcast_S_S2x100 (constant (F := F) S_ .f32 0xFF800000#32))
                  (Host.reduce (FloatOps.maximumf (F := F)) a0 (constant (F := F) S_ .f32 0xFF800000#32) reducesTo_S2x100x81_S2x100_d2 h_S_))))))
          (constant (F := F) S_ .f32 0x00000000#32) reducesTo_S2x100x81_S2x100_d2 h_S_)))

/-! ## The gather at the labels -/

/-- A label below zero plus the number of classes, as a column. -/
def wrapLabK (a2 : IVec S2x64 32) : IVec S2x64x1 32 :=
  broadcastInDim S2x64x1 ![0, 1] bcast_S2x64_S2x64x1_0_1
    (select (cmpi .slt a2 (broadcastInDim (s := S_) S2x64 ![] bcast_S_S2x64 (constantI S_ 32 0#32)))
      (addi a2 (broadcastInDim (s := S_) S2x64 ![] bcast_S_S2x64 (constantI S_ 32 81#32)))
      a2)

/-- Whether the wrapped label is a class index: between 0 and 80, and-reduced over the unit axis, broadcast over the queries. -/
def maskLabK (a2 : IVec S2x64 32) : IVec S2x100x64 1 :=
  broadcastInDim S2x100x64 ![0, 2] bcast_S2x64_S2x100x64_0_2
    (Host.reduce IntOp.andi
      (andi
        (cmpi .sge (wrapLabK a2) (broadcastInDim (s := S_) S2x64x1 ![] bcast_S_S2x64x1 (constantI S_ 32 0#32)))
        (cmpi .sle (wrapLabK a2)
          (broadcastInDim S2x64x1 ![0, 1, 2] bcast_S1x1x1_S2x64x1_0_1_2
            (broadcastInDim S1x1x1 ![2] bcast_S1_S1x1x1_2 (constantI S1 32 80#32)))))
      (constantI S_ 1 1#1) reducesTo_S2x64x1_S2x64_d2 h_S_)

/-- Each query's probability at each mask's label, the fill value where the label is no class index. -/
def takeLabK (p : FVec F S2x100x81 .f32) (a2 : IVec S2x64 32) : FVec F S2x100x64 .f32 :=
  select (maskLabK a2)
    (Host.gather gather_S2x100x81_S2x64x1_S2x100x64_1_2_0_0_2_2_11001 p (wrapLabK a2))
    (splatQK (F := F) 0x7FC00000#32)

/-- The classification cost: minus the probability of the mask's label. -/
def ccK (a0 : FVec F S2x100x81 .f32) (a2 : IVec S2x64 32) : FVec F S2x100x64 .f32 :=
  Host.negf (F := F) (takeLabK (probsK a0) a2)

/-! ## The gathers at the sampled points -/

/-- The masks as floats. -/
def gtFlatK (v1 : IVec S2x64x147456 32) : FVec F S2x64x147456 .f32 :=
  sitofp (F := F) .f32 v1

/-- A point index below zero plus the number of pixels, as a column. -/
def wrapPtK (a4 : IVec S1024 32) : IVec S1024x1 32 :=
  broadcastInDim S1024x1 ![0] bcast_S1024_S1024x1_0
    (select (cmpi .slt a4 (broadcastInDim (s := S_) S1024 ![] bcast_S_S1024 (constantI S_ 32 0#32)))
      (addi a4 (broadcastInDim (s := S_) S1024 ![] bcast_S_S1024 (constantI S_ 32 147456#32)))
      a4)

/-- Whether the wrapped point index is a pixel, and-reduced over the unit axis. -/
def maskPtK (a4 : IVec S1024 32) : IVec S1024 1 :=
  Host.reduce IntOp.andi
    (andi
      (cmpi .sge (wrapPtK a4) (broadcastInDim (s := S_) S1024x1 ![] bcast_S_S1024x1 (constantI S_ 32 0#32)))
      (cmpi .sle (wrapPtK a4)
        (broadcastInDim S1024x1 ![0, 1] bcast_S1x1_S1024x1_0_1
          (broadcastInDim S1x1 ![1] bcast_S1_S1x1_1 (constantI S1 32 147455#32)))))
    (constantI S_ 1 1#1) reducesTo_S1024x1_S1024_d1 h_S_

/-- The same, broadcast over batches × queries. -/
def maskPtXK (a4 : IVec S1024 32) : IVec S2x100x1024 1 :=
  broadcastInDim S2x100x1024 ![2] bcast_S1024_S2x100x1024_2 (maskPtK a4)

/-- The same, broadcast over batches × masks. -/
def maskPtYK (a4 : IVec S1024 32) : IVec S2x64x1024 1 :=
  broadcastInDim S2x64x1024 ![2] bcast_S1024_S2x64x1024_2 (maskPtK a4)

/-- The logits at the sampled points. -/
def xsK (v0 : FVec F S2x100x147456 .f32) (a4 : IVec S1024 32) : FVec F S2x100x1024 .f32 :=
  select (maskPtXK a4)
    (Host.gather gather_S2x100x147456_S1024x1_S2x100x1024_01_2_n_n_2_1_21001 v0 (wrapPtK a4))
    (broadcastInDim (s := S_) S2x100x1024 ![] bcast_S_S2x100x1024 (constant (F := F) S_ .f32 0x7FC00000#32))

/-- The masks at the sampled points. -/
def ysK (v1f : FVec F S2x64x147456 .f32) (a4 : IVec S1024 32) : FVec F S2x64x1024 .f32 :=
  select (maskPtYK a4)
    (Host.gather gather_S2x64x147456_S1024x1_S2x64x1024_01_2_n_n_2_1_2641 v1f (wrapPtK a4))
    (broadcastInDim (s := S_) S2x64x1024 ![] bcast_S_S2x64x1024 (constant (F := F) S_ .f32 0x7FC00000#32))

/-! ## The costs and their sum -/

/-- The dice cost: one minus twice the intersection over the two sums plus a small constant. -/
def diceK (I : FVec F S2x100x64 .f32) (P : FVec F S2x100x1 .f32) (G : FVec F S2x1x64 .f32) : FVec F S2x100x64 .f32 :=
  subf (F := F) (splatQK (F := F) 0x3F800000#32)
    (Host.divf (F := F)
      (mulf (F := F) (splatQK (F := F) 0x40000000#32) I)
      (addf (F := F)
        (addf (F := F)
          (broadcastInDim S2x100x64 ![0, 1, 2] bcast_S2x100x1_S2x100x64_0_1_2 P)
          (broadcastInDim S2x100x64 ![0, 1, 2] bcast_S2x1x64_S2x100x64_0_1_2 G))
        (splatQK (F := F) 0x358637BD#32)))

/-- The softplus of the logits at the sampled points. -/
def softplusK (x : FVec F S2x100x1024 .f32) : FVec F S2x100x1024 .f32 :=
  addf (F := F)
    (maximumf (F := F) x (broadcastInDim (s := S_) S2x100x1024 ![] bcast_S_S2x100x1024 (constant (F := F) S_ .f32 0x00000000#32)))
    (Host.log1p (F := F) (Host.exp (F := F) (Host.negf (F := F) (Host.absf (F := F) x))))

/-- The cross-entropy cost: the mean softplus minus the mean product with the masks, over the sampled points. -/
def bceK (x : FVec F S2x100x1024 .f32) (y : FVec F S2x64x1024 .f32) : FVec F S2x100x64 .f32 :=
  subf (F := F)
    (broadcastInDim S2x100x64 ![0, 1, 2] bcast_S2x100x1_S2x100x64_0_1_2
      (broadcastInDim S2x100x1 ![0, 1] bcast_S2x100_S2x100x1_0_1
        (Host.divf (F := F)
          (Host.reduceAdd (F := F) (softplusK x) (constant (F := F) S_ .f32 0x00000000#32) reducesTo_S2x100x1024_S2x100_d2 h_S_)
          (broadcastInDim (s := S_) S2x100 ![] bcast_S_S2x100 (constant (F := F) S_ .f32 0x44800000#32)))))
    (Host.divf (F := F)
      (Host.dotGeneral (F := F) dot_S2x100x1024_S2x64x1024_S2x100x64_2_2_1_1_0_0 none x y)
      (splatQK (F := F) 0x44800000#32))

/-- The weighted sum of the three costs. -/
def sumK (cc : FVec F S2x100x64 .f32) (x : FVec F S2x100x1024 .f32) (y : FVec F S2x64x1024 .f32)
    (I : FVec F S2x100x64 .f32) (P : FVec F S2x100x1 .f32) (G : FVec F S2x1x64 .f32) : FVec F S2x100x64 .f32 :=
  addf (F := F)
    (addf (F := F)
      (mulf (F := F) (splatQK (F := F) 0x40000000#32) cc)
      (mulf (F := F) (splatQK (F := F) 0x40A00000#32) (bceK x y)))
    (mulf (F := F) (splatQK (F := F) 0x40A00000#32) (diceK I P G))

/-- A NaN replaced by one constant. -/
def nanK (z : FVec F S2x100x64 .f32) : FVec F S2x100x64 .f32 :=
  select (cmpf (F := F) .une z z) (splatQK (F := F) 0x49742400#32) z

/-- Plus infinity replaced by one constant. -/
def pinfK (z : FVec F S2x100x64 .f32) : FVec F S2x100x64 .f32 :=
  select (cmpf (F := F) .oeq z (splatQK (F := F) 0x7F800000#32)) (splatQK (F := F) 0x49742400#32) z

/-- Minus infinity replaced by one constant. -/
def ninfK (z : FVec F S2x100x64 .f32) : FVec F S2x100x64 .f32 :=
  select (cmpf (F := F) .oeq z (splatQK (F := F) 0xFF800000#32)) (splatQK (F := F) 0xC9742400#32) z

/-- Everything after the gathers: the weighted sum of the costs with its NaN and its infinities replaced. -/
def combineK (cc : FVec F S2x100x64 .f32) (x : FVec F S2x100x1024 .f32) (y : FVec F S2x64x1024 .f32)
    (I : FVec F S2x100x64 .f32) (P : FVec F S2x100x1 .f32) (G : FVec F S2x1x64 .f32) : FVec F S2x100x64 .f32 :=
  ninfK (pinfK (nanK (sumK cc x y I P G)))

/-- The program's result from its arguments, the two flattened inputs and the region's three results. -/
def resultK (a0 : FVec F S2x100x81 .f32) (a2 : IVec S2x64 32) (a4 : IVec S1024 32)
    (v0 : FVec F S2x100x147456 .f32) (v1 : IVec S2x64x147456 32)
    (I : FVec F S2x100x64 .f32) (P : FVec F S2x100x1 .f32) (G : FVec F S2x1x64 .f32) : FVec F S2x100x64 .f32 :=
  combineK (ccK a0 a2) (xsK v0 a4) (ysK (gtFlatK (F := F) v1) a4) I P G

end Cert.KernelIdeal.Fr

end
-- ==== Proof.KI.Tail.lean ====
/-
  The program's result read off its run. The run leaves every buffer that bypasses the region at what the 148 host
  operations after the region make of the region's exit contents. Those operations are seven stretches; each
  stretch's result buffers hold the tail's pure functions of the stretch's operands, and a stretch leaves the buffers
  it does not write as they were. Composing the seven, the result buffer holds the tail's function of the class
  logits, the labels, the sampled points, the two flattened inputs and the region's three sums; the region's three
  result arrays are read at what the proof data compute, the two flattened inputs at their entry contents (an input
  window's array is never written back), the arguments at their launch contents. No operation of the tail writes an
  argument, so the five arguments end as they began.
-/
import proofs.«422936_j83648783057218_1_alg».proof.Proof.KI.Frame
import proofs.«422936_j83648783057218_1_alg».proof.Proof.KI.TailSpec
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable {F : FTy → Type} [FloatOps F]

variable (m : (ℓ : Loc nD τ sig) → Buf (Elt F) ℓ) (ρ : Dev nD → PrngReg)

/-! ## The stretches one by one

Each stretch of host operations, run from any buffer contents `X`: what its result buffers hold, as the pure
functions of the tail applied to `X` at the stretch's operands; and the buffers of earlier stretches that later
stretches still read, which it leaves as they were. -/

/-- The first stretch leaves the dice cost of the three sums … -/
theorem t1_v12 (X : Valuation τ sig (Elt F)) :
    StableHlo.after (hostOps1 (F := F)) X (Proc.devRef .tc main_v12)
      = diceK (X (Proc.devRef .tc main_v2_0)) (X (Proc.devRef .tc main_v2_1)) (X (Proc.devRef .tc main_v2_2)) := by
  after_results_simp
  rfl

/-- … and the softmax of the class logits. -/
theorem t1_v23 (X : Valuation τ sig (Elt F)) :
    StableHlo.after (hostOps1 (F := F)) X (Proc.devRef .tc main_v23) = probsK (X (Proc.devRef .tc main_arg0)) := by
  after_results_simp
  rfl

theorem t1_arg2 (X : Valuation τ sig (Elt F)) :
    StableHlo.after (hostOps1 (F := F)) X (Proc.devRef .tc main_arg2) = X (Proc.devRef .tc main_arg2) := by
  after_results_simp

theorem t1_arg4 (X : Valuation τ sig (Elt F)) :
    StableHlo.after (hostOps1 (F := F)) X (Proc.devRef .tc main_arg4) = X (Proc.devRef .tc main_arg4) := by
  after_results_simp

theorem t1_v0 (X : Valuation τ sig (Elt F)) :
    StableHlo.after (hostOps1 (F := F)) X (Proc.devRef .tc main_v0) = X (Proc.devRef .tc main_v0) := by
  after_results_simp

theorem t1_v1 (X : Valuation τ sig (Elt F)) :
    StableHlo.after (hostOps1 (F := F)) X (Proc.devRef .tc main_v1) = X (Proc.devRef .tc main_v1) := by
  after_results_simp

/-- The gather at the labels. -/
theorem t2_v24 (X : Valuation τ sig (Elt F)) :
    StableHlo.after (hostOps1_1 (F := F)) X (Proc.devRef .tc main_v24)
      = takeLabK (X (Proc.devRef .tc main_v23)) (X (Proc.devRef .tc main_arg2)) := by
  after_results_simp
  simp only [StableHlo.TRef.ofBuf, StableHlo.TRef.toBuf, cast_eq]
  rfl

theorem t2_arg4 (X : Valuation τ sig (Elt F)) :
    StableHlo.after (hostOps1_1 (F := F)) X (Proc.devRef .tc main_arg4) = X (Proc.devRef .tc main_arg4) := by
  after_results_simp

theorem t2_v0 (X : Valuation τ sig (Elt F)) :
    StableHlo.after (hostOps1_1 (F := F)) X (Proc.devRef .tc main_v0) = X (Proc.devRef .tc main_v0) := by
  after_results_simp

theorem t2_v1 (X : Valuation τ sig (Elt F)) :
    StableHlo.after (hostOps1_1 (F := F)) X (Proc.devRef .tc main_v1) = X (Proc.devRef .tc main_v1) := by
  after_results_simp

theorem t2_v12 (X : Valuation τ sig (Elt F)) :
    StableHlo.after (hostOps1_1 (F := F)) X (Proc.devRef .tc main_v12) = X (Proc.devRef .tc main_v12) := by
  after_results_simp

/-- The negation and the conversion of the masks. -/
theorem t3_v25 (X : Valuation τ sig (Elt F)) :
    StableHlo.after (hostOps1_2 (F := F)) X (Proc.devRef .tc main_v25) = Host.negf (F := F) (X (Proc.devRef .tc main_v24)) := by
  after_results_simp

theorem t3_v26 (X : Valuation τ sig (Elt F)) :
    StableHlo.after (hostOps1_2 (F := F)) X (Proc.devRef .tc main_v26) = gtFlatK (F := F) (X (Proc.devRef .tc main_v1)) := by
  after_results_simp
  rfl

theorem t3_arg4 (X : Valuation τ sig (Elt F)) :
    StableHlo.after (hostOps1_2 (F := F)) X (Proc.devRef .tc main_arg4) = X (Proc.devRef .tc main_arg4) := by
  after_results_simp

theorem t3_v0 (X : Valuation τ sig (Elt F)) :
    StableHlo.after (hostOps1_2 (F := F)) X (Proc.devRef .tc main_v0) = X (Proc.devRef .tc main_v0) := by
  after_results_simp

theorem t3_v12 (X : Valuation τ sig (Elt F)) :
    StableHlo.after (hostOps1_2 (F := F)) X (Proc.devRef .tc main_v12) = X (Proc.devRef .tc main_v12) := by
  after_results_simp

/-- The gather of the logits at the sampled points. -/
theorem t4_v27 (X : Valuation τ sig (Elt F)) :
    StableHlo.after (hostOps1_3 (F := F)) X (Proc.devRef .tc main_v27)
      = xsK (X (Proc.devRef .tc main_v0)) (X (Proc.devRef .tc main_arg4)) := by
  after_results_simp
  simp only [StableHlo.TRef.ofBuf, StableHlo.TRef.toBuf, cast_eq]
  rfl

theorem t4_arg4 (X : Valuation τ sig (Elt F)) :
    StableHlo.after (hostOps1_3 (F := F)) X (Proc.devRef .tc main_arg4) = X (Proc.devRef .tc main_arg4) := by
  after_results_simp

theorem t4_v26 (X : Valuation τ sig (Elt F)) :
    StableHlo.after (hostOps1_3 (F := F)) X (Proc.devRef .tc main_v26) = X (Proc.devRef .tc main_v26) := by
  after_results_simp

theorem t4_v25 (X : Valuation τ sig (Elt F)) :
    StableHlo.after (hostOps1_3 (F := F)) X (Proc.devRef .tc main_v25) = X (Proc.devRef .tc main_v25) := by
  after_results_simp

theorem t4_v12 (X : Valuation τ sig (Elt F)) :
    StableHlo.after (hostOps1_3 (F := F)) X (Proc.devRef .tc main_v12) = X (Proc.devRef .tc main_v12) := by
  after_results_simp

/-- The gather of the masks at the sampled points. -/
theorem t5_v28 (X : Valuation τ sig (Elt F)) :
    StableHlo.after (hostOps1_4 (F := F)) X (Proc.devRef .tc main_v28)
      = ysK (X (Proc.devRef .tc main_v26)) (X (Proc.devRef .tc main_arg4)) := by
  after_results_simp
  simp only [StableHlo.TRef.ofBuf, StableHlo.TRef.toBuf, cast_eq]
  rfl

theorem t5_v27 (X : Valuation τ sig (Elt F)) :
    StableHlo.after (hostOps1_4 (F := F)) X (Proc.devRef .tc main_v27) = X (Proc.devRef .tc main_v27) := by
  after_results_simp

theorem t5_v25 (X : Valuation τ sig (Elt F)) :
    StableHlo.after (hostOps1_4 (F := F)) X (Proc.devRef .tc main_v25) = X (Proc.devRef .tc main_v25) := by
  after_results_simp

theorem t5_v12 (X : Valuation τ sig (Elt F)) :
    StableHlo.after (hostOps1_4 (F := F)) X (Proc.devRef .tc main_v12) = X (Proc.devRef .tc main_v12) := by
  after_results_simp

/-- The last two stretches: the weighted sum of the three costs, its NaN and its infinities replaced. -/
theorem t67_v53 (X : Valuation τ sig (Elt F)) :
    StableHlo.after (hostOps1_6 (F := F)) (StableHlo.after (hostOps1_5 (F := F)) X) (Proc.devRef .tc main_v53)
      = ninfK (pinfK (nanK (addf (F := F)
          (addf (F := F)
            (mulf (F := F) (splatQK (F := F) 0x40000000#32) (X (Proc.devRef .tc main_v25)))
            (mulf (F := F) (splatQK (F := F) 0x40A00000#32) (bceK (X (Proc.devRef .tc main_v27)) (X (Proc.devRef .tc main_v28)))))
          (mulf (F := F) (splatQK (F := F) 0x40A00000#32) (X (Proc.devRef .tc main_v12)))))) := by
  after_results_simp
  simp only [StableHlo.TRef.ofBuf, StableHlo.TRef.toBuf, cast_eq]
  rfl

/-! ## The arguments

No operation of the tail writes an argument's buffer. -/

theorem tail_arg0 (X : Valuation τ sig (Elt F)) :
    StableHlo.after (List.flatten (tailOps (F := F))) X (Proc.devRef .tc main_arg0) = X (Proc.devRef .tc main_arg0) := by
  simp only [tailOps, List.flatten_cons, List.flatten_nil, List.append_nil, List.cons_append, List.nil_append]
  after_results_simp

theorem tail_arg1 (X : Valuation τ sig (Elt F)) :
    StableHlo.after (List.flatten (tailOps (F := F))) X (Proc.devRef .tc main_arg1) = X (Proc.devRef .tc main_arg1) := by
  simp only [tailOps, List.flatten_cons, List.flatten_nil, List.append_nil, List.cons_append, List.nil_append]
  after_results_simp

theorem tail_arg2 (X : Valuation τ sig (Elt F)) :
    StableHlo.after (List.flatten (tailOps (F := F))) X (Proc.devRef .tc main_arg2) = X (Proc.devRef .tc main_arg2) := by
  simp only [tailOps, List.flatten_cons, List.flatten_nil, List.append_nil, List.cons_append, List.nil_append]
  after_results_simp

theorem tail_arg3 (X : Valuation τ sig (Elt F)) :
    StableHlo.after (List.flatten (tailOps (F := F))) X (Proc.devRef .tc main_arg3) = X (Proc.devRef .tc main_arg3) := by
  simp only [tailOps, List.flatten_cons, List.flatten_nil, List.append_nil, List.cons_append, List.nil_append]
  after_results_simp

theorem tail_arg4 (X : Valuation τ sig (Elt F)) :
    StableHlo.after (List.flatten (tailOps (F := F))) X (Proc.devRef .tc main_arg4) = X (Proc.devRef .tc main_arg4) := by
  simp only [tailOps, List.flatten_cons, List.flatten_nil, List.append_nil, List.cons_append, List.nil_append]
  after_results_simp

/-! ## The region's exit contents at the tail's operands -/

/-- The region's exit contents: its arrays at what the proof data compute, every other buffer as at the entry. -/
abbrev Wx (c : Dev nD) : Valuation τ sig (Elt F) :=
  Pipeline.withArrays spec0 c (V0 m c) fun w => (dats m 0 c).arrAt w cfg0.N

theorem Wx_v2_0 (c : Dev nD) : Wx m c (Proc.devRef .tc main_v2_0) = (dats m 0 c).arrAt 2 cfg0.N :=
  Pipeline.withArrays_arr spec0 launch0.win.arr_inj c _ _ 2
theorem Wx_v2_1 (c : Dev nD) : Wx m c (Proc.devRef .tc main_v2_1) = (dats m 0 c).arrAt 3 cfg0.N :=
  Pipeline.withArrays_arr spec0 launch0.win.arr_inj c _ _ 3
theorem Wx_v2_2 (c : Dev nD) : Wx m c (Proc.devRef .tc main_v2_2) = (dats m 0 c).arrAt 4 cfg0.N :=
  Pipeline.withArrays_arr spec0 launch0.win.arr_inj c _ _ 4
theorem Wx_v0 (c : Dev nD) : Wx m c (Proc.devRef .tc main_v0) = V m c main_v0 :=
  (Pipeline.withArrays_arr spec0 launch0.win.arr_inj c _ _ 0).trans (((dats m 0 c).arrAt_in 0 rfl cfg0.N).trans (A_eq m c 0))
theorem Wx_v1 (c : Dev nD) : Wx m c (Proc.devRef .tc main_v1) = V m c main_v1 :=
  (Pipeline.withArrays_arr spec0 launch0.win.arr_inj c _ _ 1).trans (((dats m 0 c).arrAt_in 1 rfl cfg0.N).trans (A_eq m c 1))
theorem Wx_arg0 (c : Dev nD) : Wx m c (Proc.devRef .tc main_arg0) = m ((c.tc : Thread nD τ).loc main_arg0) :=
  (Pipeline.withArrays_of_ne spec0 c _ _ main_arg0 (by decide)).trans (V_main_arg0 m c)
theorem Wx_arg1 (c : Dev nD) : Wx m c (Proc.devRef .tc main_arg1) = m ((c.tc : Thread nD τ).loc main_arg1) :=
  (Pipeline.withArrays_of_ne spec0 c _ _ main_arg1 (by decide)).trans (V_main_arg1 m c)
theorem Wx_arg2 (c : Dev nD) : Wx m c (Proc.devRef .tc main_arg2) = m ((c.tc : Thread nD τ).loc main_arg2) :=
  (Pipeline.withArrays_of_ne spec0 c _ _ main_arg2 (by decide)).trans (V_main_arg2 m c)
theorem Wx_arg3 (c : Dev nD) : Wx m c (Proc.devRef .tc main_arg3) = m ((c.tc : Thread nD τ).loc main_arg3) :=
  (Pipeline.withArrays_of_ne spec0 c _ _ main_arg3 (by decide)).trans (V_main_arg3 m c)
theorem Wx_arg4 (c : Dev nD) : Wx m c (Proc.devRef .tc main_arg4) = m ((c.tc : Thread nD τ).loc main_arg4) :=
  (Pipeline.withArrays_of_ne spec0 c _ _ main_arg4 (by decide)).trans (V_main_arg4 m c)

/-! ## The result -/

/-- What the result buffer holds after the tail. -/
theorem tail_v53 (c : Dev nD) :
    Pipeline.afterTail₀ cfgs (dats m) 0 (V0 m) (tailOps (F := F)) c main_v53
      = resultK (m ((c.tc : Thread nD τ).loc main_arg0)) (m ((c.tc : Thread nD τ).loc main_arg2)) (m ((c.tc : Thread nD τ).loc main_arg4))
          (V m c main_v0) (V m c main_v1) ((dats m 0 c).arrAt 2 cfg0.N) ((dats m 0 c).arrAt 3 cfg0.N) ((dats m 0 c).arrAt 4 cfg0.N) := by
  unfold Pipeline.afterTail₀
  show StableHlo.after (List.flatten (tailOps (F := F))) (Wx m c) (Proc.devRef .tc main_v53) = _
  simp only [tailOps, List.flatten_cons, List.flatten_nil, List.append_nil, StableHlo.after_append]
  rw [t67_v53, t5_v28, t5_v27, t5_v25, t5_v12, t4_v27, t4_v26, t4_arg4, t4_v25, t4_v12,
    t3_v25, t3_v26, t3_arg4, t3_v0, t3_v12, t2_v24, t2_arg4, t2_v0, t2_v1, t2_v12,
    t1_v12, t1_v23, t1_arg2, t1_arg4, t1_v0, t1_v1,
    Wx_v2_0, Wx_v2_1, Wx_v2_2, Wx_v0, Wx_v1, Wx_arg0, Wx_arg2, Wx_arg4]
  rfl

/-- Every weakly fair execution of the program terminates without a fault; the result buffer ends at the tail's pure
    functions of the arguments, the two flattened inputs and the region's three sums, and the five argument arrays
    end as they began. -/
theorem run_value : θ_run defs (onTc (τ := τ) (main (F := F))) ⟨m, fun _ => 0, ρ⟩ fun r => ∀ c : Dev nD,
      r.2.mem ((c.tc : Thread nD τ).loc main_v53)
        = resultK (m ((c.tc : Thread nD τ).loc main_arg0)) (m ((c.tc : Thread nD τ).loc main_arg2)) (m ((c.tc : Thread nD τ).loc main_arg4))
            (V m c main_v0) (V m c main_v1) ((dats m 0 c).arrAt 2 cfg0.N) ((dats m 0 c).arrAt 3 cfg0.N) ((dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run_main m ρ)
  obtain ⟨-, hrest⟩ := h c
  refine ⟨?_, ?_, ?_, ?_, ?_, ?_⟩
  · exact (hrest main_v53 (Pipeline.mem_restRefs_of _ rfl (by decide))).trans (tail_v53 m c)
  · exact (hrest main_arg0 (Pipeline.mem_restRefs_of _ rfl (by decide))).trans ((tail_arg0 (Wx m c)).trans (Wx_arg0 m c))
  · exact (hrest main_arg1 (Pipeline.mem_restRefs_of _ rfl (by decide))).trans ((tail_arg1 (Wx m c)).trans (Wx_arg1 m c))
  · exact (hrest main_arg2 (Pipeline.mem_restRefs_of _ rfl (by decide))).trans ((tail_arg2 (Wx m c)).trans (Wx_arg2 m c))
  · exact (hrest main_arg3 (Pipeline.mem_restRefs_of _ rfl (by decide))).trans ((tail_arg3 (Wx m c)).trans (Wx_arg3 m c))
  · exact (hrest main_arg4 (Pipeline.mem_restRefs_of _ rfl (by decide))).trans ((tail_arg4 (Wx m c)).trans (Wx_arg4 m c))

end Cert.KernelIdeal.Fr

end
-- ==== Proof.Ref.Spec.lean ====
import proofs.«422936_j83648783057218_1_alg».proof.Proof.Gen.ReferenceIdeal

/-!
# The reference's result as pure functions of its five arguments

Each definition composes, in the program's order, the pure functions carried by the host
operations of the reference's entry function: one `let` per operation, the operation's text
beside it. `result` is the value the program leaves in its returned buffer.
-/

noncomputable section

namespace Cert.ReferenceIdeal.Hand

open Cert.ReferenceIdeal Cert.ReferenceIdeal.Gen Idealize.ShloMosaic

variable {F : FTy → Type} [FloatOps F]

/-- The softmax over the class axis: `exp (x - max x) / Σ exp (x - max x)`. -/
def probs (a0 : FVec F S2x100x81 .f32) : FVec F S2x100x81 .f32 :=
  let cst : FVec F S_ .f32 := constant (F := F) S_ .f32 0xFF800000#32                                  -- %cst = constant -inf
  let v0 : FVec F S2x100 .f32 :=
    Host.reduce (FloatOps.maximumf (F := F)) a0 cst reducesTo_S2x100x81_S2x100_d2 h_S_                  -- %0 = reduce max %arg0 over axis 2
  let cst_0 : FVec F S_ .f32 := constant (F := F) S_ .f32 0xFF800000#32                                -- %cst_0 = constant -inf
  let v1 : FVec F S2x100 .f32 := broadcastInDim S2x100 ![] bcast_S_S2x100 cst_0                        -- %1 = broadcast %cst_0
  let v2 : FVec F S2x100 .f32 := maximumf (F := F) v1 v0                                               -- %2 = maximum %1, %0
  let v3 : FVec F S2x100x1 .f32 := broadcastInDim S2x100x1 ![0, 1] bcast_S2x100_S2x100x1_0_1 v2        -- %3 = broadcast %2
  let v4 : FVec F S2x100x81 .f32 := broadcastInDim S2x100x81 ![0, 1, 2] bcast_S2x100x1_S2x100x81_0_1_2 v3 -- %4 = broadcast %3
  let v5 : FVec F S2x100x81 .f32 := subf (F := F) a0 v4                                                -- %5 = subtract %arg0, %4
  let v6 : FVec F S2x100x81 .f32 := Host.exp (F := F) v5                                               -- %6 = exponential %5
  let cst_1 : FVec F S_ .f32 := constant (F := F) S_ .f32 0x00000000#32                                -- %cst_1 = constant 0
  let v7 : FVec F S2x100 .f32 := Host.reduceAdd (F := F) v6 cst_1 reducesTo_S2x100x81_S2x100_d2 h_S_   -- %7 = reduce add %6 over axis 2
  let v8 : FVec F S2x100x1 .f32 := broadcastInDim S2x100x1 ![0, 1] bcast_S2x100_S2x100x1_0_1 v7        -- %8 = broadcast %7
  let v9 : FVec F S2x100x81 .f32 := broadcastInDim S2x100x81 ![0, 1, 2] bcast_S2x100x1_S2x100x81_0_1_2 v8 -- %9 = broadcast %8
  Host.divf (F := F) v6 v9                                                                             -- %10 = divide %6, %9

/-- The labels as a column of gather indices, a negative label moved up by the class count. -/
def wrapLab (a2 : IVec S2x64 32) : IVec S2x64x1 32 :=
  let c : IVec S_ 32 := constantI S_ 32 0#32                                                           -- %c = constant 0
  let v11 : IVec S2x64 32 := broadcastInDim S2x64 ![] bcast_S_S2x64 c                                  -- %11 = broadcast %c
  let v12 : IVec S2x64 1 := cmpi .slt a2 v11                                                           -- %12 = compare LT, %arg2, %11
  let c_2 : IVec S_ 32 := constantI S_ 32 81#32                                                        -- %c_2 = constant 81
  let v13 : IVec S2x64 32 := broadcastInDim S2x64 ![] bcast_S_S2x64 c_2                                -- %13 = broadcast %c_2
  let v14 : IVec S2x64 32 := addi a2 v13                                                               -- %14 = add %arg2, %13
  let v15 : IVec S2x64 32 := select v12 v14 a2                                                         -- %15 = select %12, %14, %arg2
  broadcastInDim S2x64x1 ![0, 1] bcast_S2x64_S2x64x1_0_1 v15                                           -- %16 = broadcast %15

/-- The classification cost: minus the class probability at each mask's label. -/
def cc (a0 : FVec F S2x100x81 .f32) (a2 : IVec S2x64 32) : FVec F S2x100x64 .f32 :=
  let v17 : FVec F S2x100x64 .f32 :=
    Host.gather gather_S2x100x81_S2x64x1_S2x100x64_1_2_0_0_2_2_11001 (probs (F := F) a0) (wrapLab a2)  -- %17 = gather %10 at %16
  Host.negf (F := F) v17                                                                               -- %18 = negate %17

/-- The predicted logits with the two pixel axes flattened. -/
def predFlat (a1 : FVec F S2x100x384x384 .f32) : FVec F S2x100x147456 .f32 :=
  shapeCast S2x100x147456 a1 shapeCasts_S2x100x384x384_S2x100x147456                                   -- %19 = reshape %arg1

/-- The sigmoid of the flattened logits, `1 / (1 + exp (-x))`. -/
def sig (a1 : FVec F S2x100x384x384 .f32) : FVec F S2x100x147456 .f32 :=
  let v19 : FVec F S2x100x147456 .f32 := predFlat (F := F) a1                                          -- %19
  let v20 : FVec F S2x100x147456 .f32 := Host.negf (F := F) v19                                        -- %20 = negate %19
  let v21 : FVec F S2x100x147456 .f32 := Host.exp (F := F) v20                                         -- %21 = exponential %20
  let cst_3 : FVec F S_ .f32 := constant (F := F) S_ .f32 0x3F800000#32                                -- %cst_3 = constant 1
  let v22 : FVec F S2x100x147456 .f32 := broadcastInDim S2x100x147456 ![] bcast_S_S2x100x147456 cst_3  -- %22 = broadcast %cst_3
  let v23 : FVec F S2x100x147456 .f32 := addf (F := F) v22 v21                                         -- %23 = add %22, %21
  let cst_4 : FVec F S_ .f32 := constant (F := F) S_ .f32 0x3F800000#32                                -- %cst_4 = constant 1
  let v24 : FVec F S2x100x147456 .f32 := broadcastInDim S2x100x147456 ![] bcast_S_S2x100x147456 cst_4  -- %24 = broadcast %cst_4
  Host.divf (F := F) v24 v23                                                                           -- %25 = divide %24, %23

/-- The ground-truth masks, pixel axes flattened, as floats. -/
def gtFlat (a3 : IVec S2x64x384x384 32) : FVec F S2x64x147456 .f32 :=
  let v26 : IVec S2x64x147456 32 := shapeCast S2x64x147456 a3 shapeCasts_S2x64x384x384_S2x64x147456    -- %26 = reshape %arg3
  sitofp (F := F) .f32 v26                                                                             -- %27 = convert %26

/-- The intersection: the sigmoid against each mask, summed over the pixels. -/
def inter (a1 : FVec F S2x100x384x384 .f32) (a3 : IVec S2x64x384x384 32) : FVec F S2x100x64 .f32 :=
  Host.dotGeneral (F := F) dot_S2x100x147456_S2x64x147456_S2x100x64_2_2_1_1_0_0 none
    (sig (F := F) a1) (gtFlat (F := F) a3)                                                             -- %28 = dot_general %25, %27

/-- The sigmoid summed over the pixels, as a column. -/
def psum (a1 : FVec F S2x100x384x384 .f32) : FVec F S2x100x1 .f32 :=
  let cst_5 : FVec F S_ .f32 := constant (F := F) S_ .f32 0x00000000#32                                -- %cst_5 = constant 0
  let v29 : FVec F S2x100 .f32 :=
    Host.reduceAdd (F := F) (sig (F := F) a1) cst_5 reducesTo_S2x100x147456_S2x100_d2 h_S_             -- %29 = reduce add %25 over axis 2
  broadcastInDim S2x100x1 ![0, 1] bcast_S2x100_S2x100x1_0_1 v29                                        -- %30 = broadcast %29

/-- Each mask summed over the pixels, as a row. -/
def gsum (a3 : IVec S2x64x384x384 32) : FVec F S2x1x64 .f32 :=
  let cst_6 : FVec F S_ .f32 := constant (F := F) S_ .f32 0x00000000#32                                -- %cst_6 = constant 0
  let v31 : FVec F S2x64 .f32 :=
    Host.reduceAdd (F := F) (gtFlat (F := F) a3) cst_6 reducesTo_S2x64x147456_S2x64_d2 h_S_            -- %31 = reduce add %27 over axis 2
  broadcastInDim S2x1x64 ![0, 2] bcast_S2x64_S2x1x64_0_2 v31                                           -- %32 = broadcast %31

/-- The sampled pixel positions as a column of gather indices, a negative one moved up by the pixel count. -/
def wrapPt (a4 : IVec S1024 32) : IVec S1024x1 32 :=
  let c_10 : IVec S_ 32 := constantI S_ 32 0#32                                                        -- %c_10 = constant 0
  let v43 : IVec S1024 32 := broadcastInDim S1024 ![] bcast_S_S1024 c_10                               -- %43 = broadcast %c_10
  let v44 : IVec S1024 1 := cmpi .slt a4 v43                                                           -- %44 = compare LT, %arg4, %43
  let c_11 : IVec S_ 32 := constantI S_ 32 147456#32                                                   -- %c_11 = constant 147456
  let v45 : IVec S1024 32 := broadcastInDim S1024 ![] bcast_S_S1024 c_11                               -- %45 = broadcast %c_11
  let v46 : IVec S1024 32 := addi a4 v45                                                               -- %46 = add %arg4, %45
  let v47 : IVec S1024 32 := select v44 v46 a4                                                         -- %47 = select %44, %46, %arg4
  broadcastInDim S1024x1 ![0] bcast_S1024_S1024x1_0 v47                                                -- %48 = broadcast %47

/-- The logits at the sampled positions. -/
def xs (a1 : FVec F S2x100x384x384 .f32) (a4 : IVec S1024 32) : FVec F S2x100x1024 .f32 :=
  Host.gather gather_S2x100x147456_S1024x1_S2x100x1024_01_2_n_n_2_1_21001
    (predFlat (F := F) a1) (wrapPt a4)                                                                 -- %49 = gather %19 at %48

/-- The masks at the sampled positions. -/
def ys (a3 : IVec S2x64x384x384 32) (a4 : IVec S1024 32) : FVec F S2x64x1024 .f32 :=
  Host.gather gather_S2x64x147456_S1024x1_S2x64x1024_01_2_n_n_2_1_2641
    (gtFlat (F := F) a3) (wrapPt a4)                                                                   -- %56 = gather %27 at %55 (%50 … %55 repeat %43 … %48)

/-- The dice cost from the three pixel sums: `1 − 2·I / (P + G + ε)`. -/
def dice (I : FVec F S2x100x64 .f32) (P : FVec F S2x100x1 .f32) (G : FVec F S2x1x64 .f32) : FVec F S2x100x64 .f32 :=
  let cst_7 : FVec F S_ .f32 := constant (F := F) S_ .f32 0x40000000#32                                -- %cst_7 = constant 2
  let v33 : FVec F S2x100x64 .f32 := broadcastInDim S2x100x64 ![] bcast_S_S2x100x64 cst_7              -- %33 = broadcast %cst_7
  let v34 : FVec F S2x100x64 .f32 := mulf (F := F) v33 I                                               -- %34 = multiply %33, %28
  let v35 : FVec F S2x100x64 .f32 := broadcastInDim S2x100x64 ![0, 1, 2] bcast_S2x100x1_S2x100x64_0_1_2 P -- %35 = broadcast %30
  let v36 : FVec F S2x100x64 .f32 := broadcastInDim S2x100x64 ![0, 1, 2] bcast_S2x1x64_S2x100x64_0_1_2 G  -- %36 = broadcast %32
  let v37 : FVec F S2x100x64 .f32 := addf (F := F) v35 v36                                             -- %37 = add %35, %36
  let cst_8 : FVec F S_ .f32 := constant (F := F) S_ .f32 0x358637BD#32                                -- %cst_8 = constant 1e-6
  let v38 : FVec F S2x100x64 .f32 := broadcastInDim S2x100x64 ![] bcast_S_S2x100x64 cst_8              -- %38 = broadcast %cst_8
  let v39 : FVec F S2x100x64 .f32 := addf (F := F) v37 v38                                             -- %39 = add %37, %38
  let v40 : FVec F S2x100x64 .f32 := Host.divf (F := F) v34 v39                                        -- %40 = divide %34, %39
  let cst_9 : FVec F S_ .f32 := constant (F := F) S_ .f32 0x3F800000#32                                -- %cst_9 = constant 1
  let v41 : FVec F S2x100x64 .f32 := broadcastInDim S2x100x64 ![] bcast_S_S2x100x64 cst_9              -- %41 = broadcast %cst_9
  subf (F := F) v41 v40                                                                                -- %42 = subtract %41, %40

/-- The binary cross-entropy cost at the sampled positions:
    `mean (max x 0 + log1p (exp (−|x|))) − x·y / 1024`. -/
def bce (x : FVec F S2x100x1024 .f32) (y : FVec F S2x64x1024 .f32) : FVec F S2x100x64 .f32 :=
  let cst_14 : FVec F S_ .f32 := constant (F := F) S_ .f32 0x00000000#32                               -- %cst_14 = constant 0
  let v57 : FVec F S2x100x1024 .f32 := broadcastInDim S2x100x1024 ![] bcast_S_S2x100x1024 cst_14       -- %57 = broadcast %cst_14
  let v58 : FVec F S2x100x1024 .f32 := maximumf (F := F) x v57                                         -- %58 = maximum %49, %57
  let v59 : FVec F S2x100x1024 .f32 := Host.absf (F := F) x                                            -- %59 = abs %49
  let v60 : FVec F S2x100x1024 .f32 := Host.negf (F := F) v59                                          -- %60 = negate %59
  let v61 : FVec F S2x100x1024 .f32 := Host.exp (F := F) v60                                           -- %61 = exponential %60
  let v62 : FVec F S2x100x1024 .f32 := Host.log1p (F := F) v61                                         -- %62 = log_plus_one %61
  let v63 : FVec F S2x100x1024 .f32 := addf (F := F) v58 v62                                           -- %63 = add %58, %62
  let cst_15 : FVec F S_ .f32 := constant (F := F) S_ .f32 0x00000000#32                               -- %cst_15 = constant 0
  let v64 : FVec F S2x100 .f32 := Host.reduceAdd (F := F) v63 cst_15 reducesTo_S2x100x1024_S2x100_d2 h_S_ -- %64 = reduce add %63 over axis 2
  let cst_16 : FVec F S_ .f32 := constant (F := F) S_ .f32 0x44800000#32                               -- %cst_16 = constant 1024
  let v65 : FVec F S2x100 .f32 := broadcastInDim S2x100 ![] bcast_S_S2x100 cst_16                      -- %65 = broadcast %cst_16
  let v66 : FVec F S2x100 .f32 := Host.divf (F := F) v64 v65                                           -- %66 = divide %64, %65
  let v67 : FVec F S2x100x1 .f32 := broadcastInDim S2x100x1 ![0, 1] bcast_S2x100_S2x100x1_0_1 v66      -- %67 = broadcast %66
  let v68 : FVec F S2x100x64 .f32 :=
    Host.dotGeneral (F := F) dot_S2x100x1024_S2x64x1024_S2x100x64_2_2_1_1_0_0 none x y                 -- %68 = dot_general %49, %56
  let cst_17 : FVec F S_ .f32 := constant (F := F) S_ .f32 0x44800000#32                               -- %cst_17 = constant 1024
  let v69 : FVec F S2x100x64 .f32 := broadcastInDim S2x100x64 ![] bcast_S_S2x100x64 cst_17             -- %69 = broadcast %cst_17
  let v70 : FVec F S2x100x64 .f32 := Host.divf (F := F) v68 v69                                        -- %70 = divide %68, %69
  let v71 : FVec F S2x100x64 .f32 := broadcastInDim S2x100x64 ![0, 1, 2] bcast_S2x100x1_S2x100x64_0_1_2 v67 -- %71 = broadcast %67
  subf (F := F) v71 v70                                                                                -- %72 = subtract %71, %70

/-- The weighted sum `2·cc + 5·b + 5·d`. -/
def weigh (cc b d : FVec F S2x100x64 .f32) : FVec F S2x100x64 .f32 :=
  let cst_18 : FVec F S_ .f32 := constant (F := F) S_ .f32 0x40000000#32                               -- %cst_18 = constant 2
  let v73 : FVec F S2x100x64 .f32 := broadcastInDim S2x100x64 ![] bcast_S_S2x100x64 cst_18             -- %73 = broadcast %cst_18
  let v74 : FVec F S2x100x64 .f32 := mulf (F := F) v73 cc                                              -- %74 = multiply %73, %18
  let cst_19 : FVec F S_ .f32 := constant (F := F) S_ .f32 0x40A00000#32                               -- %cst_19 = constant 5
  let v75 : FVec F S2x100x64 .f32 := broadcastInDim S2x100x64 ![] bcast_S_S2x100x64 cst_19             -- %75 = broadcast %cst_19
  let v76 : FVec F S2x100x64 .f32 := mulf (F := F) v75 b                                               -- %76 = multiply %75, %72
  let v77 : FVec F S2x100x64 .f32 := addf (F := F) v74 v76                                             -- %77 = add %74, %76
  let cst_20 : FVec F S_ .f32 := constant (F := F) S_ .f32 0x40A00000#32                               -- %cst_20 = constant 5
  let v78 : FVec F S2x100x64 .f32 := broadcastInDim S2x100x64 ![] bcast_S_S2x100x64 cst_20             -- %78 = broadcast %cst_20
  let v79 : FVec F S2x100x64 .f32 := mulf (F := F) v78 d                                               -- %79 = multiply %78, %42
  addf (F := F) v77 v79                                                                                -- %80 = add %77, %79

/-- `nan_to_num v nan posinf neginf`-style replacement, as three selects `where (mask, scalar, value)`:
    an entry unequal to itself becomes `a1`, then `+∞` becomes `a3`, then `−∞` becomes `a2`. -/
def nanToNum (v : FVec F S2x100x64 .f32) (a1 a2 a3 : FVec F S_ .f32) : FVec F S2x100x64 .f32 :=
  let n0 : IVec S2x100x64 1 := cmpf (F := F) .une v v                                                  -- %0 = compare NE, %arg0, %arg0
  let w0 : FVec F S2x100x64 .f32 := broadcastInDim S2x100x64 ![] bcast_S_S2x100x64 a1                  -- %1 = convert %arg1 (one format: the identity); where's %0 = broadcast %arg1
  let n2 : FVec F S2x100x64 .f32 := select n0 w0 v                                                     -- %2 = where (%0, %1, %arg0): select %arg0, %0, %arg2
  let ncst : FVec F S_ .f32 := constant (F := F) S_ .f32 0x7F800000#32                                 -- %cst = constant +inf
  let n3 : FVec F S2x100x64 .f32 := broadcastInDim S2x100x64 ![] bcast_S_S2x100x64 ncst                -- %3 = broadcast %cst
  let n4 : IVec S2x100x64 1 := cmpf (F := F) .oeq n2 n3                                                -- %4 = compare EQ, %2, %3
  let w1 : FVec F S2x100x64 .f32 := broadcastInDim S2x100x64 ![] bcast_S_S2x100x64 a3                  -- %5 = convert %arg3; where's %0 = broadcast %arg1
  let n6 : FVec F S2x100x64 .f32 := select n4 w1 n2                                                    -- %6 = where (%4, %5, %2)
  let ncst_0 : FVec F S_ .f32 := constant (F := F) S_ .f32 0xFF800000#32                               -- %cst_0 = constant -inf
  let n7 : FVec F S2x100x64 .f32 := broadcastInDim S2x100x64 ![] bcast_S_S2x100x64 ncst_0              -- %7 = broadcast %cst_0
  let n8 : IVec S2x100x64 1 := cmpf (F := F) .oeq n6 n7                                                -- %8 = compare EQ, %6, %7
  let w2 : FVec F S2x100x64 .f32 := broadcastInDim S2x100x64 ![] bcast_S_S2x100x64 a2                  -- %9 = convert %arg2; where's %0 = broadcast %arg1
  select n8 w2 n6                                                                                      -- %10 = where (%8, %9, %6)

/-- The weighted sum of the three costs, non-finite entries replaced:
    `2·cc + 5·(mean softplus x − x·y / 1024) + 5·(1 − 2·I / (P + G + ε))`, then `nan_to_num`. -/
def combine (cc : FVec F S2x100x64 .f32) (x : FVec F S2x100x1024 .f32) (y : FVec F S2x64x1024 .f32)
    (I : FVec F S2x100x64 .f32) (P : FVec F S2x100x1 .f32) (G : FVec F S2x1x64 .f32) : FVec F S2x100x64 .f32 :=
  let v80 : FVec F S2x100x64 .f32 := weigh (F := F) cc (bce (F := F) x y) (dice (F := F) I P G)        -- %33 … %42, %57 … %80
  let cst_21 : FVec F S_ .f32 := constant (F := F) S_ .f32 0x49742400#32                               -- %cst_21 = constant 1e6
  let cst_22 : FVec F S_ .f32 := constant (F := F) S_ .f32 0xC9742400#32                               -- %cst_22 = constant -1e6
  let cst_23 : FVec F S_ .f32 := constant (F := F) S_ .f32 0x49742400#32                               -- %cst_23 = constant 1e6
  nanToNum (F := F) v80 cst_21 cst_22 cst_23                                                           -- %81 = call @nan_to_num(%80, %cst_21, %cst_22, %cst_23)

/-- What the reference leaves in its returned buffer, as a function of the five argument arrays. -/
def result (a0 : FVec F S2x100x81 .f32) (a1 : FVec F S2x100x384x384 .f32) (a2 : IVec S2x64 32)
    (a3 : IVec S2x64x384x384 32) (a4 : IVec S1024 32) : FVec F S2x100x64 .f32 :=
  combine (F := F) (cc (F := F) a0 a2) (xs (F := F) a1 a4) (ys (F := F) a3 a4) (inter (F := F) a1 a3)
    (psum (F := F) a1) (gsum (F := F) a3)

end Cert.ReferenceIdeal.Hand

end
-- ==== Proof.Ref.Run.lean ====
import proofs.«422936_j83648783057218_1_alg».proof.Proof.Ref.Spec
import Idealize.ShloMosaic.Lib.StableHlo.Run

/-!
# The reference's run

The reference's entry function is a straight line of host operations: `ops` lists them in order,
the operations of the functions it calls in place of the calls, over each call's own buffers.
Every weakly fair execution terminates with the returned buffer at `result` of the five
arguments' launch contents, and the arguments unchanged.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The program's buffer signature (the name `sig` is the sigmoid's in this namespace). -/
local notation "σ" => Cert.ReferenceIdeal.sig

/-- The entry function's 123 operations, in order. -/
abbrev ops : List (HloOp τ σ (Elt F)) :=
  [
    nullary main_cst (constant S_ .f32 0xFF800000#32), -- %cst = stablehlo.constant dense<0xFF800000>
    binary main_arg0 main_cst main_v0 ((fun x v => Host.reduce FloatOps.maximumf x v reducesTo_S2x100x81_S2x100_d2 h_S_) : (⟨S2x100x81, .f32⟩ : BufTy).Contents (Elt F) → (⟨S_, .f32⟩ : BufTy).Contents (Elt F) → (⟨S2x100, .f32⟩ : BufTy).Contents (Elt F)), -- %0 = stablehlo.reduce(%arg0 init: %cst) applies stablehlo.maximum across dimensions = [2]
    nullary main_cst_0 (constant S_ .f32 0xFF800000#32), -- %cst_0 = stablehlo.constant dense<0xFF800000>
    unary main_cst_0 main_v1 (broadcastInDim S2x100 ![] bcast_S_S2x100 : (⟨S_, .f32⟩ : BufTy).Contents (Elt F) → (⟨S2x100, .f32⟩ : BufTy).Contents (Elt F)), -- %1 = stablehlo.broadcast_in_dim %cst_0, dims = []
    binary main_v1 main_v0 main_v2 (maximumf : (⟨S2x100, .f32⟩ : BufTy).Contents (Elt F) → (⟨S2x100, .f32⟩ : BufTy).Contents (Elt F) → (⟨S2x100, .f32⟩ : BufTy).Contents (Elt F)), -- %2 = stablehlo.maximum %1, %0
    unary main_v2 main_v3 (broadcastInDim S2x100x1 ![0, 1] bcast_S2x100_S2x100x1_0_1 : (⟨S2x100, .f32⟩ : BufTy).Contents (Elt F) → (⟨S2x100x1, .f32⟩ : BufTy).Contents (Elt F)), -- %3 = stablehlo.broadcast_in_dim %2, dims = [0, 1]
    unary main_v3 main_v4 (broadcastInDim S2x100x81 ![0, 1, 2] bcast_S2x100x1_S2x100x81_0_1_2 : (⟨S2x100x1, .f32⟩ : BufTy).Contents (Elt F) → (⟨S2x100x81, .f32⟩ : BufTy).Contents (Elt F)), -- %4 = stablehlo.broadcast_in_dim %3, dims = [0, 1, 2]
    binary main_arg0 main_v4 main_v5 (subf : (⟨S2x100x81, .f32⟩ : BufTy).Contents (Elt F) → (⟨S2x100x81, .f32⟩ : BufTy).Contents (Elt F) → (⟨S2x100x81, .f32⟩ : BufTy).Contents (Elt F)), -- %5 = stablehlo.subtract %arg0, %4
    unary main_v5 main_v6 (Host.exp : (⟨S2x100x81, .f32⟩ : BufTy).Contents (Elt F) → (⟨S2x100x81, .f32⟩ : BufTy).Contents (Elt F)), -- %6 = stablehlo.exponential %5
    nullary main_cst_1 (constant S_ .f32 0x00000000#32), -- %cst_1 = stablehlo.constant dense<0.000000e+00>
    binary main_v6 main_cst_1 main_v7 ((fun x v => Host.reduceAdd x v reducesTo_S2x100x81_S2x100_d2 h_S_) : (⟨S2x100x81, .f32⟩ : BufTy).Contents (Elt F) → (⟨S_, .f32⟩ : BufTy).Contents (Elt F) → (⟨S2x100, .f32⟩ : BufTy).Contents (Elt F)), -- %7 = stablehlo.reduce(%6 init: %cst_1) applies stablehlo.add across dimensions = [2]
    unary main_v7 main_v8 (broadcastInDim S2x100x1 ![0, 1] bcast_S2x100_S2x100x1_0_1 : (⟨S2x100, .f32⟩ : BufTy).Contents (Elt F) → (⟨S2x100x1, .f32⟩ : BufTy).Contents (Elt F)), -- %8 = stablehlo.broadcast_in_dim %7, dims = [0, 1]
    unary main_v8 main_v9 (broadcastInDim S2x100x81 ![0, 1, 2] bcast_S2x100x1_S2x100x81_0_1_2 : (⟨S2x100x1, .f32⟩ : BufTy).Contents (Elt F) → (⟨S2x100x81, .f32⟩ : BufTy).Contents (Elt F)), -- %9 = stablehlo.broadcast_in_dim %8, dims = [0, 1, 2]
    binary main_v6 main_v9 main_v10 (Host.divf : (⟨S2x100x81, .f32⟩ : BufTy).Contents (Elt F) → (⟨S2x100x81, .f32⟩ : BufTy).Contents (Elt F) → (⟨S2x100x81, .f32⟩ : BufTy).Contents (Elt F)), -- %10 = stablehlo.divide %6, %9
    nullary main_c (constantI S_ 32 0#32), -- %c = stablehlo.constant dense<0>
    unary main_c main_v11 (broadcastInDim S2x64 ![] bcast_S_S2x64 : (⟨S_, .i32⟩ : BufTy).Contents (Elt F) → (⟨S2x64, .i32⟩ : BufTy).Contents (Elt F)), -- %11 = stablehlo.broadcast_in_dim %c, dims = []
    binary main_arg2 main_v11 main_v12 (cmpi .slt : (⟨S2x64, .i32⟩ : BufTy).Contents (Elt F) → (⟨S2x64, .i32⟩ : BufTy).Contents (Elt F) → (⟨S2x64, .i1⟩ : BufTy).Contents (Elt F)), -- %12 = stablehlo.compare LT, %arg2, %11, SIGNED
    nullary main_c_2 (constantI S_ 32 81#32), -- %c_2 = stablehlo.constant dense<81>
    unary main_c_2 main_v13 (broadcastInDim S2x64 ![] bcast_S_S2x64 : (⟨S_, .i32⟩ : BufTy).Contents (Elt F) → (⟨S2x64, .i32⟩ : BufTy).Contents (Elt F)), -- %13 = stablehlo.broadcast_in_dim %c_2, dims = []
    binary main_arg2 main_v13 main_v14 (addi : (⟨S2x64, .i32⟩ : BufTy).Contents (Elt F) → (⟨S2x64, .i32⟩ : BufTy).Contents (Elt F) → (⟨S2x64, .i32⟩ : BufTy).Contents (Elt F)), -- %14 = stablehlo.add %arg2, %13
    ternary main_v12 main_v14 main_arg2 main_v15 (select : (⟨S2x64, .i1⟩ : BufTy).Contents (Elt F) → (⟨S2x64, .i32⟩ : BufTy).Contents (Elt F) → (⟨S2x64, .i32⟩ : BufTy).Contents (Elt F) → (⟨S2x64, .i32⟩ : BufTy).Contents (Elt F)), -- %15 = stablehlo.select %12, %14, %arg2
    unary main_v15 main_v16 (broadcastInDim S2x64x1 ![0, 1] bcast_S2x64_S2x64x1_0_1 : (⟨S2x64, .i32⟩ : BufTy).Contents (Elt F) → (⟨S2x64x1, .i32⟩ : BufTy).Contents (Elt F)), -- %16 = stablehlo.broadcast_in_dim %15, dims = [0, 1]
    binary main_v10 main_v16 main_v17 ((fun x i => Host.gather gather_S2x100x81_S2x64x1_S2x100x64_1_2_0_0_2_2_11001 x i) : (⟨S2x100x81, .f32⟩ : BufTy).Contents (Elt F) → (⟨S2x64x1, .i32⟩ : BufTy).Contents (Elt F) → (⟨S2x100x64, .f32⟩ : BufTy).Contents (Elt F)), -- %17 = "stablehlo.gather"(%10, %16) <{dimension_numbers = #stablehlo.gather<offset_dims = [1], collapsed_sli…
    unary main_v17 main_v18 (Host.negf : (⟨S2x100x64, .f32⟩ : BufTy).Contents (Elt F) → (⟨S2x100x64, .f32⟩ : BufTy).Contents (Elt F)), -- %18 = stablehlo.negate %17
    reshape main_arg1 main_v19 rfl shapeCasts_S2x100x384x384_S2x100x147456, -- %19 = stablehlo.reshape %arg1
    unary main_v19 main_v20 (Host.negf : (⟨S2x100x147456, .f32⟩ : BufTy).Contents (Elt F) → (⟨S2x100x147456, .f32⟩ : BufTy).Contents (Elt F)), -- %20 = stablehlo.negate %19
    unary main_v20 main_v21 (Host.exp : (⟨S2x100x147456, .f32⟩ : BufTy).Contents (Elt F) → (⟨S2x100x147456, .f32⟩ : BufTy).Contents (Elt F)), -- %21 = stablehlo.exponential %20
    nullary main_cst_3 (constant S_ .f32 0x3F800000#32), -- %cst_3 = stablehlo.constant dense<1.000000e+00>
    unary main_cst_3 main_v22 (broadcastInDim S2x100x147456 ![] bcast_S_S2x100x147456 : (⟨S_, .f32⟩ : BufTy).Contents (Elt F) → (⟨S2x100x147456, .f32⟩ : BufTy).Contents (Elt F)), -- %22 = stablehlo.broadcast_in_dim %cst_3, dims = []
    binary main_v22 main_v21 main_v23 (addf : (⟨S2x100x147456, .f32⟩ : BufTy).Contents (Elt F) → (⟨S2x100x147456, .f32⟩ : BufTy).Contents (Elt F) → (⟨S2x100x147456, .f32⟩ : BufTy).Contents (Elt F)), -- %23 = stablehlo.add %22, %21
    nullary main_cst_4 (constant S_ .f32 0x3F800000#32), -- %cst_4 = stablehlo.constant dense<1.000000e+00>
    unary main_cst_4 main_v24 (broadcastInDim S2x100x147456 ![] bcast_S_S2x100x147456 : (⟨S_, .f32⟩ : BufTy).Contents (Elt F) → (⟨S2x100x147456, .f32⟩ : BufTy).Contents (Elt F)), -- %24 = stablehlo.broadcast_in_dim %cst_4, dims = []
    binary main_v24 main_v23 main_v25 (Host.divf : (⟨S2x100x147456, .f32⟩ : BufTy).Contents (Elt F) → (⟨S2x100x147456, .f32⟩ : BufTy).Contents (Elt F) → (⟨S2x100x147456, .f32⟩ : BufTy).Contents (Elt F)), -- %25 = stablehlo.divide %24, %23
    reshape main_arg3 main_v26 rfl shapeCasts_S2x64x384x384_S2x64x147456, -- %26 = stablehlo.reshape %arg3
    unary main_v26 main_v27 (sitofp .f32 : (⟨S2x64x147456, .i32⟩ : BufTy).Contents (Elt F) → (⟨S2x64x147456, .f32⟩ : BufTy).Contents (Elt F)), -- %27 = stablehlo.convert %26
    binary main_v25 main_v27 main_v28 ((fun l r => Host.dotGeneral dot_S2x100x147456_S2x64x147456_S2x100x64_2_2_1_1_0_0 none l r) : (⟨S2x100x147456, .f32⟩ : BufTy).Contents (Elt F) → (⟨S2x64x147456, .f32⟩ : BufTy).Contents (Elt F) → (⟨S2x100x64, .f32⟩ : BufTy).Contents (Elt F)), -- %28 = stablehlo.dot_general %25, %27, batching_dims = [0] x [0], contracting_dims = [2] x [2], precision = …
    nullary main_cst_5 (constant S_ .f32 0x00000000#32), -- %cst_5 = stablehlo.constant dense<0.000000e+00>
    binary main_v25 main_cst_5 main_v29 ((fun x v => Host.reduceAdd x v reducesTo_S2x100x147456_S2x100_d2 h_S_) : (⟨S2x100x147456, .f32⟩ : BufTy).Contents (Elt F) → (⟨S_, .f32⟩ : BufTy).Contents (Elt F) → (⟨S2x100, .f32⟩ : BufTy).Contents (Elt F)), -- %29 = stablehlo.reduce(%25 init: %cst_5) applies stablehlo.add across dimensions = [2]
    unary main_v29 main_v30 (broadcastInDim S2x100x1 ![0, 1] bcast_S2x100_S2x100x1_0_1 : (⟨S2x100, .f32⟩ : BufTy).Contents (Elt F) → (⟨S2x100x1, .f32⟩ : BufTy).Contents (Elt F)), -- %30 = stablehlo.broadcast_in_dim %29, dims = [0, 1]
    nullary main_cst_6 (constant S_ .f32 0x00000000#32), -- %cst_6 = stablehlo.constant dense<0.000000e+00>
    binary main_v27 main_cst_6 main_v31 ((fun x v => Host.reduceAdd x v reducesTo_S2x64x147456_S2x64_d2 h_S_) : (⟨S2x64x147456, .f32⟩ : BufTy).Contents (Elt F) → (⟨S_, .f32⟩ : BufTy).Contents (Elt F) → (⟨S2x64, .f32⟩ : BufTy).Contents (Elt F)), -- %31 = stablehlo.reduce(%27 init: %cst_6) applies stablehlo.add across dimensions = [2]
    unary main_v31 main_v32 (broadcastInDim S2x1x64 ![0, 2] bcast_S2x64_S2x1x64_0_2 : (⟨S2x64, .f32⟩ : BufTy).Contents (Elt F) → (⟨S2x1x64, .f32⟩ : BufTy).Contents (Elt F)), -- %32 = stablehlo.broadcast_in_dim %31, dims = [0, 2]
    nullary main_cst_7 (constant S_ .f32 0x40000000#32), -- %cst_7 = stablehlo.constant dense<2.000000e+00>
    unary main_cst_7 main_v33 (broadcastInDim S2x100x64 ![] bcast_S_S2x100x64 : (⟨S_, .f32⟩ : BufTy).Contents (Elt F) → (⟨S2x100x64, .f32⟩ : BufTy).Contents (Elt F)), -- %33 = stablehlo.broadcast_in_dim %cst_7, dims = []
    binary main_v33 main_v28 main_v34 (mulf : (⟨S2x100x64, .f32⟩ : BufTy).Contents (Elt F) → (⟨S2x100x64, .f32⟩ : BufTy).Contents (Elt F) → (⟨S2x100x64, .f32⟩ : BufTy).Contents (Elt F)), -- %34 = stablehlo.multiply %33, %28
    unary main_v30 main_v35 (broadcastInDim S2x100x64 ![0, 1, 2] bcast_S2x100x1_S2x100x64_0_1_2 : (⟨S2x100x1, .f32⟩ : BufTy).Contents (Elt F) → (⟨S2x100x64, .f32⟩ : BufTy).Contents (Elt F)), -- %35 = stablehlo.broadcast_in_dim %30, dims = [0, 1, 2]
    unary main_v32 main_v36 (broadcastInDim S2x100x64 ![0, 1, 2] bcast_S2x1x64_S2x100x64_0_1_2 : (⟨S2x1x64, .f32⟩ : BufTy).Contents (Elt F) → (⟨S2x100x64, .f32⟩ : BufTy).Contents (Elt F)), -- %36 = stablehlo.broadcast_in_dim %32, dims = [0, 1, 2]
    binary main_v35 main_v36 main_v37 (addf : (⟨S2x100x64, .f32⟩ : BufTy).Contents (Elt F) → (⟨S2x100x64, .f32⟩ : BufTy).Contents (Elt F) → (⟨S2x100x64, .f32⟩ : BufTy).Contents (Elt F)), -- %37 = stablehlo.add %35, %36
    nullary main_cst_8 (constant S_ .f32 0x358637BD#32), -- %cst_8 = stablehlo.constant dense<9.99999997E-7>
    unary main_cst_8 main_v38 (broadcastInDim S2x100x64 ![] bcast_S_S2x100x64 : (⟨S_, .f32⟩ : BufTy).Contents (Elt F) → (⟨S2x100x64, .f32⟩ : BufTy).Contents (Elt F)), -- %38 = stablehlo.broadcast_in_dim %cst_8, dims = []
    binary main_v37 main_v38 main_v39 (addf : (⟨S2x100x64, .f32⟩ : BufTy).Contents (Elt F) → (⟨S2x100x64, .f32⟩ : BufTy).Contents (Elt F) → (⟨S2x100x64, .f32⟩ : BufTy).Contents (Elt F)), -- %39 = stablehlo.add %37, %38
    binary main_v34 main_v39 main_v40 (Host.divf : (⟨S2x100x64, .f32⟩ : BufTy).Contents (Elt F) → (⟨S2x100x64, .f32⟩ : BufTy).Contents (Elt F) → (⟨S2x100x64, .f32⟩ : BufTy).Contents (Elt F)), -- %40 = stablehlo.divide %34, %39
    nullary main_cst_9 (constant S_ .f32 0x3F800000#32), -- %cst_9 = stablehlo.constant dense<1.000000e+00>
    unary main_cst_9 main_v41 (broadcastInDim S2x100x64 ![] bcast_S_S2x100x64 : (⟨S_, .f32⟩ : BufTy).Contents (Elt F) → (⟨S2x100x64, .f32⟩ : BufTy).Contents (Elt F)), -- %41 = stablehlo.broadcast_in_dim %cst_9, dims = []
    binary main_v41 main_v40 main_v42 (subf : (⟨S2x100x64, .f32⟩ : BufTy).Contents (Elt F) → (⟨S2x100x64, .f32⟩ : BufTy).Contents (Elt F) → (⟨S2x100x64, .f32⟩ : BufTy).Contents (Elt F)), -- %42 = stablehlo.subtract %41, %40
    nullary main_c_10 (constantI S_ 32 0#32), -- %c_10 = stablehlo.constant dense<0>
    unary main_c_10 main_v43 (broadcastInDim S1024 ![] bcast_S_S1024 : (⟨S_, .i32⟩ : BufTy).Contents (Elt F) → (⟨S1024, .i32⟩ : BufTy).Contents (Elt F)), -- %43 = stablehlo.broadcast_in_dim %c_10, dims = []
    binary main_arg4 main_v43 main_v44 (cmpi .slt : (⟨S1024, .i32⟩ : BufTy).Contents (Elt F) → (⟨S1024, .i32⟩ : BufTy).Contents (Elt F) → (⟨S1024, .i1⟩ : BufTy).Contents (Elt F)), -- %44 = stablehlo.compare LT, %arg4, %43, SIGNED
    nullary main_c_11 (constantI S_ 32 147456#32), -- %c_11 = stablehlo.constant dense<147456>
    unary main_c_11 main_v45 (broadcastInDim S1024 ![] bcast_S_S1024 : (⟨S_, .i32⟩ : BufTy).Contents (Elt F) → (⟨S1024, .i32⟩ : BufTy).Contents (Elt F)), -- %45 = stablehlo.broadcast_in_dim %c_11, dims = []
    binary main_arg4 main_v45 main_v46 (addi : (⟨S1024, .i32⟩ : BufTy).Contents (Elt F) → (⟨S1024, .i32⟩ : BufTy).Contents (Elt F) → (⟨S1024, .i32⟩ : BufTy).Contents (Elt F)), -- %46 = stablehlo.add %arg4, %45
    ternary main_v44 main_v46 main_arg4 main_v47 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)), -- %47 = stablehlo.select %44, %46, %arg4
    unary main_v47 main_v48 (broadcastInDim S1024x1 ![0] bcast_S1024_S1024x1_0 : (⟨S1024, .i32⟩ : BufTy).Contents (Elt F) → (⟨S1024x1, .i32⟩ : BufTy).Contents (Elt F)), -- %48 = stablehlo.broadcast_in_dim %47, dims = [0]
    binary main_v19 main_v48 main_v49 ((fun x i => Host.gather gather_S2x100x147456_S1024x1_S2x100x1024_01_2_n_n_2_1_21001 x i) : (⟨S2x100x147456, .f32⟩ : BufTy).Contents (Elt F) → (⟨S1024x1, .i32⟩ : BufTy).Contents (Elt F) → (⟨S2x100x1024, .f32⟩ : BufTy).Contents (Elt F)), -- %49 = "stablehlo.gather"(%19, %48) <{dimension_numbers = #stablehlo.gather<offset_dims = [0, 1], collapsed_…
    nullary main_c_12 (constantI S_ 32 0#32), -- %c_12 = stablehlo.constant dense<0>
    unary main_c_12 main_v50 (broadcastInDim S1024 ![] bcast_S_S1024 : (⟨S_, .i32⟩ : BufTy).Contents (Elt F) → (⟨S1024, .i32⟩ : BufTy).Contents (Elt F)), -- %50 = stablehlo.broadcast_in_dim %c_12, dims = []
    binary main_arg4 main_v50 main_v51 (cmpi .slt : (⟨S1024, .i32⟩ : BufTy).Contents (Elt F) → (⟨S1024, .i32⟩ : BufTy).Contents (Elt F) → (⟨S1024, .i1⟩ : BufTy).Contents (Elt F)), -- %51 = stablehlo.compare LT, %arg4, %50, SIGNED
    nullary main_c_13 (constantI S_ 32 147456#32), -- %c_13 = stablehlo.constant dense<147456>
    unary main_c_13 main_v52 (broadcastInDim S1024 ![] bcast_S_S1024 : (⟨S_, .i32⟩ : BufTy).Contents (Elt F) → (⟨S1024, .i32⟩ : BufTy).Contents (Elt F)), -- %52 = stablehlo.broadcast_in_dim %c_13, dims = []
    binary main_arg4 main_v52 main_v53 (addi : (⟨S1024, .i32⟩ : BufTy).Contents (Elt F) → (⟨S1024, .i32⟩ : BufTy).Contents (Elt F) → (⟨S1024, .i32⟩ : BufTy).Contents (Elt F)), -- %53 = stablehlo.add %arg4, %52
    ternary main_v51 main_v53 main_arg4 main_v54 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)), -- %54 = stablehlo.select %51, %53, %arg4
    unary main_v54 main_v55 (broadcastInDim S1024x1 ![0] bcast_S1024_S1024x1_0 : (⟨S1024, .i32⟩ : BufTy).Contents (Elt F) → (⟨S1024x1, .i32⟩ : BufTy).Contents (Elt F)), -- %55 = stablehlo.broadcast_in_dim %54, dims = [0]
    binary main_v27 main_v55 main_v56 ((fun x i => Host.gather gather_S2x64x147456_S1024x1_S2x64x1024_01_2_n_n_2_1_2641 x i) : (⟨S2x64x147456, .f32⟩ : BufTy).Contents (Elt F) → (⟨S1024x1, .i32⟩ : BufTy).Contents (Elt F) → (⟨S2x64x1024, .f32⟩ : BufTy).Contents (Elt F)), -- %56 = "stablehlo.gather"(%27, %55) <{dimension_numbers = #stablehlo.gather<offset_dims = [0, 1], collapsed_…
    nullary main_cst_14 (constant S_ .f32 0x00000000#32), -- %cst_14 = stablehlo.constant dense<0.000000e+00>
    unary main_cst_14 main_v57 (broadcastInDim S2x100x1024 ![] bcast_S_S2x100x1024 : (⟨S_, .f32⟩ : BufTy).Contents (Elt F) → (⟨S2x100x1024, .f32⟩ : BufTy).Contents (Elt F)), -- %57 = stablehlo.broadcast_in_dim %cst_14, dims = []
    binary main_v49 main_v57 main_v58 (maximumf : (⟨S2x100x1024, .f32⟩ : BufTy).Contents (Elt F) → (⟨S2x100x1024, .f32⟩ : BufTy).Contents (Elt F) → (⟨S2x100x1024, .f32⟩ : BufTy).Contents (Elt F)), -- %58 = stablehlo.maximum %49, %57
    unary main_v49 main_v59 (Host.absf : (⟨S2x100x1024, .f32⟩ : BufTy).Contents (Elt F) → (⟨S2x100x1024, .f32⟩ : BufTy).Contents (Elt F)), -- %59 = stablehlo.abs %49
    unary main_v59 main_v60 (Host.negf : (⟨S2x100x1024, .f32⟩ : BufTy).Contents (Elt F) → (⟨S2x100x1024, .f32⟩ : BufTy).Contents (Elt F)), -- %60 = stablehlo.negate %59
    unary main_v60 main_v61 (Host.exp : (⟨S2x100x1024, .f32⟩ : BufTy).Contents (Elt F) → (⟨S2x100x1024, .f32⟩ : BufTy).Contents (Elt F)), -- %61 = stablehlo.exponential %60
    unary main_v61 main_v62 (Host.log1p : (⟨S2x100x1024, .f32⟩ : BufTy).Contents (Elt F) → (⟨S2x100x1024, .f32⟩ : BufTy).Contents (Elt F)), -- %62 = stablehlo.log_plus_one %61
    binary main_v58 main_v62 main_v63 (addf : (⟨S2x100x1024, .f32⟩ : BufTy).Contents (Elt F) → (⟨S2x100x1024, .f32⟩ : BufTy).Contents (Elt F) → (⟨S2x100x1024, .f32⟩ : BufTy).Contents (Elt F)), -- %63 = stablehlo.add %58, %62
    nullary main_cst_15 (constant S_ .f32 0x00000000#32), -- %cst_15 = stablehlo.constant dense<0.000000e+00>
    binary main_v63 main_cst_15 main_v64 ((fun x v => Host.reduceAdd x v reducesTo_S2x100x1024_S2x100_d2 h_S_) : (⟨S2x100x1024, .f32⟩ : BufTy).Contents (Elt F) → (⟨S_, .f32⟩ : BufTy).Contents (Elt F) → (⟨S2x100, .f32⟩ : BufTy).Contents (Elt F)), -- %64 = stablehlo.reduce(%63 init: %cst_15) applies stablehlo.add across dimensions = [2]
    nullary main_cst_16 (constant S_ .f32 0x44800000#32), -- %cst_16 = stablehlo.constant dense<1.024000e+03>
    unary main_cst_16 main_v65 (broadcastInDim S2x100 ![] bcast_S_S2x100 : (⟨S_, .f32⟩ : BufTy).Contents (Elt F) → (⟨S2x100, .f32⟩ : BufTy).Contents (Elt F)), -- %65 = stablehlo.broadcast_in_dim %cst_16, dims = []
    binary main_v64 main_v65 main_v66 (Host.divf : (⟨S2x100, .f32⟩ : BufTy).Contents (Elt F) → (⟨S2x100, .f32⟩ : BufTy).Contents (Elt F) → (⟨S2x100, .f32⟩ : BufTy).Contents (Elt F)), -- %66 = stablehlo.divide %64, %65
    unary main_v66 main_v67 (broadcastInDim S2x100x1 ![0, 1] bcast_S2x100_S2x100x1_0_1 : (⟨S2x100, .f32⟩ : BufTy).Contents (Elt F) → (⟨S2x100x1, .f32⟩ : BufTy).Contents (Elt F)), -- %67 = stablehlo.broadcast_in_dim %66, dims = [0, 1]
    binary main_v49 main_v56 main_v68 ((fun l r => Host.dotGeneral dot_S2x100x1024_S2x64x1024_S2x100x64_2_2_1_1_0_0 none l r) : (⟨S2x100x1024, .f32⟩ : BufTy).Contents (Elt F) → (⟨S2x64x1024, .f32⟩ : BufTy).Contents (Elt F) → (⟨S2x100x64, .f32⟩ : BufTy).Contents (Elt F)), -- %68 = stablehlo.dot_general %49, %56, batching_dims = [0] x [0], contracting_dims = [2] x [2], precision = …
    nullary main_cst_17 (constant S_ .f32 0x44800000#32), -- %cst_17 = stablehlo.constant dense<1.024000e+03>
    unary main_cst_17 main_v69 (broadcastInDim S2x100x64 ![] bcast_S_S2x100x64 : (⟨S_, .f32⟩ : BufTy).Contents (Elt F) → (⟨S2x100x64, .f32⟩ : BufTy).Contents (Elt F)), -- %69 = stablehlo.broadcast_in_dim %cst_17, dims = []
    binary main_v68 main_v69 main_v70 (Host.divf : (⟨S2x100x64, .f32⟩ : BufTy).Contents (Elt F) → (⟨S2x100x64, .f32⟩ : BufTy).Contents (Elt F) → (⟨S2x100x64, .f32⟩ : BufTy).Contents (Elt F)), -- %70 = stablehlo.divide %68, %69
    unary main_v67 main_v71 (broadcastInDim S2x100x64 ![0, 1, 2] bcast_S2x100x1_S2x100x64_0_1_2 : (⟨S2x100x1, .f32⟩ : BufTy).Contents (Elt F) → (⟨S2x100x64, .f32⟩ : BufTy).Contents (Elt F)), -- %71 = stablehlo.broadcast_in_dim %67, dims = [0, 1, 2]
    binary main_v71 main_v70 main_v72 (subf : (⟨S2x100x64, .f32⟩ : BufTy).Contents (Elt F) → (⟨S2x100x64, .f32⟩ : BufTy).Contents (Elt F) → (⟨S2x100x64, .f32⟩ : BufTy).Contents (Elt F)), -- %72 = stablehlo.subtract %71, %70
    nullary main_cst_18 (constant S_ .f32 0x40000000#32), -- %cst_18 = stablehlo.constant dense<2.000000e+00>
    unary main_cst_18 main_v73 (broadcastInDim S2x100x64 ![] bcast_S_S2x100x64 : (⟨S_, .f32⟩ : BufTy).Contents (Elt F) → (⟨S2x100x64, .f32⟩ : BufTy).Contents (Elt F)), -- %73 = stablehlo.broadcast_in_dim %cst_18, dims = []
    binary main_v73 main_v18 main_v74 (mulf : (⟨S2x100x64, .f32⟩ : BufTy).Contents (Elt F) → (⟨S2x100x64, .f32⟩ : BufTy).Contents (Elt F) → (⟨S2x100x64, .f32⟩ : BufTy).Contents (Elt F)), -- %74 = stablehlo.multiply %73, %18
    nullary main_cst_19 (constant S_ .f32 0x40A00000#32), -- %cst_19 = stablehlo.constant dense<5.000000e+00>
    unary main_cst_19 main_v75 (broadcastInDim S2x100x64 ![] bcast_S_S2x100x64 : (⟨S_, .f32⟩ : BufTy).Contents (Elt F) → (⟨S2x100x64, .f32⟩ : BufTy).Contents (Elt F)), -- %75 = stablehlo.broadcast_in_dim %cst_19, dims = []
    binary main_v75 main_v72 main_v76 (mulf : (⟨S2x100x64, .f32⟩ : BufTy).Contents (Elt F) → (⟨S2x100x64, .f32⟩ : BufTy).Contents (Elt F) → (⟨S2x100x64, .f32⟩ : BufTy).Contents (Elt F)), -- %76 = stablehlo.multiply %75, %72
    binary main_v74 main_v76 main_v77 (addf : (⟨S2x100x64, .f32⟩ : BufTy).Contents (Elt F) → (⟨S2x100x64, .f32⟩ : BufTy).Contents (Elt F) → (⟨S2x100x64, .f32⟩ : BufTy).Contents (Elt F)), -- %77 = stablehlo.add %74, %76
    nullary main_cst_20 (constant S_ .f32 0x40A00000#32), -- %cst_20 = stablehlo.constant dense<5.000000e+00>
    unary main_cst_20 main_v78 (broadcastInDim S2x100x64 ![] bcast_S_S2x100x64 : (⟨S_, .f32⟩ : BufTy).Contents (Elt F) → (⟨S2x100x64, .f32⟩ : BufTy).Contents (Elt F)), -- %78 = stablehlo.broadcast_in_dim %cst_20, dims = []
    binary main_v78 main_v42 main_v79 (mulf : (⟨S2x100x64, .f32⟩ : BufTy).Contents (Elt F) → (⟨S2x100x64, .f32⟩ : BufTy).Contents (Elt F) → (⟨S2x100x64, .f32⟩ : BufTy).Contents (Elt F)), -- %79 = stablehlo.multiply %78, %42
    binary main_v77 main_v79 main_v80 (addf : (⟨S2x100x64, .f32⟩ : BufTy).Contents (Elt F) → (⟨S2x100x64, .f32⟩ : BufTy).Contents (Elt F) → (⟨S2x100x64, .f32⟩ : BufTy).Contents (Elt F)), -- %80 = stablehlo.add %77, %79
    nullary main_cst_21 (constant S_ .f32 0x49742400#32), -- %cst_21 = stablehlo.constant dense<1.000000e+06>
    nullary main_cst_22 (constant S_ .f32 0xC9742400#32), -- %cst_22 = stablehlo.constant dense<-1.000000e+06>
    nullary main_cst_23 (constant S_ .f32 0x49742400#32), -- %cst_23 = stablehlo.constant dense<1.000000e+06>
    TRef.binary (.of main_v80) (.of main_v80) main_call0.v0 (cmpf .une), -- @nan_to_num %0 = compare NE, %arg0, %arg0
    TRef.unary (.of main_cst_21) main_call0.v1 id, -- @nan_to_num %1 = convert %arg1
    TRef.unary main_call0.v1 main_call0.call0.v0 (broadcastInDim S2x100x64 ![] bcast_S_S2x100x64), -- @_where %0 = broadcast_in_dim %arg1   (call %2)
    TRef.ternary main_call0.v0 main_call0.call0.v0 (.of main_v80) main_call0.call0.v1 select, -- @_where %1 = select %arg0, %0, %arg2   (call %2)
    TRef.nullary main_call0.cst (constant S_ .f32 0x7F800000#32), -- @nan_to_num %cst = constant +inf
    TRef.unary main_call0.cst main_call0.v3 (broadcastInDim S2x100x64 ![] bcast_S_S2x100x64), -- @nan_to_num %3 = broadcast_in_dim %cst
    TRef.binary main_call0.call0.v1 main_call0.v3 main_call0.v4 (cmpf .oeq), -- @nan_to_num %4 = compare EQ, %2, %3
    TRef.unary (.of main_cst_23) main_call0.v5 id, -- @nan_to_num %5 = convert %arg3
    TRef.unary main_call0.v5 main_call0.call1.v0 (broadcastInDim S2x100x64 ![] bcast_S_S2x100x64), -- @_where %0 = broadcast_in_dim %arg1   (call %6)
    TRef.ternary main_call0.v4 main_call0.call1.v0 main_call0.call0.v1 main_call0.call1.v1 select, -- @_where %1 = select %arg0, %0, %arg2   (call %6)
    TRef.nullary main_call0.cst_0 (constant S_ .f32 0xFF800000#32), -- @nan_to_num %cst_0 = constant -inf
    TRef.unary main_call0.cst_0 main_call0.v7 (broadcastInDim S2x100x64 ![] bcast_S_S2x100x64), -- @nan_to_num %7 = broadcast_in_dim %cst_0
    TRef.binary main_call0.call1.v1 main_call0.v7 main_call0.v8 (cmpf .oeq), -- @nan_to_num %8 = compare EQ, %6, %7
    TRef.unary (.of main_cst_22) main_call0.v9 id, -- @nan_to_num %9 = convert %arg2
    TRef.unary main_call0.v9 main_call0.call2.v0 (broadcastInDim S2x100x64 ![] bcast_S_S2x100x64), -- @_where %0 = broadcast_in_dim %arg1   (call %10)
    TRef.ternary main_call0.v8 main_call0.call2.v0 main_call0.call1.v1 main_call0.call2.v1 select ] -- @_where %1 = select %arg0, %0, %arg2   (call %10)

set_option maxRecDepth 8192 in
set_option maxHeartbeats 4000000 in
/-- The entry function is that straight line: its two windows and the called functions unfolded,
    sequencing reassociated. -/
theorem main_eq (c : Dev nD) : main (F := F) c = seq ops := by
  simp only [main, main_part0, main_part1, fn_nan_to_num.body, fn_where.body, seq, bind_assoc, pure_bind]

theorem scopedRefs_eq : (Finset.univ.filter fun b : Ref σ .tc => b.isScoped) = ∅ := by decide
theorem scopedSems_eq : (Finset.univ.filter fun sm : SemLoc σ => sm.isScoped .tc) = ∅ := by decide

theorem ops_sub : (ops : List (HloOp τ σ (Elt F))).Forall fun op => op.bufs ⊆ tcRefs τ σ :=
  ⟨
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    reshape_bufs_sub .., unary_bufs_sub .., unary_bufs_sub .., nullary_bufs_sub .., unary_bufs_sub .., binary_bufs_sub ..,
    nullary_bufs_sub .., unary_bufs_sub .., binary_bufs_sub .., reshape_bufs_sub .., unary_bufs_sub .., binary_bufs_sub ..,
    nullary_bufs_sub .., binary_bufs_sub .., unary_bufs_sub .., nullary_bufs_sub .., binary_bufs_sub .., unary_bufs_sub ..,
    nullary_bufs_sub .., unary_bufs_sub .., binary_bufs_sub .., unary_bufs_sub .., unary_bufs_sub .., binary_bufs_sub ..,
    nullary_bufs_sub .., unary_bufs_sub .., binary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., unary_bufs_sub .., unary_bufs_sub ..,
    unary_bufs_sub .., unary_bufs_sub .., binary_bufs_sub .., nullary_bufs_sub .., binary_bufs_sub .., nullary_bufs_sub ..,
    unary_bufs_sub .., binary_bufs_sub .., unary_bufs_sub .., binary_bufs_sub .., nullary_bufs_sub .., unary_bufs_sub ..,
    binary_bufs_sub .., unary_bufs_sub .., binary_bufs_sub .., nullary_bufs_sub .., unary_bufs_sub .., binary_bufs_sub ..,
    nullary_bufs_sub .., unary_bufs_sub .., binary_bufs_sub .., binary_bufs_sub .., nullary_bufs_sub .., unary_bufs_sub ..,
    binary_bufs_sub .., binary_bufs_sub .., nullary_bufs_sub .., nullary_bufs_sub .., nullary_bufs_sub .., binary_bufs_sub ..,
    unary_bufs_sub .., unary_bufs_sub .., ternary_bufs_sub .., nullary_bufs_sub .., unary_bufs_sub .., binary_bufs_sub ..,
    unary_bufs_sub .., unary_bufs_sub .., ternary_bufs_sub .., nullary_bufs_sub .., unary_bufs_sub .., binary_bufs_sub ..,
    unary_bufs_sub .., unary_bufs_sub .., ternary_bufs_sub ..⟩

-- a hundred and twenty-three nested results, one simp pass: past the default budget and recursion depth
set_option maxRecDepth 8192 in
set_option maxHeartbeats 8000000 in
/-- The fold at the returned buffer: each operation's result rewritten at the buffer it writes, what is left is
    the composition `result` unfolds to. -/
theorem out_eq (V : Valuation τ σ (Elt F)) :
    after ops V (main_v81 : DevRef τ σ)
      = result (V (main_arg0 : DevRef τ σ)) (V (main_arg1 : DevRef τ σ)) (V (main_arg2 : DevRef τ σ))
          (V (main_arg3 : DevRef τ σ)) (V (main_arg4 : DevRef τ σ)) := by
  after_results_simp
  rfl

/-- No operation writes argument 0's buffer. -/
theorem arg0_eq (V : Valuation τ σ (Elt F)) :
    after ops V (main_arg0 : DevRef τ σ) = V (main_arg0 : DevRef τ σ) := by
  after_results_simp

/-- No operation writes argument 1's buffer. -/
theorem arg1_eq (V : Valuation τ σ (Elt F)) :
    after ops V (main_arg1 : DevRef τ σ) = V (main_arg1 : DevRef τ σ) := by
  after_results_simp

/-- No operation writes argument 2's buffer. -/
theorem arg2_eq (V : Valuation τ σ (Elt F)) :
    after ops V (main_arg2 : DevRef τ σ) = V (main_arg2 : DevRef τ σ) := by
  after_results_simp

/-- No operation writes argument 3's buffer. -/
theorem arg3_eq (V : Valuation τ σ (Elt F)) :
    after ops V (main_arg3 : DevRef τ σ) = V (main_arg3 : DevRef τ σ) := by
  after_results_simp

/-- No operation writes argument 4's buffer. -/
theorem arg4_eq (V : Valuation τ σ (Elt F)) :
    after ops V (main_arg4 : DevRef τ σ) = V (main_arg4 : DevRef τ σ) := by
  after_results_simp

/-- On every device, for any float values, from any memory with zero counters: every weakly fair execution of
    the entry function terminates with the returned buffer at `result` of the arguments' launch contents and the
    arguments unchanged. -/
theorem run (m : (ℓ : Loc nD τ σ) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v81)
          = result (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v81).trans (out_eq _),
      (h c main_arg0).trans (arg0_eq _), (h c main_arg1).trans (arg1_eq _), (h c main_arg2).trans (arg2_eq _),
      (h c main_arg3).trans (arg3_eq _), (h c main_arg4).trans (arg4_eq _)⟩)
    (run_seq scopedRefs_eq scopedSems_eq defs main (fun _ => ops) main_eq (fun _ => ops_sub) m ρ)

end Cert.ReferenceIdeal.Hand

end
-- ==== Proof.KI.FoldSpec.lean ====
/-
  What the three accumulators amount to over a whole batch, as sums over the 12 tiles and the 12288 pixels of a
  tile, at the extended reals: for batch b, query q and mask k,
    inter(b,q,k) = Σ_t Σ_j sigmoid(pred[b,q,t·12288+j]) · mask[b,k,t·12288+j],
    psum(b,q)    = Σ_t Σ_j sigmoid(pred[b,q,t·12288+j]),
    gsum(b,k)    = Σ_t Σ_j mask[b,k,t·12288+j],
  with pred the flattened prediction logits and mask the flattened integer masks read as numbers.
-/
import proofs.«422936_j83648783057218_1_alg».proof.KernelIdeal
import Idealize.ShloMosaic.PureOps.Ideal
import Idealize.ShloMosaic.Lib.ValueIdx

noncomputable section

namespace Cert.KernelIdeal.Fr

open Cert.KernelIdeal Idealize.ShloMosaic Idealize.ShloMosaic.ValueIdx

/-- Pixel `j` of tile `t` among the 147456 pixels of an image. -/
def pix (t : Fin 12) (j : Fin 12288) : Fin 147456 := ⟨t.val * 12288 + j.val, by omega⟩

/-- The intersection of query `q`'s sigmoid with mask `k` over batch `b`'s image, tile by tile. -/
def specI (x0 : Vec Ideal S2x100x147456 .f32) (x1 : Vec Ideal S2x64x147456 .i32) (b : Fin 2) (q : Fin 100) (k : Fin 64) : EReal :=
  ∑ t : Fin 12, ∑ j : Fin 12288,
    Ideal.logistic (x0 (ix3 b q (pix t j))) * FloatOps.sitofp (F := Ideal) .f32 (x1 (ix3 b k (pix t j)))

/-- The sum of query `q`'s sigmoid over batch `b`'s image, tile by tile. -/
def specP (x0 : Vec Ideal S2x100x147456 .f32) (b : Fin 2) (q : Fin 100) : EReal :=
  ∑ t : Fin 12, ∑ j : Fin 12288, Ideal.logistic (x0 (ix3 b q (pix t j)))

/-- The sum of mask `k` over batch `b`'s image, tile by tile. -/
def specG (x1 : Vec Ideal S2x64x147456 .i32) (b : Fin 2) (k : Fin 64) : EReal :=
  ∑ t : Fin 12, ∑ j : Fin 12288, FloatOps.sitofp (F := Ideal) .f32 (x1 (ix3 b k (pix t j)))

end Cert.KernelIdeal.Fr

end
-- ==== Proof.KI.Fold.lean ====
/-
  The three result arrays of the region, after it, are the whole-batch sums. Batch b's block of an output is
  written back once, after tile 11 of the batch, holding the accumulator after 12 steps from zero; each step adds
  one tile's contribution, so the block is the sum over the 12 tiles, and the blocks of the two batches tile the
  array. The two input arrays are the flattened arguments.
-/
import proofs.«422936_j83648783057218_1_alg».proof.Proof.KI.Frame
import proofs.«422936_j83648783057218_1_alg».proof.Proof.KI.FoldSpec
import Idealize.ShloMosaic.Lib.Pipeline.Value
import Idealize.ShloMosaic.Lib.ValueLayout
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

theorem V_main_v0 (c : Dev nD) :
    (V m c main_v0 : Vec Ideal S2x100x147456 .f32)
      = shapeCast S2x100x147456 (m ((c : Thread nD τ).loc main_arg1) : Vec Ideal S2x100x384x384 .f32) shapeCasts_S2x100x384x384_S2x100x147456 := by
  dsimp only [V, V0]
  simp only [hostOps0, List.flatten_cons, List.flatten_nil, List.append_nil, List.cons_append, List.nil_append]
  after_results
  rfl

theorem V_main_v1 (c : Dev nD) :
    (V m c main_v1 : Vec Ideal S2x64x147456 .i32)
      = shapeCast S2x64x147456 (m ((c : Thread nD τ).loc main_arg3) : Vec Ideal S2x64x384x384 .i32) shapeCasts_S2x64x384x384_S2x64x147456 := by
  dsimp only [V, V0]
  simp only [hostOps0, List.flatten_cons, List.flatten_nil, List.append_nil, List.cons_append, List.nil_append]
  after_results
  rfl

namespace Fold

/-! ## The matmul's operand indices -/

abbrev dotD := dot_S100x12288_S64x12288_S100x64_1_1_0_0_n_n

theorem lhs_ax0 (j : S100x64.Idx) (kk : dotD.contr.Idx) : (dotD.lhsIdx j kk 0).val = (j 0).val := by
  unfold DotDims.lhsIdx
  rw [dif_neg (show ¬(0 : Fin S100x12288.rank) ∈ dotD.lhsBatch by decide),
    dif_pos (show (0 : Fin S100x12288.rank) ∈ dotD.lhsNonContracting by decide)]
  rfl

theorem lhs_ax1 (j : S100x64.Idx) (kk : dotD.contr.Idx) : (dotD.lhsIdx j kk 1).val = (kk ⟨0, by decide⟩).val :=
  dotD.lhsIdx_val_of_single rfl j kk

theorem rhs_ax0 (j : S100x64.Idx) (kk : dotD.contr.Idx) : (dotD.rhsIdx j kk 0).val = (j 1).val := by
  unfold DotDims.rhsIdx
  rw [dif_neg (show ¬(0 : Fin S64x12288.rank) ∈ dotD.rhsBatch by decide),
    dif_pos (show (0 : Fin S64x12288.rank) ∈ dotD.rhsNonContracting by decide)]
  rfl

theorem rhs_ax1 (j : S100x64.Idx) (kk : dotD.contr.Idx) : (dotD.rhsIdx j kk 1).val = (kk ⟨0, by decide⟩).val :=
  dotD.rhsIdx_val_of_single rfl j kk

theorem lhs_eq (q : Fin 100) (k : Fin 64) (j : Fin 12288) :
    dotD.lhsIdx (ix2 q k) ((contrEquiv1 dotD 12288 rfl rfl).symm j) = ix2 q j := by
  funext a
  apply Fin.ext
  match a with
  | ⟨0, _⟩ => exact lhs_ax0 _ _
  | ⟨1, _⟩ => exact (lhs_ax1 _ _).trans (contrEquiv1_symm_val dotD 12288 rfl rfl j)

theorem rhs_eq (q : Fin 100) (k : Fin 64) (j : Fin 12288) :
    dotD.rhsIdx (ix2 q k) ((contrEquiv1 dotD 12288 rfl rfl).symm j) = ix2 k j := by
  funext a
  apply Fin.ext
  match a with
  | ⟨0, _⟩ => exact rhs_ax0 _ _
  | ⟨1, _⟩ => exact (rhs_ax1 _ _).trans (contrEquiv1_symm_val dotD 12288 rfl rfl j)

/-! ## The payloads at an index -/

theorem pay6_apply (x0 : Vec Ideal S1x100x12288 .f32) (q : Fin 100) (j : Fin 12288) :
    k0_pay6 x0 (ix2 q j) = Ideal.logistic (x0 (ix3 0 q j)) := by
  unfold k0_pay6
  exact congrArg Ideal.logistic (shapeCast_1ab_ab_apply x0 _ q j)

theorem pay5_apply (x1 : Vec Ideal S1x64x12288 .i32) (k : Fin 64) (j : Fin 12288) :
    (k0_pay5 (F := Ideal) x1) (ix2 k j) = FloatOps.sitofp (F := Ideal) .f32 (x1 (ix3 0 k j)) := by
  unfold k0_pay5
  exact congrArg (FloatOps.sitofp (F := Ideal) .f32) (shapeCast_1ab_ab_apply x1 _ k j)

theorem pay9_apply (x0 : Vec Ideal S1x100x12288 .f32) (x1 : Vec Ideal S1x64x12288 .i32) (q : Fin 100) (k : Fin 64) :
    k0_pay9 x0 x1 (ix2 q k)
      = ∑ j : Fin 12288, Ideal.logistic (x0 (ix3 0 q j)) * FloatOps.sitofp (F := Ideal) .f32 (x1 (ix3 0 k j)) := by
  unfold k0_pay9
  refine (Ideal.matmul_constant_zero_apply dotD none _ _ (ix2 q k)).trans ?_
  refine (Equiv.sum_comp (contrEquiv1 dotD 12288 rfl rfl).symm _).symm.trans ?_
  refine Finset.sum_congr rfl fun j _ => ?_
  rw [lhs_eq, rhs_eq]
  show k0_pay6 x0 (ix2 q j) * (k0_pay5 (F := Ideal) x1) (ix2 k j) = _
  rw [pay6_apply, pay5_apply]

theorem stepI_apply (x0 : Vec Ideal S1x100x12288 .f32) (x1 : Vec Ideal S1x64x12288 .i32) (acc : Vec Ideal S1x100x64 .f32)
    (q : Fin 100) (k : Fin 64) :
    stepI x0 x1 acc (ix3 0 q k)
      = acc (ix3 0 q k) + ∑ j : Fin 12288, Ideal.logistic (x0 (ix3 0 q j)) * FloatOps.sitofp (F := Ideal) .f32 (x1 (ix3 0 k j)) := by
  unfold stepI k0_pay1
  refine (shapeCast_ab_1ab_apply _ _ 0 q k).trans ?_
  show k0_pay10 acc (ix2 q k) + k0_pay9 x0 x1 (ix2 q k) = _
  rw [pay9_apply]
  unfold k0_pay10
  exact congrArg (· + _) (shapeCast_1ab_ab_apply acc _ q k)

theorem liftP (q : Fin 100) (j : Fin 12288) : reduces_S100x12288_S100.lift (ix1 q) j = ix2 q j := by
  funext a
  match a with
  | ⟨0, _⟩ => rfl
  | ⟨1, _⟩ => rfl

theorem liftG (k : Fin 64) (j : Fin 12288) : reduces_S64x12288_S64.lift (ix1 k) j = ix2 k j := by
  funext a
  match a with
  | ⟨0, _⟩ => rfl
  | ⟨1, _⟩ => rfl

theorem stepP_apply (x0 : Vec Ideal S1x100x12288 .f32) (acc : Vec Ideal S1x100x1 .f32) (q : Fin 100) :
    stepP x0 acc (ix3 0 q 0) = acc (ix3 0 q 0) + ∑ j : Fin 12288, Ideal.logistic (x0 (ix3 0 q j)) := by
  unfold stepP k0_pay7
  refine (shapeCast_ab_1ab_apply _ _ 0 q 0).trans ?_
  refine (addf_apply _ _ _).trans ?_
  refine congrArg₂ (· + ·) (shapeCast_1ab_ab_apply acc _ q 0) ?_
  refine (shapeCast_apply _ _ (ix2 q 0) (ix1 q) (by
    rw [Shape.rowMajor_val_one, Shape.rowMajor_val_two]
    show q.val = q.val * 1 + 0
    omega)).trans ?_
  refine (Ideal.multiReduction_add_single _ _ _ _ _ (ix1 q)).trans ?_
  refine Finset.sum_congr rfl fun j _ => ?_
  exact (congrArg (k0_pay6 x0) (liftP q j)).trans (pay6_apply x0 q j)

theorem stepG_apply (x1 : Vec Ideal S1x64x12288 .i32) (acc : Vec Ideal S1x1x64 .f32) (k : Fin 64) :
    stepG x1 acc (ix3 0 0 k) = acc (ix3 0 0 k) + ∑ j : Fin 12288, FloatOps.sitofp (F := Ideal) .f32 (x1 (ix3 0 k j)) := by
  unfold stepG k0_pay8
  refine (shapeCast_apply _ _ (ix3 0 0 k) (ix1 k) (by
    rw [Shape.rowMajor_val_one, Shape.rowMajor_val_three]
    show k.val = (0 * 1 + 0) * 64 + k.val
    omega)).trans ?_
  refine (addf_apply _ _ _).trans ?_
  refine congrArg₂ (· + ·) (shapeCast_apply acc _ (ix1 k) (ix3 0 0 k) (by
    rw [Shape.rowMajor_val_three, Shape.rowMajor_val_one]
    show (0 * 1 + 0) * 64 + k.val = k.val
    omega)) ?_
  refine (Ideal.multiReduction_add_single _ _ _ _ _ (ix1 k)).trans ?_
  refine Finset.sum_congr rfl fun j _ => ?_
  exact (congrArg (k0_pay5 (F := Ideal) x1) (liftG k j)).trans (pay5_apply x1 k j)

/-! ## The region's arrays and a point's blocks, at their literal types -/

/-- The arrays the region reads. -/
abbrev X0 (c : Dev nD) : Vec Ideal S2x100x147456 .f32 := V m c main_v0
abbrev X1 (c : Dev nD) : Vec Ideal S2x64x147456 .i32 := V m c main_v1
/-- The two input blocks of a point. -/
abbrev blk0 (c : Dev nD) (t : Fin cfg0.N) : Vec Ideal S1x100x12288 .f32 := iblk m c 0 t
abbrev blk1 (c : Dev nD) (t : Fin cfg0.N) : Vec Ideal S1x64x12288 .i32 := iblk m c 1 t

/-! ## The input blocks read at an index -/

/-- The block indices of the two input windows over the grid: batch, 0, tile. -/
theorem idx_in : ∀ t : Fin cfg0.N, (win0_0.index t 0 = t.val / 12 ∧ win0_0.index t 1 = 0 ∧ win0_0.index t 2 = t.val % 12)
    ∧ (win0_1.index t 0 = t.val / 12 ∧ win0_1.index t 1 = 0 ∧ win0_1.index t 2 = t.val % 12) :=
  (by decide +kernel : ∀ t : Fin grid0.N, (win0_0.index t 0 = t.val / 12 ∧ win0_0.index t 1 = 0 ∧ win0_0.index t 2 = t.val % 12)
    ∧ (win0_1.index t 0 = t.val / 12 ∧ win0_1.index t 1 = 0 ∧ win0_1.index t 2 = t.val % 12))

theorem iblk0_apply (c : Dev nD) (t : Fin cfg0.N) (q : Fin 100) (j : Fin 12288) (i : S2x100x147456.Idx)
    (h0 : (i 0).val = t.val / 12) (h1 : (i 1).val = q.val) (h2 : (i 2).val = t.val % 12 * 12288 + j.val) :
    blk0 m c t (ix3 0 q j) = X0 m c i := by
  obtain ⟨⟨e0, e1, e2⟩, -⟩ := idx_in t
  show (iblk m c 0 t : Vec Ideal S1x100x12288 .f32) (ix3 0 q j) = (V m c main_v0 : Vec Ideal S2x100x147456 .f32) i
  unfold iblk
  rw [View.read_apply]
  show V m c main_v0 _ = V m c main_v0 _
  congr 1
  funext a
  apply Fin.ext
  match a with
  | ⟨0, _⟩ => show win0_0.index t 0 * 1 + 1 * 0 = (i 0).val; rw [e0, h0]; omega
  | ⟨1, _⟩ => show win0_0.index t 1 * 100 + 1 * q.val = (i 1).val; rw [e1, h1]; omega
  | ⟨2, _⟩ => show win0_0.index t 2 * 12288 + 1 * j.val = (i 2).val; rw [e2, h2]; omega

theorem iblk1_apply (c : Dev nD) (t : Fin cfg0.N) (k : Fin 64) (j : Fin 12288) (i : S2x64x147456.Idx)
    (h0 : (i 0).val = t.val / 12) (h1 : (i 1).val = k.val) (h2 : (i 2).val = t.val % 12 * 12288 + j.val) :
    blk1 m c t (ix3 0 k j) = X1 m c i := by
  obtain ⟨-, e0, e1, e2⟩ := idx_in t
  show (iblk m c 1 t : Vec Ideal S1x64x12288 .i32) (ix3 0 k j) = (V m c main_v1 : Vec Ideal S2x64x147456 .i32) i
  unfold iblk
  rw [View.read_apply]
  show V m c main_v1 _ = V m c main_v1 _
  congr 1
  funext a
  apply Fin.ext
  match a with
  | ⟨0, _⟩ => show win0_1.index t 0 * 1 + 1 * 0 = (i 0).val; rw [e0, h0]; omega
  | ⟨1, _⟩ => show win0_1.index t 1 * 64 + 1 * k.val = (i 1).val; rw [e1, h1]; omega
  | ⟨2, _⟩ => show win0_1.index t 2 * 12288 + 1 * j.val = (i 2).val; rw [e2, h2]; omega

/-! ## One tile's contribution, and the accumulators point by point -/

theorem hN24 : cfg0.N = 24 := N_0

/-- The batch of point `n`. -/
def bOf (n : ℕ) : Fin 2 := ⟨n / 12 % 2, Nat.mod_lt _ (by decide)⟩

theorem bOf_succ {n : ℕ} (h : ¬(n + 1) % 12 = 0) : bOf (n + 1) = bOf n :=
  Fin.ext (by show (n + 1) / 12 % 2 = n / 12 % 2; omega)

/-- Tile `s`'s contribution to the intersection of query `q` with mask `k` in batch `b` (zero past the 12 tiles). -/
def tI (x0 : Vec Ideal S2x100x147456 .f32) (x1 : Vec Ideal S2x64x147456 .i32) (b : Fin 2) (q : Fin 100) (k : Fin 64) (s : ℕ) : EReal :=
  if h : s < 12 then ∑ j : Fin 12288,
    Ideal.logistic (x0 (ix3 b q (pix ⟨s, h⟩ j))) * FloatOps.sitofp (F := Ideal) .f32 (x1 (ix3 b k (pix ⟨s, h⟩ j)))
  else 0
/-- Tile `s`'s contribution to the sum of query `q`'s sigmoid in batch `b`. -/
def tP (x0 : Vec Ideal S2x100x147456 .f32) (b : Fin 2) (q : Fin 100) (s : ℕ) : EReal :=
  if h : s < 12 then ∑ j : Fin 12288, Ideal.logistic (x0 (ix3 b q (pix ⟨s, h⟩ j))) else 0
/-- Tile `s`'s contribution to the sum of mask `k` in batch `b`. -/
def tG (x1 : Vec Ideal S2x64x147456 .i32) (b : Fin 2) (k : Fin 64) (s : ℕ) : EReal :=
  if h : s < 12 then ∑ j : Fin 12288, FloatOps.sitofp (F := Ideal) .f32 (x1 (ix3 b k (pix ⟨s, h⟩ j))) else 0

/-- The whole-batch sums are the sums of the 12 tiles' contributions. -/
theorem specI_eq (x0 : Vec Ideal S2x100x147456 .f32) (x1 : Vec Ideal S2x64x147456 .i32) (b : Fin 2) (q : Fin 100) (k : Fin 64) :
    specI x0 x1 b q k = ∑ s ∈ Finset.range 12, tI x0 x1 b q k s := by
  rw [Finset.sum_range]
  unfold specI
  refine Finset.sum_congr rfl fun t _ => ?_
  unfold tI
  rw [dif_pos t.isLt]
theorem specP_eq (x0 : Vec Ideal S2x100x147456 .f32) (b : Fin 2) (q : Fin 100) :
    specP x0 b q = ∑ s ∈ Finset.range 12, tP x0 b q s := by
  rw [Finset.sum_range]
  unfold specP
  refine Finset.sum_congr rfl fun t _ => ?_
  unfold tP
  rw [dif_pos t.isLt]
theorem specG_eq (x1 : Vec Ideal S2x64x147456 .i32) (b : Fin 2) (k : Fin 64) :
    specG x1 b k = ∑ s ∈ Finset.range 12, tG x1 b k s := by
  rw [Finset.sum_range]
  unfold specG
  refine Finset.sum_congr rfl fun t _ => ?_
  unfold tG
  rw [dif_pos t.isLt]

/-- A point's blocks give the contribution of its tile of its batch. -/
theorem tileI (c : Dev nD) (t : Fin cfg0.N) (q : Fin 100) (k : Fin 64) :
    (∑ j : Fin 12288, Ideal.logistic (blk0 m c t (ix3 0 q j)) * FloatOps.sitofp (F := Ideal) .f32 (blk1 m c t (ix3 0 k j)))
      = tI (X0 m c) (X1 m c) (bOf t.val) q k (t.val % 12) := by
  have ht : t.val < 24 := Nat.lt_of_lt_of_le t.isLt (Nat.le_of_eq hN24)
  unfold tI
  rw [dif_pos (Nat.mod_lt _ (by decide))]
  refine Finset.sum_congr rfl fun j _ => ?_
  rw [iblk0_apply m c t q j (ix3 (bOf t.val) q (pix ⟨t.val % 12, Nat.mod_lt _ (by decide)⟩ j))
      (by show t.val / 12 % 2 = t.val / 12; omega) rfl rfl,
    iblk1_apply m c t k j (ix3 (bOf t.val) k (pix ⟨t.val % 12, Nat.mod_lt _ (by decide)⟩ j))
      (by show t.val / 12 % 2 = t.val / 12; omega) rfl rfl]
theorem tileP (c : Dev nD) (t : Fin cfg0.N) (q : Fin 100) :
    (∑ j : Fin 12288, Ideal.logistic (blk0 m c t (ix3 0 q j))) = tP (X0 m c) (bOf t.val) q (t.val % 12) := by
  have ht : t.val < 24 := Nat.lt_of_lt_of_le t.isLt (Nat.le_of_eq hN24)
  unfold tP
  rw [dif_pos (Nat.mod_lt _ (by decide))]
  refine Finset.sum_congr rfl fun j _ => ?_
  rw [iblk0_apply m c t q j (ix3 (bOf t.val) q (pix ⟨t.val % 12, Nat.mod_lt _ (by decide)⟩ j))
      (by show t.val / 12 % 2 = t.val / 12; omega) rfl rfl]
theorem tileG (c : Dev nD) (t : Fin cfg0.N) (k : Fin 64) :
    (∑ j : Fin 12288, FloatOps.sitofp (F := Ideal) .f32 (blk1 m c t (ix3 0 k j))) = tG (X1 m c) (bOf t.val) k (t.val % 12) := by
  have ht : t.val < 24 := Nat.lt_of_lt_of_le t.isLt (Nat.le_of_eq hN24)
  unfold tG
  rw [dif_pos (Nat.mod_lt _ (by decide))]
  refine Finset.sum_congr rfl fun j _ => ?_
  rw [iblk1_apply m c t k j (ix3 (bOf t.val) k (pix ⟨t.val % 12, Nat.mod_lt _ (by decide)⟩ j))
      (by show t.val / 12 % 2 = t.val / 12; omega) rfl rfl]

/-- The zero blocks the first tile of a batch starts from. -/
theorem pay2_apply (i : S1x100x64.Idx) : (k0_pay2 (F := Ideal)) i = 0 := Ideal.ofBits_zero_f32
theorem pay3_apply (i : S1x100x1.Idx) : (k0_pay3 (F := Ideal)) i = 0 := Ideal.ofBits_zero_f32
theorem pay4_apply (i : S1x1x64.Idx) : (k0_pay4 (F := Ideal)) i = 0 := Ideal.ofBits_zero_f32

/-- After the first tile of a batch the accumulator is that tile's contribution. -/
theorem firstI (c : Dev nD) (t : Fin cfg0.N) (h : t.val % 12 = 0) (q : Fin 100) (k : Fin 64) :
    (outsAt0 m c t.val t.isLt).1 (ix3 0 q k) = tI (X0 m c) (X1 m c) (bOf t.val) q k 0 := by
  rw [outs_first_1 m c t h]
  refine (stepI_apply (blk0 m c t) (blk1 m c t) (k0_pay2 (F := Ideal)) q k).trans ?_
  rw [pay2_apply, zero_add, tileI, h]
theorem firstP (c : Dev nD) (t : Fin cfg0.N) (h : t.val % 12 = 0) (q : Fin 100) :
    (outsAt0 m c t.val t.isLt).2.1 (ix3 0 q 0) = tP (X0 m c) (bOf t.val) q 0 := by
  rw [outs_first_2 m c t h]
  refine (stepP_apply (blk0 m c t) (k0_pay3 (F := Ideal)) q).trans ?_
  rw [pay3_apply, zero_add, tileP, h]
theorem firstG (c : Dev nD) (t : Fin cfg0.N) (h : t.val % 12 = 0) (k : Fin 64) :
    (outsAt0 m c t.val t.isLt).2.2 (ix3 0 0 k) = tG (X1 m c) (bOf t.val) k 0 := by
  rw [outs_first_3 m c t h]
  refine (stepG_apply (blk1 m c t) (k0_pay4 (F := Ideal)) k).trans ?_
  rw [pay4_apply, zero_add, tileG, h]

/-- After a later tile it is what the tile before left plus this tile's contribution. -/
theorem nextI (c : Dev nD) (t : Fin cfg0.N) (h : ¬t.val % 12 = 0) (q : Fin 100) (k : Fin 64) :
    (outsAt0 m c t.val t.isLt).1 (ix3 0 q k)
      = (outsAt0 m c (t.val - 1) (Nat.lt_of_le_of_lt (Nat.sub_le _ _) t.isLt)).1 (ix3 0 q k)
        + tI (X0 m c) (X1 m c) (bOf t.val) q k (t.val % 12) := by
  rw [outs_next_1 m c t h]
  refine (stepI_apply (blk0 m c t) (blk1 m c t) _ q k).trans ?_
  rw [tileI]
theorem nextP (c : Dev nD) (t : Fin cfg0.N) (h : ¬t.val % 12 = 0) (q : Fin 100) :
    (outsAt0 m c t.val t.isLt).2.1 (ix3 0 q 0)
      = (outsAt0 m c (t.val - 1) (Nat.lt_of_le_of_lt (Nat.sub_le _ _) t.isLt)).2.1 (ix3 0 q 0)
        + tP (X0 m c) (bOf t.val) q (t.val % 12) := by
  rw [outs_next_2 m c t h]
  refine (stepP_apply (blk0 m c t) _ q).trans ?_
  rw [tileP]
theorem nextG (c : Dev nD) (t : Fin cfg0.N) (h : ¬t.val % 12 = 0) (k : Fin 64) :
    (outsAt0 m c t.val t.isLt).2.2 (ix3 0 0 k)
      = (outsAt0 m c (t.val - 1) (Nat.lt_of_le_of_lt (Nat.sub_le _ _) t.isLt)).2.2 (ix3 0 0 k)
        + tG (X1 m c) (bOf t.val) k (t.val % 12) := by
  rw [outs_next_3 m c t h]
  refine (stepG_apply (blk1 m c t) _ k).trans ?_
  rw [tileG]

/-- After point `n` the accumulators hold the partial sums over the tiles of the batch up to `n`'s. -/
theorem accI (c : Dev nD) (q : Fin 100) (k : Fin 64) : ∀ (n : ℕ) (h : n < cfg0.N),
    (outsAt0 m c n h).1 (ix3 0 q k) = ∑ s ∈ Finset.range (n % 12 + 1), tI (X0 m c) (X1 m c) (bOf n) q k s := by
  intro n
  induction n with
  | zero => intro h; rw [Nat.zero_mod, Finset.sum_range_one]; exact firstI m c ⟨0, h⟩ rfl q k
  | succ n ih =>
    intro h
    by_cases hm : (n + 1) % 12 = 0
    · rw [hm, Finset.sum_range_one]; exact firstI m c ⟨n + 1, h⟩ hm q k
    · rw [show (n + 1) % 12 = n % 12 + 1 from by omega, Finset.sum_range_succ, bOf_succ hm, ← ih (Nat.lt_of_succ_lt h)]
      have e := nextI m c ⟨n + 1, h⟩ hm q k
      rw [show (⟨n + 1, h⟩ : Fin cfg0.N).val % 12 = n % 12 + 1 from by show (n + 1) % 12 = _; omega,
        show bOf (⟨n + 1, h⟩ : Fin cfg0.N).val = bOf n from bOf_succ hm] at e
      exact e
theorem accP (c : Dev nD) (q : Fin 100) : ∀ (n : ℕ) (h : n < cfg0.N),
    (outsAt0 m c n h).2.1 (ix3 0 q 0) = ∑ s ∈ Finset.range (n % 12 + 1), tP (X0 m c) (bOf n) q s := by
  intro n
  induction n with
  | zero => intro h; rw [Nat.zero_mod, Finset.sum_range_one]; exact firstP m c ⟨0, h⟩ rfl q
  | succ n ih =>
    intro h
    by_cases hm : (n + 1) % 12 = 0
    · rw [hm, Finset.sum_range_one]; exact firstP m c ⟨n + 1, h⟩ hm q
    · rw [show (n + 1) % 12 = n % 12 + 1 from by omega, Finset.sum_range_succ, bOf_succ hm, ← ih (Nat.lt_of_succ_lt h)]
      have e := nextP m c ⟨n + 1, h⟩ hm q
      rw [show (⟨n + 1, h⟩ : Fin cfg0.N).val % 12 = n % 12 + 1 from by show (n + 1) % 12 = _; omega,
        show bOf (⟨n + 1, h⟩ : Fin cfg0.N).val = bOf n from bOf_succ hm] at e
      exact e
theorem accG (c : Dev nD) (k : Fin 64) : ∀ (n : ℕ) (h : n < cfg0.N),
    (outsAt0 m c n h).2.2 (ix3 0 0 k) = ∑ s ∈ Finset.range (n % 12 + 1), tG (X1 m c) (bOf n) k s := by
  intro n
  induction n with
  | zero => intro h; rw [Nat.zero_mod, Finset.sum_range_one]; exact firstG m c ⟨0, h⟩ rfl k
  | succ n ih =>
    intro h
    by_cases hm : (n + 1) % 12 = 0
    · rw [hm, Finset.sum_range_one]; exact firstG m c ⟨n + 1, h⟩ hm k
    · rw [show (n + 1) % 12 = n % 12 + 1 from by omega, Finset.sum_range_succ, bOf_succ hm, ← ih (Nat.lt_of_succ_lt h)]
      have e := nextG m c ⟨n + 1, h⟩ hm k
      rw [show (⟨n + 1, h⟩ : Fin cfg0.N).val % 12 = n % 12 + 1 from by show (n + 1) % 12 = _; omega,
        show bOf (⟨n + 1, h⟩ : Fin cfg0.N).val = bOf n from bOf_succ hm] at e
      exact e

/-- After the last tile of a batch the accumulators hold the whole-batch sums. -/
theorem lastI (c : Dev nD) (t : Fin cfg0.N) (h : t.val % 12 = 11) (q : Fin 100) (k : Fin 64) :
    (outsAt0 m c t.val t.isLt).1 (ix3 0 q k) = specI (X0 m c) (X1 m c) (bOf t.val) q k := by
  rw [accI m c q k t.val t.isLt, h, specI_eq]
theorem lastP (c : Dev nD) (t : Fin cfg0.N) (h : t.val % 12 = 11) (q : Fin 100) :
    (outsAt0 m c t.val t.isLt).2.1 (ix3 0 q 0) = specP (X0 m c) (bOf t.val) q := by
  rw [accP m c q t.val t.isLt, h, specP_eq]
theorem lastG (c : Dev nD) (t : Fin cfg0.N) (h : t.val % 12 = 11) (k : Fin 64) :
    (outsAt0 m c t.val t.isLt).2.2 (ix3 0 0 k) = specG (X1 m c) (bOf t.val) k := by
  rw [accG m c k t.val t.isLt, h, specG_eq]

/-! ## What is written back, and the arrays after the region -/

/-- The block indices of the three output windows over the grid: batch, 0, 0. -/
theorem idx_out : ∀ t : Fin cfg0.N, (win0_2.index t 0 = t.val / 12 ∧ win0_2.index t 1 = 0 ∧ win0_2.index t 2 = 0)
    ∧ (win0_3.index t 0 = t.val / 12 ∧ win0_3.index t 1 = 0 ∧ win0_3.index t 2 = 0)
    ∧ (win0_4.index t 0 = t.val / 12 ∧ win0_4.index t 1 = 0 ∧ win0_4.index t 2 = 0) :=
  (by decide +kernel : ∀ t : Fin grid0.N, (win0_2.index t 0 = t.val / 12 ∧ win0_2.index t 1 = 0 ∧ win0_2.index t 2 = 0)
    ∧ (win0_3.index t 0 = t.val / 12 ∧ win0_3.index t 1 = 0 ∧ win0_3.index t 2 = 0)
    ∧ (win0_4.index t 0 = t.val / 12 ∧ win0_4.index t 1 = 0 ∧ win0_4.index t 2 = 0))

/-- The arrays the three outputs end holding: the whole-batch sums, entry by entry. -/
def GI (c : Dev nD) : Vec Ideal S2x100x64 .f32 := fun i => specI (X0 m c) (X1 m c) (i 0) (i 1) (i 2)
def GP (c : Dev nD) : Vec Ideal S2x100x1 .f32 := fun i => specP (X0 m c) (i 0) (i 1)
def GG (c : Dev nD) : Vec Ideal S2x1x64 .f32 := fun i => specG (X1 m c) (i 0) (i 2)

theorem GI_apply (c : Dev nD) (i : S2x100x64.Idx) (b : Fin 2) (q : Fin 100) (k : Fin 64)
    (h0 : (i 0).val = b.val) (h1 : (i 1).val = q.val) (h2 : (i 2).val = k.val) :
    GI m c i = specI (X0 m c) (X1 m c) b q k := by
  have e0 : i 0 = b := Fin.ext h0
  have e1 : i 1 = q := Fin.ext h1
  have e2 : i 2 = k := Fin.ext h2
  unfold GI
  rw [e0, e1, e2]
theorem GP_apply (c : Dev nD) (i : S2x100x1.Idx) (b : Fin 2) (q : Fin 100)
    (h0 : (i 0).val = b.val) (h1 : (i 1).val = q.val) :
    GP m c i = specP (X0 m c) b q := by
  have e0 : i 0 = b := Fin.ext h0
  have e1 : i 1 = q := Fin.ext h1
  unfold GP
  rw [e0, e1]
theorem GG_apply (c : Dev nD) (i : S2x1x64.Idx) (b : Fin 2) (k : Fin 64)
    (h0 : (i 0).val = b.val) (h2 : (i 2).val = k.val) :
    GG m c i = specG (X1 m c) b k := by
  have e0 : i 0 = b := Fin.ext h0
  have e2 : i 2 = k := Fin.ext h2
  unfold GG
  rw [e0, e2]

/-- What a batch's last point writes back is that batch's block of the sums. -/
theorem flushedI (c : Dev nD) (t : Fin cfg0.N) (hf : (cfg0.win 2).flush t = true) :
    (dats m 0 c).flushed 2 t = ((cfg0.win 2).blk t).view.read (Elt Ideal) (GI m c) := by
  have h11 : t.val % 12 = 11 := (flush0_2 t).mp hf
  have ht : t.val < 24 := Nat.lt_of_lt_of_le t.isLt (Nat.le_of_eq hN24)
  obtain ⟨⟨e0, e1, e2⟩, -, -⟩ := idx_out t
  show (cfg0.win 2).cut (grid0.coords t) ((dats m 0 c).after 2 t) = _
  rw [after0_2]
  have key : ∀ y : S1x100x64.Idx, (outsAt0 m c t.val t.isLt).1 y = GI m c (((cfg0.win 2).blk t).view.emb y) := by
    intro y
    obtain ⟨u, q, k, rfl⟩ : ∃ u q k, y = ix3 u q k := ⟨_, _, _, eq_ix3 y⟩
    obtain rfl : u = 0 := Subsingleton.elim _ _
    rw [lastI m c t h11 q k]
    refine (GI_apply m c _ (bOf t.val) q k ?_ ?_ ?_).symm
    · show win0_2.index t 0 * 1 + 1 * 0 = t.val / 12 % 2; rw [e0]; omega
    · show win0_2.index t 1 * 100 + 1 * q.val = q.val; rw [e1]; omega
    · show win0_2.index t 2 * 64 + 1 * k.val = k.val; rw [e2]; omega
  funext y
  exact key y
theorem flushedP (c : Dev nD) (t : Fin cfg0.N) (hf : (cfg0.win 3).flush t = true) :
    (dats m 0 c).flushed 3 t = ((cfg0.win 3).blk t).view.read (Elt Ideal) (GP m c) := by
  have h11 : t.val % 12 = 11 := (flush0_3 t).mp hf
  have ht : t.val < 24 := Nat.lt_of_lt_of_le t.isLt (Nat.le_of_eq hN24)
  obtain ⟨-, ⟨e0, e1, e2⟩, -⟩ := idx_out t
  show (cfg0.win 3).cut (grid0.coords t) ((dats m 0 c).after 3 t) = _
  rw [after0_3]
  have key : ∀ y : S1x100x1.Idx, (outsAt0 m c t.val t.isLt).2.1 y = GP m c (((cfg0.win 3).blk t).view.emb y) := by
    intro y
    obtain ⟨u, q, z, rfl⟩ : ∃ u q z, y = ix3 u q z := ⟨_, _, _, eq_ix3 y⟩
    obtain rfl : u = 0 := Subsingleton.elim _ _
    obtain rfl : z = 0 := Subsingleton.elim _ _
    rw [lastP m c t h11 q]
    refine (GP_apply m c _ (bOf t.val) q ?_ ?_).symm
    · show win0_3.index t 0 * 1 + 1 * 0 = t.val / 12 % 2; rw [e0]; omega
    · show win0_3.index t 1 * 100 + 1 * q.val = q.val; rw [e1]; omega
  funext y
  exact key y
theorem flushedG (c : Dev nD) (t : Fin cfg0.N) (hf : (cfg0.win 4).flush t = true) :
    (dats m 0 c).flushed 4 t = ((cfg0.win 4).blk t).view.read (Elt Ideal) (GG m c) := by
  have h11 : t.val % 12 = 11 := (flush0_4 t).mp hf
  have ht : t.val < 24 := Nat.lt_of_lt_of_le t.isLt (Nat.le_of_eq hN24)
  obtain ⟨-, -, e0, e1, e2⟩ := idx_out t
  show (cfg0.win 4).cut (grid0.coords t) ((dats m 0 c).after 4 t) = _
  rw [after0_4]
  have key : ∀ y : S1x1x64.Idx, (outsAt0 m c t.val t.isLt).2.2 y = GG m c (((cfg0.win 4).blk t).view.emb y) := by
    intro y
    obtain ⟨u, z, k, rfl⟩ : ∃ u z k, y = ix3 u z k := ⟨_, _, _, eq_ix3 y⟩
    obtain rfl : u = 0 := Subsingleton.elim _ _
    obtain rfl : z = 0 := Subsingleton.elim _ _
    rw [lastG m c t h11 k]
    refine (GG_apply m c _ (bOf t.val) k ?_ ?_).symm
    · show win0_4.index t 0 * 1 + 1 * 0 = t.val / 12 % 2; rw [e0]; omega
    · show win0_4.index t 2 * 64 + 1 * k.val = k.val; rw [e2]; omega
  funext y
  exact key y

/-- Every entry of an output array lies in the block its batch's last point writes back. -/
theorem coverI (i : S2x100x64.Idx) :
    ∃ t : Fin cfg0.N, (cfg0.win 2).flush t = true ∧ i ∈ ((cfg0.win 2).blk t).view.set := by
  have hi0 : (i 0).val < 2 := (i 0).isLt
  have hi1 : (i 1).val < 100 := (i 1).isLt
  have hi2 : (i 2).val < 64 := (i 2).isLt
  obtain ⟨t, ht⟩ : ∃ t : Fin cfg0.N, t.val = 12 * (i 0).val + 11 := ⟨⟨12 * (i 0).val + 11, by rw [hN24]; omega⟩, rfl⟩
  obtain ⟨⟨e0, e1, e2⟩, -, -⟩ := idx_out t
  refine ⟨t, (flush0_2 t).mpr (by omega), ?_⟩
  show i ∈ ((View.whole main_v2_0).slice (win0_2.rect t)).set
  rw [View.set_slice_whole, Rect.mem_set_unit]
  intro a
  match a with
  | ⟨0, _⟩ => show win0_2.index t 0 * 1 ≤ (i 0).val ∧ (i 0).val < win0_2.index t 0 * 1 + 1; rw [e0]; omega
  | ⟨1, _⟩ => show win0_2.index t 1 * 100 ≤ (i 1).val ∧ (i 1).val < win0_2.index t 1 * 100 + 100; rw [e1]; omega
  | ⟨2, _⟩ => show win0_2.index t 2 * 64 ≤ (i 2).val ∧ (i 2).val < win0_2.index t 2 * 64 + 64; rw [e2]; omega
theorem coverP (i : S2x100x1.Idx) :
    ∃ t : Fin cfg0.N, (cfg0.win 3).flush t = true ∧ i ∈ ((cfg0.win 3).blk t).view.set := by
  have hi0 : (i 0).val < 2 := (i 0).isLt
  have hi1 : (i 1).val < 100 := (i 1).isLt
  have hi2 : (i 2).val < 1 := (i 2).isLt
  obtain ⟨t, ht⟩ : ∃ t : Fin cfg0.N, t.val = 12 * (i 0).val + 11 := ⟨⟨12 * (i 0).val + 11, by rw [hN24]; omega⟩, rfl⟩
  obtain ⟨-, ⟨e0, e1, e2⟩, -⟩ := idx_out t
  refine ⟨t, (flush0_3 t).mpr (by omega), ?_⟩
  show i ∈ ((View.whole main_v2_1).slice (win0_3.rect t)).set
  rw [View.set_slice_whole, Rect.mem_set_unit]
  intro a
  match a with
  | ⟨0, _⟩ => show win0_3.index t 0 * 1 ≤ (i 0).val ∧ (i 0).val < win0_3.index t 0 * 1 + 1; rw [e0]; omega
  | ⟨1, _⟩ => show win0_3.index t 1 * 100 ≤ (i 1).val ∧ (i 1).val < win0_3.index t 1 * 100 + 100; rw [e1]; omega
  | ⟨2, _⟩ => show win0_3.index t 2 * 1 ≤ (i 2).val ∧ (i 2).val < win0_3.index t 2 * 1 + 1; rw [e2]; omega
theorem coverG (i : S2x1x64.Idx) :
    ∃ t : Fin cfg0.N, (cfg0.win 4).flush t = true ∧ i ∈ ((cfg0.win 4).blk t).view.set := by
  have hi0 : (i 0).val < 2 := (i 0).isLt
  have hi1 : (i 1).val < 1 := (i 1).isLt
  have hi2 : (i 2).val < 64 := (i 2).isLt
  obtain ⟨t, ht⟩ : ∃ t : Fin cfg0.N, t.val = 12 * (i 0).val + 11 := ⟨⟨12 * (i 0).val + 11, by rw [hN24]; omega⟩, rfl⟩
  obtain ⟨-, -, e0, e1, e2⟩ := idx_out t
  refine ⟨t, (flush0_4 t).mpr (by omega), ?_⟩
  show i ∈ ((View.whole main_v2_2).slice (win0_4.rect t)).set
  rw [View.set_slice_whole, Rect.mem_set_unit]
  intro a
  match a with
  | ⟨0, _⟩ => show win0_4.index t 0 * 1 ≤ (i 0).val ∧ (i 0).val < win0_4.index t 0 * 1 + 1; rw [e0]; omega
  | ⟨1, _⟩ => show win0_4.index t 1 * 1 ≤ (i 1).val ∧ (i 1).val < win0_4.index t 1 * 1 + 1; rw [e1]; omega
  | ⟨2, _⟩ => show win0_4.index t 2 * 64 ≤ (i 2).val ∧ (i 2).val < win0_4.index t 2 * 64 + 64; rw [e2]; omega

/-- So each output array ends holding the whole-batch sums. -/
theorem arrI (c : Dev nD) : (dats m 0 c).arrAt 2 cfg0.N = GI m c :=
  (dats m 0 c).arrAt_eq_of_cover 2 (GI m c) (flushedI m c) coverI
theorem arrP (c : Dev nD) : (dats m 0 c).arrAt 3 cfg0.N = GP m c :=
  (dats m 0 c).arrAt_eq_of_cover 3 (GP m c) (flushedP m c) coverP
theorem arrG (c : Dev nD) : (dats m 0 c).arrAt 4 cfg0.N = GG m c :=
  (dats m 0 c).arrAt_eq_of_cover 4 (GG m c) (flushedG m c) coverG

end Fold

open Fold

/-- The intersection array after the region. -/
theorem finalI (c : Dev nD) (b : Fin 2) (q : Fin 100) (k : Fin 64) :
    ((dats (F := Ideal) m 0 c).arrAt 2 cfg0.N : Vec Ideal S2x100x64 .f32) (ix3 b q k)
      = specI (V m c main_v0) (V m c main_v1) b q k :=
  (congrFun (arrI m c) (ix3 b q k)).trans (GI_apply m c (ix3 b q k) b q k rfl rfl rfl)

/-- The prediction-sum array after the region. -/
theorem finalP (c : Dev nD) (b : Fin 2) (q : Fin 100) :
    ((dats (F := Ideal) m 0 c).arrAt 3 cfg0.N : Vec Ideal S2x100x1 .f32) (ix3 b q 0)
      = specP (V m c main_v0) b q :=
  (congrFun (arrP m c) (ix3 b q 0)).trans (GP_apply m c (ix3 b q 0) b q rfl rfl)

/-- The mask-sum array after the region. -/
theorem finalG (c : Dev nD) (b : Fin 2) (k : Fin 64) :
    ((dats (F := Ideal) m 0 c).arrAt 4 cfg0.N : Vec Ideal S2x1x64 .f32) (ix3 b 0 k)
      = specG (V m c main_v1) b k :=
  (congrFun (arrG m c) (ix3 b 0 k)).trans (GG_apply m c (ix3 b 0 k) b k rfl rfl)

end Cert.KernelIdeal.Fr

end
-- ==== Proof.KI.Masks.lean ====
/-
  Under the index ranges each of the three takes is a plain gather. A word x with 0 ≤ x < n, read signed, is not below
  zero, so the wrapped index (x + n where x < 0, else x) is x itself; it is then at least 0 and at most n − 1, the and
  of that one pair of comparisons over the unit axis is 1, its broadcast is 1 at every result index, and a select whose
  condition is 1 everywhere is its first branch.
-/
import proofs.«422936_j83648783057218_1_alg».proof.Proof.KI.TailSpec
import Idealize.ShloMosaic.Lib.ReduceAll
import Idealize.ShloMosaic.Lib.ValueIdx

noncomputable section

namespace Cert.KernelIdeal.Fr

open Cert.KernelIdeal Cert.KernelIdeal.Gen
open Idealize.ShloMosaic

/-! ## Words -/

theorem toInt_0 : (0#32 : BitVec 32).toInt = 0 := by decide
theorem toInt_80 : (80#32 : BitVec 32).toInt = 80 := by decide
theorem toInt_147455 : (147455#32 : BitVec 32).toInt = 147455 := by decide

/-! ## An and-reduction of ones -/

/-- A left fold by `and`, from 1, over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- An and-reduction, from 1, of an array of ones is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x hx _

/-! ## A broadcast read at an index is an element of its operand -/

theorem bcast_eq_of_all {α : Type} {s t : Shape} {dims : Fin s.rank → Fin t.rank} (h : s.BroadcastsInDim t dims)
    (x : s.Idx → α) (c : α) (hx : ∀ i, x i = c) (j : t.Idx) : broadcastInDim t dims h x j = c := hx _

theorem bcast_range {s t : Shape} {dims : Fin s.rank → Fin t.rank} (h : s.BroadcastsInDim t dims)
    (x : IVec s 32) (n : Int) (hx : ∀ i, 0 ≤ (x i).toInt ∧ (x i).toInt < n) (j : t.Idx) :
    0 ≤ (broadcastInDim t dims h x j).toInt ∧ (broadcastInDim t dims h x j).toInt < n := hx _

/-! ## The wrap and the range test at one index -/

/-- Where the word is not below zero the wrap leaves it. -/
theorem wrap_at {s : Shape} (a z n : IVec s 32) (i : s.Idx) (h0 : 0 ≤ (a i).toInt) (hz : z i = 0#32) :
    select (cmpi .slt a z) (addi a n) a i = a i := by
  rw [ValueIdx.select_apply]
  have hc : ¬cmpi .slt a z i = 1#1 := by
    show ¬IntOp.cmpi .slt (a i) (z i) = 1#1
    rw [hz, IntOp.cmpi_slt, toInt_0]
    omega
  rw [ValueIdx.eq_zero_of_ne_one hc, ValueIdx.select_zero]

/-- The pair of comparisons 0 ≤ w ≤ c, joined by `and`, is 1 where both hold. -/
theorem inrange_at {s : Shape} (w z m : IVec s 32) (k : s.Idx) (c : Int) (hz : z k = 0#32) (hm : (m k).toInt = c)
    (h0 : 0 ≤ (w k).toInt) (h1 : (w k).toInt ≤ c) : andi (cmpi .sge w z) (cmpi .sle w m) k = 1#1 := by
  show IntOp.andi (IntOp.cmpi .sge (w k) (z k)) (IntOp.cmpi .sle (w k) (m k)) = 1#1
  rw [IntOp.andi_eq_one, IntOp.cmpi_sge, IntOp.cmpi_sle, hz, toInt_0, hm]
  exact ⟨h0, h1⟩

/-! ## The labels -/

/-- The wrapped label is the label: in [0, 81). -/
theorem wrapLabK_range (a2 : IVec S2x64 32) (h : ∀ i : S2x64.Idx, 0 ≤ (a2 i).toInt ∧ (a2 i).toInt < 81)
    (k : S2x64x1.Idx) : 0 ≤ (wrapLabK a2 k).toInt ∧ (wrapLabK a2 k).toInt < 81 := by
  unfold wrapLabK
  refine bcast_range _ _ 81 (fun i => ?_) k
  rw [wrap_at a2 _ _ i (h i).1]
  · exact h i
  · rfl

/-- The label mask is 1 everywhere. -/
theorem maskLabK_one (a2 : IVec S2x64 32) (h : ∀ i : S2x64.Idx, 0 ≤ (a2 i).toInt ∧ (a2 i).toInt < 81)
    (q : S2x100x64.Idx) : maskLabK a2 q = 1#1 := by
  unfold maskLabK
  refine bcast_eq_of_all _ _ 1#1 (fun j => ?_) q
  refine reduce_andi_ones _ _ _ _ (fun k => ?_) (fun _ => rfl) j
  have hr := wrapLabK_range a2 h k
  exact inrange_at (wrapLabK a2) _ _ k 80 rfl toInt_80 hr.1 (by omega)

variable {F : FTy → Type} [FloatOps F]

/-- Under the label range the take at the labels is the gather at the wrapped labels. -/
theorem takeLabK_eq (p : FVec F S2x100x81 .f32) (a2 : IVec S2x64 32)
    (h : ∀ i : S2x64.Idx, 0 ≤ (a2 i).toInt ∧ (a2 i).toInt < 81) :
    takeLabK p a2 = Host.gather gather_S2x100x81_S2x64x1_S2x100x64_1_2_0_0_2_2_11001 p (wrapLabK a2) := by
  funext q
  unfold takeLabK
  rw [ValueIdx.select_apply, maskLabK_one a2 h q, ValueIdx.select_one]

/-! ## The sampled points -/

/-- The wrapped point index is the point index: in [0, 147456). -/
theorem wrapPtK_range (a4 : IVec S1024 32) (h : ∀ i : S1024.Idx, 0 ≤ (a4 i).toInt ∧ (a4 i).toInt < 147456)
    (k : S1024x1.Idx) : 0 ≤ (wrapPtK a4 k).toInt ∧ (wrapPtK a4 k).toInt < 147456 := by
  unfold wrapPtK
  refine bcast_range _ _ 147456 (fun i => ?_) k
  rw [wrap_at a4 _ _ i (h i).1]
  · exact h i
  · rfl

/-- The point mask is 1 everywhere. -/
theorem maskPtK_one (a4 : IVec S1024 32) (h : ∀ i : S1024.Idx, 0 ≤ (a4 i).toInt ∧ (a4 i).toInt < 147456)
    (j : S1024.Idx) : maskPtK a4 j = 1#1 := by
  unfold maskPtK
  refine reduce_andi_ones _ _ _ _ (fun k => ?_) (fun _ => rfl) j
  have hr := wrapPtK_range a4 h k
  exact inrange_at (wrapPtK a4) _ _ k 147455 rfl toInt_147455 hr.1 (by omega)

/-- Under the point range the take of the logits at the points is the gather at the wrapped points. -/
theorem xsK_eq (v0 : FVec F S2x100x147456 .f32) (a4 : IVec S1024 32)
    (h : ∀ i : S1024.Idx, 0 ≤ (a4 i).toInt ∧ (a4 i).toInt < 147456) :
    xsK v0 a4 = Host.gather gather_S2x100x147456_S1024x1_S2x100x1024_01_2_n_n_2_1_21001 v0 (wrapPtK a4) := by
  funext q
  unfold xsK maskPtXK
  rw [ValueIdx.select_apply, bcast_eq_of_all _ _ 1#1 (maskPtK_one a4 h) q, ValueIdx.select_one]

/-- Under the point range the take of the masks at the points is the gather at the wrapped points. -/
theorem ysK_eq (v1f : FVec F S2x64x147456 .f32) (a4 : IVec S1024 32)
    (h : ∀ i : S1024.Idx, 0 ≤ (a4 i).toInt ∧ (a4 i).toInt < 147456) :
    ysK v1f a4 = Host.gather gather_S2x64x147456_S1024x1_S2x64x1024_01_2_n_n_2_1_2641 v1f (wrapPtK a4) := by
  funext q
  unfold ysK maskPtYK
  rw [ValueIdx.select_apply, bcast_eq_of_all _ _ 1#1 (maskPtK_one a4 h) q, ValueIdx.select_one]

end Cert.KernelIdeal.Fr

end
-- ==== Proof.Bridge.SumPix.lean ====
/-
  A sum over the 147456 pixels of an image is the sum over its 12 tiles of the sums over a tile's 12288 pixels:
  pixel p = t · 12288 + j for exactly one tile t and offset j.
-/
import proofs.«422936_j83648783057218_1_alg».proof.Proof.KI.FoldSpec
import Mathlib.Algebra.BigOperators.Fin
import Mathlib.Logic.Equiv.Fin.Basic

namespace Cert.KernelIdeal.Fr

/-- The pair (tile, offset) of a pixel, as the product equivalence reads it. -/
theorem pix_eq (t : Fin 12) (j : Fin 12288) : pix t j = finProdFinEquiv (t, j) := by
  apply Fin.ext
  simp only [pix, finProdFinEquiv_apply_val]
  omega

/-- Summing over all pixels is summing tile by tile. -/
theorem sum_pix {M : Type*} [AddCommMonoid M] (f : Fin 147456 → M) :
    ∑ p : Fin 147456, f p = ∑ t : Fin 12, ∑ j : Fin 12288, f (pix t j) := by
  rw [← Finset.sum_product']
  simp only [pix_eq]
  exact ((finProdFinEquiv (m := 12) (n := 12288)).sum_comp f).symm

end Cert.KernelIdeal.Fr
-- ==== Proof.Bridge.Sums.lean ====
/-
  The reference's three whole-image sums are the tile-by-tile sums of the kernel. At the extended reals the host's
  dot_general over the 147456 pixels is the plain sum of products and the host's sum the plain sum (a zero initial
  value); the reference's sigmoid 1 / (1 + exp (-x)) is the logistic function; a sum over the pixels is the sum over
  the 12 tiles of the sums over a tile.
-/
import proofs.«422936_j83648783057218_1_alg».proof.Proof.Ref.Spec
import proofs.«422936_j83648783057218_1_alg».proof.Proof.Bridge.SumPix
import Idealize.ShloMosaic.PureOps.Ideal.Laws
import Idealize.ShloMosaic.Lib.ValueIdx
import Idealize.ShloMosaic.Lib.ValueLayout
import Idealize.ShloMosaic.Lib.Pipeline.Value

noncomputable section

namespace Cert.Bridge

open Cert.ReferenceIdeal.Hand Cert.KernelIdeal.Fr Idealize.ShloMosaic Idealize.ShloMosaic.ValueIdx

/-- The integer masks with the two image axes flattened. -/
abbrev maskFlat (a3 : IVec Cert.ReferenceIdeal.S2x64x384x384 32) : IVec Cert.ReferenceIdeal.S2x64x147456 32 :=
  shapeCast Cert.ReferenceIdeal.S2x64x147456 a3 Cert.ReferenceIdeal.Gen.shapeCasts_S2x64x384x384_S2x64x147456

namespace Sums

open Cert.ReferenceIdeal Cert.ReferenceIdeal.Gen

/-! ### The dot_general's operand indices, axis by axis

The dimension numbers contract axis 2 of both operands, batch over axis 0 of both, and keep axis 1 of each:
the left operand is read at (j 0, j 1, c), the right operand at (j 0, j 2, c). -/

theorem lhs_0 (j : S2x100x64.Idx) (c : dot_S2x100x147456_S2x64x147456_S2x100x64_2_2_1_1_0_0.contr.Idx) :
    (dot_S2x100x147456_S2x64x147456_S2x100x64_2_2_1_1_0_0.lhsIdx j c 0 : ℕ) = j 0 := by
  simp [DotDims.lhsIdx, dot_S2x100x147456_S2x64x147456_S2x100x64_2_2_1_1_0_0]; rfl

theorem lhs_1 (j : S2x100x64.Idx) (c : dot_S2x100x147456_S2x64x147456_S2x100x64_2_2_1_1_0_0.contr.Idx) :
    (dot_S2x100x147456_S2x64x147456_S2x100x64_2_2_1_1_0_0.lhsIdx j c 1 : ℕ) = j 1 := by
  simp [DotDims.lhsIdx, dot_S2x100x147456_S2x64x147456_S2x100x64_2_2_1_1_0_0]; rfl

theorem lhs_2 (j : S2x100x64.Idx) (c : dot_S2x100x147456_S2x64x147456_S2x100x64_2_2_1_1_0_0.contr.Idx) :
    (dot_S2x100x147456_S2x64x147456_S2x100x64_2_2_1_1_0_0.lhsIdx j c 2 : ℕ) = c ⟨0, by decide⟩ := by
  simp [DotDims.lhsIdx, dot_S2x100x147456_S2x64x147456_S2x100x64_2_2_1_1_0_0]; rfl

theorem rhs_0 (j : S2x100x64.Idx) (c : dot_S2x100x147456_S2x64x147456_S2x100x64_2_2_1_1_0_0.contr.Idx) :
    (dot_S2x100x147456_S2x64x147456_S2x100x64_2_2_1_1_0_0.rhsIdx j c 0 : ℕ) = j 0 := by
  simp [DotDims.rhsIdx, dot_S2x100x147456_S2x64x147456_S2x100x64_2_2_1_1_0_0]; rfl

theorem rhs_1 (j : S2x100x64.Idx) (c : dot_S2x100x147456_S2x64x147456_S2x100x64_2_2_1_1_0_0.contr.Idx) :
    (dot_S2x100x147456_S2x64x147456_S2x100x64_2_2_1_1_0_0.rhsIdx j c 1 : ℕ) = j 2 := by
  simp [DotDims.rhsIdx, dot_S2x100x147456_S2x64x147456_S2x100x64_2_2_1_1_0_0]; rfl

theorem rhs_2 (j : S2x100x64.Idx) (c : dot_S2x100x147456_S2x64x147456_S2x100x64_2_2_1_1_0_0.contr.Idx) :
    (dot_S2x100x147456_S2x64x147456_S2x100x64_2_2_1_1_0_0.rhsIdx j c 2 : ℕ) = c ⟨0, by decide⟩ := by
  simp [DotDims.rhsIdx, dot_S2x100x147456_S2x64x147456_S2x100x64_2_2_1_1_0_0]; rfl

/-- At pixel `p` of the contraction the left operand is read at (b, q, p). -/
theorem lhsIdx_eq (b : Fin 2) (q : Fin 100) (k : Fin 64) (p : Fin 147456) :
    dot_S2x100x147456_S2x64x147456_S2x100x64_2_2_1_1_0_0.lhsIdx (ix3 b q k)
      ((contrEquiv1 dot_S2x100x147456_S2x64x147456_S2x100x64_2_2_1_1_0_0 147456 rfl rfl).symm p) = ix3 b q p := by
  funext a; apply Fin.ext
  match a with
  | ⟨0, _⟩ => exact lhs_0 _ _
  | ⟨1, _⟩ => exact lhs_1 _ _
  | ⟨2, _⟩ =>
    exact (lhs_2 _ _).trans (contrEquiv1_symm_val dot_S2x100x147456_S2x64x147456_S2x100x64_2_2_1_1_0_0 147456 rfl rfl p)

/-- At pixel `p` of the contraction the right operand is read at (b, k, p). -/
theorem rhsIdx_eq (b : Fin 2) (q : Fin 100) (k : Fin 64) (p : Fin 147456) :
    dot_S2x100x147456_S2x64x147456_S2x100x64_2_2_1_1_0_0.rhsIdx (ix3 b q k)
      ((contrEquiv1 dot_S2x100x147456_S2x64x147456_S2x100x64_2_2_1_1_0_0 147456 rfl rfl).symm p) = ix3 b k p := by
  funext a; apply Fin.ext
  match a with
  | ⟨0, _⟩ => exact rhs_0 _ _
  | ⟨1, _⟩ => exact rhs_1 _ _
  | ⟨2, _⟩ =>
    exact (rhs_2 _ _).trans (contrEquiv1_symm_val dot_S2x100x147456_S2x64x147456_S2x100x64_2_2_1_1_0_0 147456 rfl rfl p)

/-! ### The two operands at an index -/

/-- The word 0x3F800000 is the number 1. -/
theorem ofBits_one_f32 : Ideal.ofBits .f32 0x3F800000#32 = 1 := by
  simp [Ideal.ofBits, Ideal.ieee, -EReal.coe_mul]; norm_num

/-- The reference's sigmoid, 1 / (1 + exp (-x)) pointwise, is the logistic function of the flattened logits. -/
theorem sig_apply (a1 : FVec Ideal S2x100x384x384 .f32) (i : S2x100x147456.Idx) :
    sig (F := Ideal) a1 i = Ideal.logistic (predFlat (F := Ideal) a1 i) := by
  show Ideal.div (Ideal.ofBits .f32 0x3F800000#32)
      (Ideal.ofBits .f32 0x3F800000#32 + Ideal.exp (-(predFlat (F := Ideal) a1 i))) = _
  rw [ofBits_one_f32]; rfl

/-- The float masks are the flattened integer masks converted entry by entry. -/
theorem gtFlat_apply (a3 : IVec S2x64x384x384 32) (i : S2x64x147456.Idx) :
    gtFlat (F := Ideal) a3 i = FloatOps.sitofp (F := Ideal) .f32 (maskFlat a3 i) := rfl

/-! ### The three whole-image sums as sums over the 147456 pixels -/

theorem inter_apply (a1 : FVec Ideal S2x100x384x384 .f32) (a3 : IVec S2x64x384x384 32)
    (b : Fin 2) (q : Fin 100) (k : Fin 64) :
    inter (F := Ideal) a1 a3 (ix3 b q k)
      = ∑ p : Fin 147456, Ideal.logistic (predFlat (F := Ideal) a1 (ix3 b q p))
          * FloatOps.sitofp (F := Ideal) .f32 (maskFlat a3 (ix3 b k p)) := by
  show FloatOps.dotGeneral dot_S2x100x147456_S2x64x147456_S2x100x64_2_2_1_1_0_0 none _
      (sig (F := Ideal) a1) (gtFlat (F := Ideal) a3) (ix3 b q k) = _
  rw [Ideal.dotGeneral_apply,
    ← Equiv.sum_comp (contrEquiv1 dot_S2x100x147456_S2x64x147456_S2x100x64_2_2_1_1_0_0 147456 rfl rfl).symm]
  refine Finset.sum_congr rfl fun p _ => ?_
  rw [lhsIdx_eq, rhsIdx_eq, sig_apply, gtFlat_apply]

/-! ### The host's sum over the pixel axis and the broadcast around it -/

/-- The kept index (b, q) with pixel `p` put back on the summed axis is (b, q, p). -/
theorem lift_pred (h : S2x100x147456.Reduces [2] S2x100) (b : Fin 2) (q : Fin 100) (p : Fin 147456) :
    h.lift (ix2 b q) p = ix3 b q p := by
  funext a; apply Fin.ext
  match a with
  | ⟨0, _⟩ => rfl
  | ⟨1, _⟩ => rfl
  | ⟨2, _⟩ => rfl

/-- The kept index (b, k) with pixel `p` put back on the summed axis is (b, k, p). -/
theorem lift_mask (h : S2x64x147456.Reduces [2] S2x64) (b : Fin 2) (k : Fin 64) (p : Fin 147456) :
    h.lift (ix2 b k) p = ix3 b k p := by
  funext a; apply Fin.ext
  match a with
  | ⟨0, _⟩ => rfl
  | ⟨1, _⟩ => rfl
  | ⟨2, _⟩ => rfl

/-- The host's sum of a [2, 100, 147456] array over its last axis from a zero initial value, at (b, q). -/
theorem reduce_pred (x : FVec Ideal S2x100x147456 .f32) (b : Fin 2) (q : Fin 100) :
    Host.reduceAdd (F := Ideal) x (constant (F := Ideal) S_ .f32 0x00000000#32)
      reducesTo_S2x100x147456_S2x100_d2 h_S_ (ix2 b q) = ∑ p : Fin 147456, x (ix3 b q p) := by
  have hr : S2x100x147456.Reduces [2] S2x100 := by decide
  show Ideal.hostReduceAdd reducesTo_S2x100x147456_S2x100_d2 x (Ideal.ofBits .f32 0x00000000#32) (ix2 b q) = _
  rw [Ideal.hostReduceAdd_single reducesTo_S2x100x147456_S2x100_d2 hr, Ideal.ofBits_zero_f32, zero_add]
  show ∑ p : Fin 147456, x (hr.lift (ix2 b q) p) = _
  exact Finset.sum_congr rfl fun p _ => by rw [lift_pred]

/-- The host's sum of a [2, 64, 147456] array over its last axis from a zero initial value, at (b, k). -/
theorem reduce_mask (x : FVec Ideal S2x64x147456 .f32) (b : Fin 2) (k : Fin 64) :
    Host.reduceAdd (F := Ideal) x (constant (F := Ideal) S_ .f32 0x00000000#32)
      reducesTo_S2x64x147456_S2x64_d2 h_S_ (ix2 b k) = ∑ p : Fin 147456, x (ix3 b k p) := by
  have hr : S2x64x147456.Reduces [2] S2x64 := by decide
  show Ideal.hostReduceAdd reducesTo_S2x64x147456_S2x64_d2 x (Ideal.ofBits .f32 0x00000000#32) (ix2 b k) = _
  rw [Ideal.hostReduceAdd_single reducesTo_S2x64x147456_S2x64_d2 hr, Ideal.ofBits_zero_f32, zero_add]
  show ∑ p : Fin 147456, x (hr.lift (ix2 b k) p) = _
  exact Finset.sum_congr rfl fun p _ => by rw [lift_mask]

/-- A [2, 100] array as a column [2, 100, 1], at (b, q, 0). -/
theorem bcast_col (x : FVec Ideal S2x100 .f32) (b : Fin 2) (q : Fin 100) :
    broadcastInDim S2x100x1 ![0, 1] bcast_S2x100_S2x100x1_0_1 x (ix3 b q 0) = x (ix2 b q) :=
  broadcastInDim_apply (s := S2x100) (t := S2x100x1) ![0, 1] bcast_S2x100_S2x100x1_0_1 x (ix3 b q 0) (ix2 b q) (by
    intro a
    match a with
    | ⟨0, _⟩ => rfl
    | ⟨1, _⟩ => rfl)

/-- A [2, 64] array as a row [2, 1, 64], at (b, 0, k). -/
theorem bcast_row (x : FVec Ideal S2x64 .f32) (b : Fin 2) (k : Fin 64) :
    broadcastInDim S2x1x64 ![0, 2] bcast_S2x64_S2x1x64_0_2 x (ix3 b 0 k) = x (ix2 b k) :=
  broadcastInDim_apply (s := S2x64) (t := S2x1x64) ![0, 2] bcast_S2x64_S2x1x64_0_2 x (ix3 b 0 k) (ix2 b k) (by
    intro a
    match a with
    | ⟨0, _⟩ => rfl
    | ⟨1, _⟩ => rfl)

theorem psum_apply (a1 : FVec Ideal S2x100x384x384 .f32) (b : Fin 2) (q : Fin 100) :
    psum (F := Ideal) a1 (ix3 b q 0) = ∑ p : Fin 147456, Ideal.logistic (predFlat (F := Ideal) a1 (ix3 b q p)) := by
  show broadcastInDim S2x100x1 ![0, 1] bcast_S2x100_S2x100x1_0_1
      (Host.reduceAdd (F := Ideal) (sig (F := Ideal) a1) (constant (F := Ideal) S_ .f32 0x00000000#32)
        reducesTo_S2x100x147456_S2x100_d2 h_S_) (ix3 b q 0) = _
  rw [bcast_col, reduce_pred]
  exact Finset.sum_congr rfl fun p _ => sig_apply a1 _

theorem gsum_apply (a3 : IVec S2x64x384x384 32) (b : Fin 2) (k : Fin 64) :
    gsum (F := Ideal) a3 (ix3 b 0 k) = ∑ p : Fin 147456, FloatOps.sitofp (F := Ideal) .f32 (maskFlat a3 (ix3 b k p)) := by
  show broadcastInDim S2x1x64 ![0, 2] bcast_S2x64_S2x1x64_0_2
      (Host.reduceAdd (F := Ideal) (gtFlat (F := Ideal) a3) (constant (F := Ideal) S_ .f32 0x00000000#32)
        reducesTo_S2x64x147456_S2x64_d2 h_S_) (ix3 b 0 k) = _
  rw [bcast_row, reduce_mask]
  exact Finset.sum_congr rfl fun p _ => gtFlat_apply a3 _

end Sums

/-- The reference's intersection at (b, q, k) is the tile-by-tile sum of sigmoid × mask. -/
theorem inter_eq (a1 : FVec Ideal Cert.ReferenceIdeal.S2x100x384x384 .f32) (a3 : IVec Cert.ReferenceIdeal.S2x64x384x384 32)
    (b : Fin 2) (q : Fin 100) (k : Fin 64) :
    inter (F := Ideal) a1 a3 (ix3 b q k) = specI (predFlat (F := Ideal) a1) (maskFlat a3) b q k := by
  rw [Sums.inter_apply, sum_pix]
  rfl

/-- The reference's sigmoid sum at (b, q) is the tile-by-tile sum. -/
theorem psum_eq (a1 : FVec Ideal Cert.ReferenceIdeal.S2x100x384x384 .f32) (b : Fin 2) (q : Fin 100) :
    psum (F := Ideal) a1 (ix3 b q 0) = specP (predFlat (F := Ideal) a1) b q := by
  rw [Sums.psum_apply, sum_pix]
  rfl

/-- The reference's mask sum at (b, k) is the tile-by-tile sum. -/
theorem gsum_eq (a3 : IVec Cert.ReferenceIdeal.S2x64x384x384 32) (b : Fin 2) (k : Fin 64) :
    gsum (F := Ideal) a3 (ix3 b 0 k) = specG (maskFlat a3) b k := by
  rw [Sums.gsum_apply, sum_pix]
  rfl

end Cert.Bridge

end
-- ==== Proof.Bridge.Comb.lean ====
/-
  The two programs share their host chains: the softmax, the index wrap of the labels and of the sampled pixels, and
  everything that turns the class cost, the two sampled arrays and the three sums into the final cost matrix. Each side
  transcribes its own program; here the two transcriptions are shown to be the same functions.
-/
import proofs.«422936_j83648783057218_1_alg».proof.Proof.Ref.Spec
import proofs.«422936_j83648783057218_1_alg».proof.Proof.KI.TailSpec

noncomputable section

namespace Cert.Bridge

open Cert.ReferenceIdeal.Hand Cert.KernelIdeal.Fr Idealize.ShloMosaic

variable {F : FTy → Type} [FloatOps F]

theorem probs_eq (a0 : FVec F Cert.KernelIdeal.S2x100x81 .f32) : probsK (F := F) a0 = probs (F := F) a0 := by
  simp only [probsK, probs]

theorem wrapLab_eq (a2 : IVec Cert.KernelIdeal.S2x64 32) : wrapLabK a2 = wrapLab a2 := by
  simp only [wrapLabK, wrapLab]

theorem wrapPt_eq (a4 : IVec Cert.KernelIdeal.S1024 32) : wrapPtK a4 = wrapPt a4 := by
  simp only [wrapPtK, wrapPt]

theorem dice_eq (I : FVec F Cert.KernelIdeal.S2x100x64 .f32) (P : FVec F Cert.KernelIdeal.S2x100x1 .f32)
    (G : FVec F Cert.KernelIdeal.S2x1x64 .f32) : diceK (F := F) I P G = dice (F := F) I P G := by
  simp only [diceK, dice, splatQK]

theorem bce_eq (x : FVec F Cert.KernelIdeal.S2x100x1024 .f32) (y : FVec F Cert.KernelIdeal.S2x64x1024 .f32) :
    bceK (F := F) x y = bce (F := F) x y := by
  simp only [bceK, bce, softplusK, splatQK]
  rfl

theorem combine_eq (cc : FVec F Cert.KernelIdeal.S2x100x64 .f32) (x : FVec F Cert.KernelIdeal.S2x100x1024 .f32) (y : FVec F Cert.KernelIdeal.S2x64x1024 .f32)
    (I : FVec F Cert.KernelIdeal.S2x100x64 .f32) (P : FVec F Cert.KernelIdeal.S2x100x1 .f32) (G : FVec F Cert.KernelIdeal.S2x1x64 .f32) :
    combineK (F := F) cc x y I P G = combine (F := F) cc x y I P G := by
  simp only [combineK, sumK, combine, weigh, bce_eq, dice_eq]
  simp only [ninfK, pinfK, nanK, nanToNum, splatQK]

end Cert.Bridge

end
-- ==== Proof.PreDecode.lean ====
/-
  The precondition read back. The printed predicate is a conjunction of six `jnp.all`s, each an and-reduction over
  every axis of a comparison against a broadcast constant, and the claim states that its one word is 1. A conjunction
  of one-bit words is 1 exactly when each is; an and-reduction into the one-index result is 1 only if every element
  is; and a signed comparison word being 1 is the integer inequality between its operands read signed. So every label
  lies in [0, 81) and every point index in [0, 147456).
-/
import proofs.«422936_j83648783057218_1_alg».proof.Pre_finite_inputs
import proofs.«422936_j83648783057218_1_alg».proof.Proof.Gen.Pre_finite_inputs
import Idealize.ShloMosaic.Lib.ReduceAll
import Idealize.ShloMosaic.Lib.StableHlo.Predicate

namespace Cert.PreDecode

open Idealize.ShloMosaic Cert.Pre_finite_inputs

/-- The scalar shape has one index. -/
instance : Subsingleton S_.Idx := ⟨fun a b => funext fun d => d.elim0⟩

theorem toInt_zero : (0#32 : BitVec 32).toInt = 0 := by decide
theorem toInt_81 : (81#32 : BitVec 32).toInt = 81 := by decide
theorem toInt_147456 : (147456#32 : BitVec 32).toInt = 147456 := by decide

variable {F : FTy → Type} [FloatOps F]

/-- The four integer conjuncts of the precondition, each still an and-reduction that is 1. -/
theorem conjuncts (a0 : FVec F S2x100x81 .f32) (a1 : FVec F S2x100x384x384 .f32) (a2 : IVec S2x64 32)
    (a3 : IVec S2x64x384x384 32) (a4 : IVec S1024 32)
    (h : Cert.Pre_finite_inputs.fn (F := F) a0 a1 a2 a3 a4 = fun _ => 1#1) :
    ((∀ i : S2x64.Idx, IntOp.cmpi .sge (a2 i) 0#32 = 1#1) ∧ (∀ i : S2x64.Idx, IntOp.cmpi .slt (a2 i) 81#32 = 1#1)) ∧
    ((∀ i : S1024.Idx, IntOp.cmpi .sge (a4 i) 0#32 = 1#1) ∧ (∀ i : S1024.Idx, IntOp.cmpi .slt (a4 i) 147456#32 = 1#1)) := by
  have e := congrFun h (fun a => a.elim0)
  dsimp only [Cert.Pre_finite_inputs.fn, Cert.Pre_finite_inputs.fn_part1] at e
  simp only [andi, IntOp.andi_eq_one] at e
  obtain ⟨⟨⟨⟨⟨-, -⟩, h2⟩, h3⟩, h4⟩, h5⟩ := e
  exact ⟨⟨fun i => Host.reduce_andi_all _ _ _ _ _ h2 i, fun i => Host.reduce_andi_all _ _ _ _ _ h3 i⟩,
    ⟨fun i => Host.reduce_andi_all _ _ _ _ _ h4 i, fun i => Host.reduce_andi_all _ _ _ _ _ h5 i⟩⟩

/-- Every label lies in [0, 81). -/
theorem labels_range (a0 : FVec F S2x100x81 .f32) (a1 : FVec F S2x100x384x384 .f32) (a2 : IVec S2x64 32)
    (a3 : IVec S2x64x384x384 32) (a4 : IVec S1024 32)
    (h : Cert.Pre_finite_inputs.fn (F := F) a0 a1 a2 a3 a4 = fun _ => 1#1) :
    ∀ i : S2x64.Idx, 0 ≤ (a2 i).toInt ∧ (a2 i).toInt < 81 := by
  obtain ⟨⟨h0, h1⟩, -⟩ := conjuncts a0 a1 a2 a3 a4 h
  intro i
  have g0 := IntOp.cmpi_sge.1 (h0 i)
  have g1 := IntOp.cmpi_slt.1 (h1 i)
  rw [toInt_zero] at g0
  rw [toInt_81] at g1
  exact ⟨g0, g1⟩

/-- Every point index lies in [0, 147456). -/
theorem points_range (a0 : FVec F S2x100x81 .f32) (a1 : FVec F S2x100x384x384 .f32) (a2 : IVec S2x64 32)
    (a3 : IVec S2x64x384x384 32) (a4 : IVec S1024 32)
    (h : Cert.Pre_finite_inputs.fn (F := F) a0 a1 a2 a3 a4 = fun _ => 1#1) :
    ∀ i : S1024.Idx, 0 ≤ (a4 i).toInt ∧ (a4 i).toInt < 147456 := by
  obtain ⟨-, ⟨h0, h1⟩⟩ := conjuncts a0 a1 a2 a3 a4 h
  intro i
  have g0 := IntOp.cmpi_sge.1 (h0 i)
  have g1 := IntOp.cmpi_slt.1 (h1 i)
  rw [toInt_zero] at g0
  rw [toInt_147456] at g1
  exact ⟨g0, g1⟩

end Cert.PreDecode
-- ==== Proof.Bridge.Main.lean ====
/-
  The kernel's result is the reference's, as functions of the five argument arrays, wherever every label lies in
  [0, 81) and every sampled pixel position in [0, 147456). Both results are one chain applied to six arrays: the class
  cost, the logits and the masks at the sampled pixels, and the three whole-image sums. On that range each of the
  kernel's range-checked gathers is the plain gather, so the class cost and the sampled arrays agree; the region's three
  result arrays are the tile-by-tile sums, which are the reference's whole-image sums; and the chain is the same.
-/
import proofs.«422936_j83648783057218_1_alg».proof.Proof.KI.Fold
import proofs.«422936_j83648783057218_1_alg».proof.Proof.KI.Masks
import proofs.«422936_j83648783057218_1_alg».proof.Proof.Bridge.Sums
import proofs.«422936_j83648783057218_1_alg».proof.Proof.Bridge.Comb
import proofs.«422936_j83648783057218_1_alg».proof.Proof.PreDecode

set_option maxRecDepth 16384

noncomputable section

namespace Cert.Bridge

open Cert.KernelIdeal Cert.KernelIdeal.Gen Cert.KernelIdeal.Fr Cert.ReferenceIdeal.Hand
open Idealize.ShloMosaic Idealize.ShloMosaic.TcCoe Idealize.ShloMosaic.ValueIdx Idealize.SL.Sem

variable (m : (ℓ : Loc nD τ sig) → Buf (Elt Ideal) ℓ)

/-- The class cost agrees where the labels are in range. -/
theorem cc_eq (a0 : FVec Ideal S2x100x81 .f32) (a2 : IVec S2x64 32)
    (hl : ∀ i : S2x64.Idx, 0 ≤ (a2 i).toInt ∧ (a2 i).toInt < 81) :
    ccK (F := Ideal) a0 a2 = cc (F := Ideal) a0 a2 := by
  simp only [ccK, cc]
  rw [takeLabK_eq _ _ hl, probs_eq, wrapLab_eq]
  rfl

/-- The logits at the sampled pixels agree where the positions are in range. -/
theorem xs_eq (a1 : FVec Ideal S2x100x384x384 .f32) (a4 : IVec S1024 32)
    (hp : ∀ i : S1024.Idx, 0 ≤ (a4 i).toInt ∧ (a4 i).toInt < 147456) :
    xsK (F := Ideal) (predFlat (F := Ideal) a1) a4 = xs (F := Ideal) a1 a4 := by
  rw [xsK_eq _ _ hp, wrapPt_eq]
  rfl

/-- The masks at the sampled pixels agree where the positions are in range. -/
theorem ys_eq (a3 : IVec S2x64x384x384 32) (a4 : IVec S1024 32)
    (hp : ∀ i : S1024.Idx, 0 ≤ (a4 i).toInt ∧ (a4 i).toInt < 147456) :
    ysK (F := Ideal) (gtFlatK (F := Ideal) (maskFlat a3)) a4 = ys (F := Ideal) a3 a4 := by
  rw [ysK_eq _ _ hp, wrapPt_eq]
  rfl

/-- The region's intersection array is the reference's. -/
theorem arrI_eq (c : Dev nD) :
    ((dats (F := Ideal) m 0 c).arrAt 2 cfg0.N : Vec Ideal S2x100x64 .f32)
      = inter (F := Ideal) (m ((c : Thread nD τ).loc main_arg1)) (m ((c : Thread nD τ).loc main_arg3)) := by
  refine funext (fun (i : S2x100x64.Idx) => ?_)
  obtain ⟨b, q, k, rfl⟩ : ∃ (b : Fin 2) (q : Fin 100) (k : Fin 64), i = ix3 b q k := ⟨i 0, i 1, i 2, eq_ix3 i⟩
  refine (finalI m c b q k).trans ?_
  rw [V_main_v0, V_main_v1]
  exact (inter_eq _ _ b q k).symm

/-- The region's prediction-sum array is the reference's. -/
theorem arrP_eq (c : Dev nD) :
    ((dats (F := Ideal) m 0 c).arrAt 3 cfg0.N : Vec Ideal S2x100x1 .f32)
      = psum (F := Ideal) (m ((c : Thread nD τ).loc main_arg1)) := by
  refine funext (fun (i : S2x100x1.Idx) => ?_)
  obtain ⟨b, q, z, rfl⟩ : ∃ (b : Fin 2) (q : Fin 100) (z : Fin 1), i = ix3 b q z := ⟨i 0, i 1, i 2, eq_ix3 i⟩
  obtain rfl : z = 0 := Subsingleton.elim _ _
  refine (finalP m c b q).trans ?_
  rw [V_main_v0]
  exact (psum_eq _ b q).symm

/-- The region's mask-sum array is the reference's. -/
theorem arrG_eq (c : Dev nD) :
    ((dats (F := Ideal) m 0 c).arrAt 4 cfg0.N : Vec Ideal S2x1x64 .f32)
      = gsum (F := Ideal) (m ((c : Thread nD τ).loc main_arg3)) := by
  refine funext (fun (i : S2x1x64.Idx) => ?_)
  obtain ⟨b, z, k, rfl⟩ : ∃ (b : Fin 2) (z : Fin 1) (k : Fin 64), i = ix3 b z k := ⟨i 0, i 1, i 2, eq_ix3 i⟩
  obtain rfl : z = 0 := Subsingleton.elim _ _
  refine (finalG m c b k).trans ?_
  rw [V_main_v1]
  exact (gsum_eq _ b k).symm

/-- THE BRIDGE: under the precondition the kernel's result term is the reference's. -/
theorem result_eq (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1) :
    resultK (F := Ideal) (m ((c : Thread nD τ).loc main_arg0)) (m ((c : Thread nD τ).loc main_arg2)) (m ((c : Thread nD τ).loc main_arg4))
        (V m c main_v0) (V m c main_v1)
        ((dats (F := Ideal) m 0 c).arrAt 2 cfg0.N) ((dats (F := Ideal) m 0 c).arrAt 3 cfg0.N) ((dats (F := Ideal) m 0 c).arrAt 4 cfg0.N)
      = result (F := Ideal) (m ((c : Thread nD τ).loc main_arg0)) (m ((c : Thread nD τ).loc main_arg1)) (m ((c : Thread nD τ).loc main_arg2))
          (m ((c : Thread nD τ).loc main_arg3)) (m ((c : Thread nD τ).loc main_arg4)) := by
  have hl := Cert.PreDecode.labels_range _ _ _ _ _ hpre
  have hp := Cert.PreDecode.points_range _ _ _ _ _ hpre
  unfold resultK result
  rw [combine_eq, cc_eq _ _ hl, V_main_v0 m c, V_main_v1 m c]
  rw [show (shapeCast S2x100x147456 (m ((c : Thread nD τ).loc main_arg1) : Vec Ideal S2x100x384x384 .f32) shapeCasts_S2x100x384x384_S2x100x147456)
        = predFlat (F := Ideal) (m ((c : Thread nD τ).loc main_arg1)) from rfl,
      show (shapeCast S2x64x147456 (m ((c : Thread nD τ).loc main_arg3) : Vec Ideal S2x64x384x384 .i32) shapeCasts_S2x64x384x384_S2x64x147456)
        = maskFlat (m ((c : Thread nD τ).loc main_arg3)) from rfl,
      xs_eq _ _ hp, ys_eq _ _ hp]
  have hI := arrI_eq m c
  have hP := arrP_eq m c
  have hG := arrG_eq m c
  rw [show ((dats (F := Ideal) m 0 c).arrAt 2 cfg0.N) = inter (F := Ideal) (m ((c : Thread nD τ).loc main_arg1)) (m ((c : Thread nD τ).loc main_arg3)) from hI,
      show ((dats (F := Ideal) m 0 c).arrAt 3 cfg0.N) = psum (F := Ideal) (m ((c : Thread nD τ).loc main_arg1)) from hP,
      show ((dats (F := Ideal) m 0 c).arrAt 4 cfg0.N) = gsum (F := Ideal) (m ((c : Thread nD τ).loc main_arg3)) from hG]

end Cert.Bridge

end
-- ==== Proof.lean ====
/-
  A matching-cost matrix C[b,q,k] for 2 batches, 100 queries and 64 ground-truth masks: twice the negated softmax
  probability of the mask's label, plus five times a binary cross-entropy of the query's logits against the mask at
  1024 sampled pixels, plus five times a dice cost 1 − 2·inter / (psum + gsum + ε) over the whole 384×384 image, cleaned
  by nan_to_num. The kernel computes the three whole-image sums inter, psum, gsum in one region over a grid of 2 batches
  × 12 tiles of 12288 pixels, accumulating tile by tile, and everything else on the host; the reference computes all of
  it on the host.

  The certificate. Each program runs to its end without a fault and leaves its five arguments as they were: the kernel's
  program by the region's frame run (Proof/K and Proof/KI: the body's two cases, the accumulators point by point, the
  host operations around the region), the reference by its run read back (Proof/Ref). At the extended reals, from
  memories that agree on the arguments and satisfy the precondition — float inputs finite, every label in [0, 81),
  every sampled pixel position in [0, 147456) — the two results are equal: both are one chain of host operations applied
  to six arrays, and those six arrays agree (Proof/Bridge): on the stated ranges the kernel's range-checked gathers are
  the reference's plain gathers, and the region's tile-by-tile sums are the reference's sums over all pixels, addition
  of extended reals being commutative and associative. The idealization rewrote nothing, so preserves is trivial.
-/
import proofs.«422936_j83648783057218_1_alg».proof.Defs
import proofs.«422936_j83648783057218_1_alg».proof.Proof.Gen.Kernel
import proofs.«422936_j83648783057218_1_alg».proof.Proof.Gen.KernelIdeal
import proofs.«422936_j83648783057218_1_alg».proof.Proof.Gen.ReferenceIdeal
import proofs.«422936_j83648783057218_1_alg».proof.Proof.Gen.Pre_finite_inputs
import proofs.«422936_j83648783057218_1_alg».proof.Proof.K.FrameClaim
import proofs.«422936_j83648783057218_1_alg».proof.Proof.KI.FrameClaim
import proofs.«422936_j83648783057218_1_alg».proof.Proof.KI.Tail
import proofs.«422936_j83648783057218_1_alg».proof.Proof.Ref.Run
import proofs.«422936_j83648783057218_1_alg».proof.Proof.Bridge.Main
import Idealize.ShloMosaic.Adequacy
import Idealize.ShloMosaic.Init

noncomputable section

namespace Cert.Proof

open Idealize.ShloMosaic Idealize.SL.Sem

/-- The kernel's program, read at the word level, runs and keeps its arguments. -/
theorem frame_k : Cert.frame_Kernel := fun m ρ _ => Cert.Kernel.Fr.frame (F := Bits) m ρ

/-- The same program read at the extended reals. -/
theorem frame_ki : Cert.frame_KernelIdeal := fun m ρ _ => Cert.KernelIdeal.Fr.frame (F := Ideal) m ρ

/-- The reference runs and keeps its arguments: its run with the result dropped. -/
theorem frame_r : Cert.frame_ReferenceIdeal := fun m ρ _ =>
  (θ_run Cert.ReferenceIdeal.defs _ _).mono (fun _ h c => (h c).2) (Cert.ReferenceIdeal.Hand.run (F := Ideal) m ρ)

/-- From agreeing arguments in range the two programs end with the same cost matrix. -/
theorem algebraic : Cert.algebraic_KernelIdeal_ReferenceIdeal := by
  intro m ρ m' ρ' hpre hagree
  refine ⟨_, Cert.KernelIdeal.Fr.run_value (F := Ideal) m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2.1, (hagree c).2.2.2.2]
  exact (Cert.Bridge.result_eq m c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
